-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg14 : FVec F S128x10 .f32) (main_arg15 : FVec F S10 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x10 .f32 := Host.absf main_arg14
  let main_cst_20 : FVec F S_ .f32 := constant S_ .f32 0x7F800000#32
  let main_v55 : FVec F S128x10 .f32 := broadcastInDim S128x10 ![] bcast_S_S128x10 main_cst_20
  let main_v56 : IVec S128x10 1 := cmpf .olt main_v54 main_v55
  let main_c_21 : IVec S_ 1 := constantI S_ 1 1#1
  let main_v57 : IVec S_ 1 := (fun x v => Host.reduce IntOp.andi x v reducesTo_S128x10_S_d0_1 h_S_) main_v56 main_c_21
  let main_v58 : IVec S_ 1 := andi main_v53 main_v57
  let main_v59 : FVec F S10 .f32 := Host.absf main_arg15
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  main_v63

def fn_part2 {F : FTy → Type} [FloatOps F] (main_arg10 : FVec F S128x128 .f32) (main_arg11 : FVec F S128x128 .f32) (main_arg12 : FVec F S128 .f32) (main_arg13 : FVec F S128x128 .f32) (main_arg14 : FVec F S128x10 .f32) (main_arg15 : FVec F S10 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg11
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg13
  let main_cst_18 : FVec F S_ .f32 := constant S_ .f32 0x7F800000#32
  let main_v50 : FVec F S128x128 .f32 := broadcastInDim S128x128 ![] bcast_S_S128x128 main_cst_18
  fn_part3 (F := F) main_arg14 main_arg15 main_v48 main_v49 main_v50

def fn_part1 {F : FTy → Type} [FloatOps F] (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128x10 .f32) (main_arg15 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_v33

def fn {F : FTy → Type} [FloatOps F] (main_arg0 : FVec F S100000x128 .f32) (main_arg1 : IVec S1600000 32) (main_arg2 : IVec S1600000 32) (main_arg3 : FVec F S1600000 .f32) (main_arg4 : IVec S100000 32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128x10 .f32) (main_arg15 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_arg14 main_arg15 main_v13 main_v16
-- ==== Kernel.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩
abbrev S100000x1 : Shape := ⟨2, ![100000, 1]⟩
abbrev S1x10 : Shape := ⟨2, ![1, 10]⟩
abbrev S64x10 : Shape := ⟨2, ![64, 10]⟩
abbrev S5000x1 : Shape := ⟨2, ![5000, 1]⟩
abbrev S64x128 : Shape := ⟨2, ![64, 128]⟩
abbrev S5000x64 : Shape := ⟨2, ![5000, 64]⟩
abbrev S64 : Shape := ⟨1, ![64]⟩
abbrev S64x1 : Shape := ⟨2, ![64, 1]⟩

abbrev nBuf : Space → Nat
  | .hbm => 73
  | .vmem => 35
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S100000, .i32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128x10, .f32⟩
  | .hbm, ⟨15, _⟩ => ⟨S10, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S1600000x1, .f32⟩
  | .hbm, ⟨26, _⟩ => ⟨S1600000x128, .f32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S1x128, .f32⟩
  | .hbm, ⟨33, _⟩ => ⟨S100000x128, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S1600000x1, .f32⟩
  | .hbm, ⟨44, _⟩ => ⟨S1600000x128, .f32⟩
  | .hbm, ⟨45, _⟩ => ⟨S1600000x128, .f32⟩
  | .hbm, ⟨46, _⟩ => ⟨S_, .f32⟩
  | .hbm, ⟨47, _⟩ => ⟨S100000x128, .f32⟩
  | .hbm, ⟨48, _⟩ => ⟨S1600000x1, .i32⟩
  | .hbm, ⟨49, _⟩ => ⟨S100000x128, .f32⟩
  | .hbm, ⟨50, _⟩ => ⟨S1x128, .f32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S1600000x1, .f32⟩
  | .hbm, ⟨62, _⟩ => ⟨S1600000x128, .f32⟩
  | .hbm, ⟨63, _⟩ => ⟨S1600000x128, .f32⟩
  | .hbm, ⟨64, _⟩ => ⟨S_, .f32⟩
  | .hbm, ⟨65, _⟩ => ⟨S100000x128, .f32⟩
  | .hbm, ⟨66, _⟩ => ⟨S1600000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x1, .i32⟩
  | .hbm, ⟨71, _⟩ => ⟨S1x10, .f32⟩
  | .hbm, ⟨72, _⟩ => ⟨S64x10, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x1, .i32⟩
  | .local _ .vmem, ⟨30, _⟩ => ⟨S5000x1, .i32⟩
  | .local _ .vmem, ⟨31, _⟩ => ⟨S128x10, .f32⟩
  | .local _ .vmem, ⟨32, _⟩ => ⟨S1x10, .f32⟩
  | .local _ .vmem, ⟨33, _⟩ => ⟨S64x10, .f32⟩
  | .local _ .vmem, ⟨34, _⟩ => ⟨S64x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c_1 : Ref sig .tc := ⟨.hbm, 34, rfl⟩
abbrev main_v15 : Ref sig .tc := ⟨.hbm, 35, rfl⟩
abbrev main_v16 : Ref sig .tc := ⟨.hbm, 36, rfl⟩
abbrev main_c_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_4 : Ref sig .tc := ⟨.hbm, 52, rfl⟩
abbrev main_v30 : Ref sig .tc := ⟨.hbm, 53, rfl⟩
abbrev main_v31 : Ref sig .tc := ⟨.hbm, 54, rfl⟩
abbrev main_c_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_6 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def k3_cond2 (i : grid3.Coords) : BitVec 1 :=
  let arg0 : BitVec 32 := BitVec.ofNat 32 (i 0).val
  let c19_i32 : BitVec 32 := 19#32
  let v21 : BitVec 1 := Scalar.cmpi .eq arg0 c19_i32
  let v22 : BitVec 32 := Scalar.extui v21
  let c0_i32_8 : BitVec 32 := 0#32
  let v23 : BitVec 1 := Scalar.cmpi .ne v22 c0_i32_8
  v23

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x10 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S100000_S100000x1 : S100000.ShapeCasts S100000x1
  shapeCasts_S10_S1x10 : S10.ShapeCasts S1x10
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x64_d1_w32 : S5000x64.Iotas .tc 32 [1]
  broadcasts_S5000x1_S5000x64 : S5000x1.Broadcasts S5000x64
  natLt_1_32 : 1 < 32
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  reduces_S64x10_S64 : S64x10.Reduces [1] S64
  shapeCasts_S64_S64x1 : S64.ShapeCasts S64x1
  broadcasts_S64x1_S64x10 : S64x1.Broadcasts S64x10
  inb_S64x10_S64x10_0_0 : ∀ a, (![0, 0] : Fin 2 → Nat) a + S64x10.size a ≤ S64x10.size a
  h_S64x10 : 0 < S64x10.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x64_S5000x128_S64x128_0_0_1_1_n_n_wf : DotDims.WF S5000x64 S5000x128 S64x128 [0] [0] [1] [1] [] []
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .i32 = 32 ∨ (Rect.block (s := S100000x1) S5000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x10.size a ≤ S128x10.size a
  hwx3_2 : ∀ i : grid3.Coords, EltTy.bits .f32 = 32 ∨ (Rect.block (s := S128x10) S128x10.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x10.size a ≤ S1x10.size a
  hwx3_3 : ∀ i : grid3.Coords, EltTy.bits .f32 = 32 ∨ (Rect.block (s := S1x10) S1x10.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x10.size a ≤ S64x10.size a
  hwx3_4 : ∀ i : grid3.Coords, EltTy.bits .f32 = 32 ∨ (Rect.block (s := S64x10) S64x10.size (cc3_transform_4 i) (hinb3_4 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_v12) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v44) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v44) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg14) S128x10.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v46) S1x10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v47) S64x10.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

class Facts : Prop extends Facts₀ where

variable [Facts]
-- ==== ReferenceIdeal.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S64x128 : Shape := ⟨2, ![64, 128]⟩
abbrev S100000x1 : Shape := ⟨2, ![100000, 1]⟩
abbrev S64x10 : Shape := ⟨2, ![64, 10]⟩
abbrev S1x10 : Shape := ⟨2, ![1, 10]⟩
abbrev S64 : Shape := ⟨1, ![64]⟩
abbrev S64x1 : Shape := ⟨2, ![64, 1]⟩

abbrev nBuf : Space → Nat
  | .hbm => 113
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S100000, .i32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128x10, .f32⟩
  | .hbm, ⟨15, _⟩ => ⟨S10, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S1600000x1, .f32⟩
  | .hbm, ⟨26, _⟩ => ⟨S1600000x128, .f32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S100000x128, .f32⟩
  | .hbm, ⟨33, _⟩ => ⟨S1x128, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S_, .f32⟩
  | .hbm, ⟨39, _⟩ => ⟨S100000x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S1600000x1, .f32⟩
  | .hbm, ⟨51, _⟩ => ⟨S1600000x128, .f32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S_, .f32⟩
  | .hbm, ⟨64, _⟩ => ⟨S100000x128, .f32⟩
  | .hbm, ⟨65, _⟩ => ⟨S100000x128, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x128, .f32⟩
  | .hbm, ⟨75, _⟩ => ⟨S1600000x1, .f32⟩
  | .hbm, ⟨76, _⟩ => ⟨S1600000x128, .f32⟩
  | .hbm, ⟨77, _⟩ => ⟨S1600000x128, .f32⟩
  | .hbm, ⟨78, _⟩ => ⟨S_, .f32⟩
  | .hbm, ⟨79, _⟩ => ⟨S100000x128, .f32⟩
  | .hbm, ⟨80, _⟩ => ⟨S1600000x1, .i32⟩
  | .hbm, ⟨81, _⟩ => ⟨S100000x128, .f32⟩
  | .hbm, ⟨82, _⟩ => ⟨S100000x128, .f32⟩
  | .hbm, ⟨83, _⟩ => ⟨S1x128, .f32⟩
  | .hbm, ⟨84, _⟩ => ⟨S100000x128, .f32⟩
  | .hbm, ⟨85, _⟩ => ⟨S100000x128, .f32⟩
  | .hbm, ⟨86, _⟩ => ⟨S100000x128, .f32⟩
  | .hbm, ⟨87, _⟩ => ⟨S100000x128, .f32⟩
  | .hbm, ⟨88, _⟩ => ⟨S_, .f32⟩
  | .hbm, ⟨89, _⟩ => ⟨S100000x128, .f32⟩
  | .hbm, ⟨90, _⟩ => ⟨S100000x128, .f32⟩
  | .hbm, ⟨91, _⟩ => ⟨S_, .f32⟩
  | .hbm, ⟨92, _⟩ => ⟨S64x128, .f32⟩
  | .hbm, ⟨93, _⟩ => ⟨S100000x1, .i32⟩
  | .hbm, ⟨94, _⟩ => ⟨S64x128, .f32⟩
  | .hbm, ⟨95, _⟩ => ⟨S64x10, .f32⟩
  | .hbm, ⟨96, _⟩ => ⟨S1x10, .f32⟩
  | .hbm, ⟨97, _⟩ => ⟨S64x10, .f32⟩
  | .hbm, ⟨98, _⟩ => ⟨S64x10, .f32⟩
  | .hbm, ⟨99, _⟩ => ⟨S_, .f32⟩
  | .hbm, ⟨100, _⟩ => ⟨S64, .f32⟩
  | .hbm, ⟨101, _⟩ => ⟨S_, .f32⟩
  | .hbm, ⟨102, _⟩ => ⟨S64, .f32⟩
  | .hbm, ⟨103, _⟩ => ⟨S64, .f32⟩
  | .hbm, ⟨104, _⟩ => ⟨S64x1, .f32⟩
  | .hbm, ⟨105, _⟩ => ⟨S64x10, .f32⟩
  | .hbm, ⟨106, _⟩ => ⟨S64x10, .f32⟩
  | .hbm, ⟨107, _⟩ => ⟨S64x10, .f32⟩
  | .hbm, ⟨108, _⟩ => ⟨S_, .f32⟩
  | .hbm, ⟨109, _⟩ => ⟨S64, .f32⟩
  | .hbm, ⟨110, _⟩ => ⟨S64x1, .f32⟩
  | .hbm, ⟨111, _⟩ => ⟨S64x10, .f32⟩
  | .hbm, ⟨112, _⟩ => ⟨S64x10, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_call0_cst : Ref sig .tc := ⟨.hbm, 38, rfl⟩
abbrev main_call0_v0 : Ref sig .tc := ⟨.hbm, 39, rfl⟩
abbrev main_v19 : Ref sig .tc := ⟨.hbm, 40, rfl⟩
abbrev main_c_1 : Ref sig .tc := ⟨.hbm, 41, rfl⟩
abbrev main_v20 : Ref sig .tc := ⟨.hbm, 42, rfl⟩
abbrev main_v21 : Ref sig .tc := ⟨.hbm, 43, rfl⟩
abbrev main_c_2 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_3 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_call1_cst : Ref sig .tc := ⟨.hbm, 63, rfl⟩
abbrev main_call1_v0 : Ref sig .tc := ⟨.hbm, 64, rfl⟩
abbrev main_v39 : Ref sig .tc := ⟨.hbm, 65, rfl⟩
abbrev main_c_4 : Ref sig .tc := ⟨.hbm, 66, rfl⟩
abbrev main_v40 : Ref sig .tc := ⟨.hbm, 67, rfl⟩
abbrev main_v41 : Ref sig .tc := ⟨.hbm, 68, rfl⟩
abbrev main_c_5 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_6 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_call2_cst : Ref sig .tc := ⟨.hbm, 88, rfl⟩
abbrev main_call2_v0 : Ref sig .tc := ⟨.hbm, 89, rfl⟩
abbrev main_v59 : Ref sig .tc := ⟨.hbm, 90, rfl⟩
abbrev main_cst_7 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_8 : Ref sig .tc := ⟨.hbm, 99, rfl⟩
abbrev main_v67 : Ref sig .tc := ⟨.hbm, 100, rfl⟩
abbrev main_cst_9 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_10 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  reducesTo_S64x10_S64_d1 : S64x10.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x10_0_1 : S64x1.BroadcastsInDim S64x10 (![0, 1] : Fin 2 → Fin S64x10.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S64x128_S100000x1_S100000x128_1_0_0_1_wf : ScatterDims.WF S64x128 S100000x1 S100000x128 [1] [0] [0] 1
  dot_S64x128_S128x10_S64x10_1_0_0_1_n_n_wf : DotDims.WF S64x128 S128x10 S64x10 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.KLayer0.lean ====
/-
  One graph-convolution layer's dense half (the program has three such regions, one per layer): at every block of 5000 node rows the body
  reads the aggregated-neighbour block, the node-feature block, the two 128×128 weight matrices and the bias
  row, and stores max(agg·Wn + h·Ws + b, 0) into the output block. Stated at any contents `V` of the buffers
  when the region is entered: what each window's block is, what the body leaves in the output block, the
  body's run, the proof data of the pipeline and its obligation at every point.
-/
import proofs.«419035_j26560077758775_1_alg».proof.Proof.Gen.Kernel.Launch
import proofs.«419035_j26560077758775_1_alg».proof.Proof.Gen.Kernel.Skeleton
import proofs.«419035_j26560077758775_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA : Rect S5000x128 := Rect.unit (s := S5000x128) ![0, 0] S5000x128.size inb_S5000x128_S5000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-- What the body leaves in the output block, from the five input blocks: its one whole-block store. -/
def outBlock (x0 x1 : Vec F S5000x128 .f32) (x2 x3 : Vec F S128x128 .f32) (x4 : Vec F S1x128 .f32) : Vec F S5000x128 .f32 :=
  View.canon [⟨rA, k0_pay1 (View.ld x0 rA) (View.ld x1 rA) (View.ld x2 rW) (View.ld x3 rW) (View.ld x4 rB)⟩]

/-- The one store covers the block. -/
theorem cover (p0 : Vec F S5000x128 .f32) (y : S5000x128.Idx) :
    ∃ pc ∈ ([⟨rA, p0⟩] : List (View.Piece (Elt F) S5000x128 .f32)), y ∈ pc.1.set :=
  View.cover_of_tiled [⟨rA, p0⟩] S5000x128.size (by rfl) y

set_option maxHeartbeats 4000000 in
/-- The body on whole staging memrefs, the inputs at contents `x·` and the output at anything, runs to the
    continuation with the inputs as they were and the output block at `outBlock` of them. -/
theorem sound_kernel (c : Dev nD) (E : Set ℕ) (i : grid0.Coords)
    (a1 : Memref sig .tc .vmem S5000x128 .f32) (h1 : a1.IsWhole) (a2 : Memref sig .tc .vmem S5000x128 .f32) (h2 : a2.IsWhole)
    (a3 : Memref sig .tc .vmem S128x128 .f32) (h3 : a3.IsWhole) (a4 : Memref sig .tc .vmem S128x128 .f32) (h4 : a4.IsWhole)
    (a5 : Memref sig .tc .vmem S1x128 .f32) (h5 : a5.IsWhole) (a6 : Memref sig .tc .vmem S5000x128 .f32) (h6 : a6.IsWhole)
    (x0 x1 : Vec F S5000x128 .f32) (x2 x3 : Vec F S128x128 .f32) (x4 : Vec F S1x128 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ (∃ d, owns (c : Thread nD τ) a6 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4
            ∗ owns (c : Thread nD τ) a6 fullShare (outBlock x0 x1 x2 x3 x4)) -∗ K ⟨⟩))
      ⊢ wp frame (wpE (defs₀ (F := F)) Variants.none c none) E (cc0__combine_kernel i a1 h1 a2 h2 a3 h3 a4 h4 a5 h5 a6 h6) K := by
  simp only [cc0__combine_kernel_eq_skeleton]; unfold cc0__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

/-- The proof data of this layer's pipeline on core `c`: the arrays as the region finds them; after the body each input's buffer at
    its block and the output's at `outBlock` of the input blocks; the invariant the scoped rest and the generator
    register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outBlock (iblk V c 0 t) (iblk V c 1 t) (iblk V c 2 t) (iblk V c 3 t) (iblk V c 4 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) :
    (dat V c).after 5 t = outBlock (iblk V c 0 t) (iblk V c 1 t) (iblk V c 2 t) (iblk V c 3 t) (iblk V c 4 t) := by dsimp only [dat]

/-- Each input's current staging buffer holds its block at every point, whether the pipeline fetched it there or kept it
    from the point before (its index map did not move). -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat V c).before 4 t d = iblk V c 4 t :=
  ((dat V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

set_option maxHeartbeats 4000000 in
/-- The body at any point: the inputs' memrefs hold their blocks, so the run applies; the invariant and the core's
    dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation (c : Dev nD) : BodyObligation (dat (F := F) V c) (defs₀ (F := F)) Variants.none () Set.univ := fun t => by
  rw [bigSep_W0, bigSep_W0]
  exact sound_body V c t

end Cert.Kernel.Layer0

end
-- ==== Proof.KLayer1.lean ====
/-
  One graph-convolution layer's dense half (the program has three such regions, one per layer): at every block of 5000 node rows the body
  reads the aggregated-neighbour block, the node-feature block, the two 128×128 weight matrices and the bias
  row, and stores max(agg·Wn + h·Ws + b, 0) into the output block. Stated at any contents `V` of the buffers
  when the region is entered: what each window's block is, what the body leaves in the output block, the
  body's run, the proof data of the pipeline and its obligation at every point.
-/
import proofs.«419035_j26560077758775_1_alg».proof.Proof.Gen.Kernel.Launch
import proofs.«419035_j26560077758775_1_alg».proof.Proof.Gen.Kernel.Skeleton
import proofs.«419035_j26560077758775_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rA : Rect S5000x128 := Rect.unit (s := S5000x128) ![0, 0] S5000x128.size inb_S5000x128_S5000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-- What the body leaves in the output block, from the five input blocks: its one whole-block store. -/
def outBlock (x0 x1 : Vec F S5000x128 .f32) (x2 x3 : Vec F S128x128 .f32) (x4 : Vec F S1x128 .f32) : Vec F S5000x128 .f32 :=
  View.canon [⟨rA, k1_pay1 (View.ld x0 rA) (View.ld x1 rA) (View.ld x2 rW) (View.ld x3 rW) (View.ld x4 rB)⟩]

/-- The one store covers the block. -/
theorem cover (p0 : Vec F S5000x128 .f32) (y : S5000x128.Idx) :
    ∃ pc ∈ ([⟨rA, p0⟩] : List (View.Piece (Elt F) S5000x128 .f32)), y ∈ pc.1.set :=
  View.cover_of_tiled [⟨rA, p0⟩] S5000x128.size (by rfl) y

set_option maxHeartbeats 4000000 in
/-- The body on whole staging memrefs, the inputs at contents `x·` and the output at anything, runs to the
    continuation with the inputs as they were and the output block at `outBlock` of them. -/
theorem sound_kernel (c : Dev nD) (E : Set ℕ) (i : grid1.Coords)
    (a1 : Memref sig .tc .vmem S5000x128 .f32) (h1 : a1.IsWhole) (a2 : Memref sig .tc .vmem S5000x128 .f32) (h2 : a2.IsWhole)
    (a3 : Memref sig .tc .vmem S128x128 .f32) (h3 : a3.IsWhole) (a4 : Memref sig .tc .vmem S128x128 .f32) (h4 : a4.IsWhole)
    (a5 : Memref sig .tc .vmem S1x128 .f32) (h5 : a5.IsWhole) (a6 : Memref sig .tc .vmem S5000x128 .f32) (h6 : a6.IsWhole)
    (x0 x1 : Vec F S5000x128 .f32) (x2 x3 : Vec F S128x128 .f32) (x4 : Vec F S1x128 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ (∃ d, owns (c : Thread nD τ) a6 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4
            ∗ owns (c : Thread nD τ) a6 fullShare (outBlock x0 x1 x2 x3 x4)) -∗ K ⟨⟩))
      ⊢ wp frame (wpE (defs₀ (F := F)) Variants.none c none) E (cc1__combine_kernel i a1 h1 a2 h2 a3 h3 a4 h4 a5 h5 a6 h6) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

/-- The proof data of this layer's pipeline on core `c`: the arrays as the region finds them; after the body each input's buffer at
    its block and the output's at `outBlock` of the input blocks; the invariant the scoped rest and the generator
    register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outBlock (iblk V c 0 t) (iblk V c 1 t) (iblk V c 2 t) (iblk V c 3 t) (iblk V c 4 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) :
    (dat V c).after 5 t = outBlock (iblk V c 0 t) (iblk V c 1 t) (iblk V c 2 t) (iblk V c 3 t) (iblk V c 4 t) := by dsimp only [dat]

/-- Each input's current staging buffer holds its block at every point, whether the pipeline fetched it there or kept it
    from the point before (its index map did not move). -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

set_option maxHeartbeats 4000000 in
/-- The body at any point: the inputs' memrefs hold their blocks, so the run applies; the invariant and the core's
    dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation (c : Dev nD) : BodyObligation (dat (F := F) V c) (defs₀ (F := F)) Variants.none () Set.univ := fun t => by
  rw [bigSep_W1, bigSep_W1]
  exact sound_body V c t

end Cert.Kernel.Layer1

end
-- ==== Proof.KLayer2.lean ====
/-
  One graph-convolution layer's dense half (the program has three such regions, one per layer): at every block of 5000 node rows the body
  reads the aggregated-neighbour block, the node-feature block, the two 128×128 weight matrices and the bias
  row, and stores max(agg·Wn + h·Ws + b, 0) into the output block. Stated at any contents `V` of the buffers
  when the region is entered: what each window's block is, what the body leaves in the output block, the
  body's run, the proof data of the pipeline and its obligation at every point.
-/
import proofs.«419035_j26560077758775_1_alg».proof.Proof.Gen.Kernel.Launch
import proofs.«419035_j26560077758775_1_alg».proof.Proof.Gen.Kernel.Skeleton
import proofs.«419035_j26560077758775_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rA : Rect S5000x128 := Rect.unit (s := S5000x128) ![0, 0] S5000x128.size inb_S5000x128_S5000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-- What the body leaves in the output block, from the five input blocks: its one whole-block store. -/
def outBlock (x0 x1 : Vec F S5000x128 .f32) (x2 x3 : Vec F S128x128 .f32) (x4 : Vec F S1x128 .f32) : Vec F S5000x128 .f32 :=
  View.canon [⟨rA, k2_pay1 (View.ld x0 rA) (View.ld x1 rA) (View.ld x2 rW) (View.ld x3 rW) (View.ld x4 rB)⟩]

/-- The one store covers the block. -/
theorem cover (p0 : Vec F S5000x128 .f32) (y : S5000x128.Idx) :
    ∃ pc ∈ ([⟨rA, p0⟩] : List (View.Piece (Elt F) S5000x128 .f32)), y ∈ pc.1.set :=
  View.cover_of_tiled [⟨rA, p0⟩] S5000x128.size (by rfl) y

set_option maxHeartbeats 4000000 in
/-- The body on whole staging memrefs, the inputs at contents `x·` and the output at anything, runs to the
    continuation with the inputs as they were and the output block at `outBlock` of them. -/
theorem sound_kernel (c : Dev nD) (E : Set ℕ) (i : grid2.Coords)
    (a1 : Memref sig .tc .vmem S5000x128 .f32) (h1 : a1.IsWhole) (a2 : Memref sig .tc .vmem S5000x128 .f32) (h2 : a2.IsWhole)
    (a3 : Memref sig .tc .vmem S128x128 .f32) (h3 : a3.IsWhole) (a4 : Memref sig .tc .vmem S128x128 .f32) (h4 : a4.IsWhole)
    (a5 : Memref sig .tc .vmem S1x128 .f32) (h5 : a5.IsWhole) (a6 : Memref sig .tc .vmem S5000x128 .f32) (h6 : a6.IsWhole)
    (x0 x1 : Vec F S5000x128 .f32) (x2 x3 : Vec F S128x128 .f32) (x4 : Vec F S1x128 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ (∃ d, owns (c : Thread nD τ) a6 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4
            ∗ owns (c : Thread nD τ) a6 fullShare (outBlock x0 x1 x2 x3 x4)) -∗ K ⟨⟩))
      ⊢ wp frame (wpE (defs₀ (F := F)) Variants.none c none) E (cc2__combine_kernel i a1 h1 a2 h2 a3 h3 a4 h4 a5 h5 a6 h6) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

/-- The proof data of this layer's pipeline on core `c`: the arrays as the region finds them; after the body each input's buffer at
    its block and the output's at `outBlock` of the input blocks; the invariant the scoped rest and the generator
    register, untouched; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outBlock (iblk V c 0 t) (iblk V c 1 t) (iblk V c 2 t) (iblk V c 3 t) (iblk V c 4 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) :
    (dat V c).after 5 t = outBlock (iblk V c 0 t) (iblk V c 1 t) (iblk V c 2 t) (iblk V c 3 t) (iblk V c 4 t) := by dsimp only [dat]

/-- Each input's current staging buffer holds its block at every point, whether the pipeline fetched it there or kept it
    from the point before (its index map did not move). -/
theorem before_0 (c : Dev nD) (t : Fin cfg2.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg2.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg2.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg2.N) (d) : (dat V c).before 4 t d = iblk V c 4 t :=
  ((dat V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t))

set_option maxHeartbeats 4000000 in
/-- The body at any point: the inputs' memrefs hold their blocks, so the run applies; the invariant and the core's
    dues pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation (c : Dev nD) : BodyObligation (dat (F := F) V c) (defs₀ (F := F)) Variants.none () Set.univ := fun t => by
  rw [bigSep_W2, bigSep_W2]
  exact sound_body V c t

end Cert.Kernel.Layer2

end
-- ==== Proof.KReadout.lean ====
/-
  The readout, region 3 of the program: over 20 blocks of 5000 node rows the body adds, into a 64×128 scratch it keeps
  between the points, the block's rows summed per graph (a 0/1 membership matrix of the block's graph ids against the
  64 graphs, times the block's features); the first point zeroes the scratch first; the last point multiplies the sums
  by the classifier's weights, adds its bias and stores the row-wise softmax into the one 64×10 output block. Stated
  at any contents `V` of the buffers when the region is entered.
-/
import proofs.«419035_j26560077758775_1_alg».proof.Proof.Gen.Kernel.Launch
import proofs.«419035_j26560077758775_1_alg».proof.Proof.Gen.Kernel.Skeleton
import proofs.«419035_j26560077758775_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Readout

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's two branches, decided over the grid -/

/-- The first branch (zero the sums): the grid coordinate is 0. -/
abbrev cond1 (i : grid3.Coords) : Prop := (Scalar.cmpi .ne (Scalar.extui (Scalar.cmpi .eq (BitVec.ofNat 32 (i 0).val) 0#32)) 0#32) = 1#1
theorem hcond1 : ∀ t : Fin cfg3.N, cond1 (grid3.coords t) ↔ t.val % 20 = 0 :=
  (by decide +kernel : ∀ t : Fin grid3.N, cond1 (grid3.coords t) ↔ t.val % 20 = 0)
/-- The second branch (classify and store): the grid coordinate is 19. -/
abbrev cond2 (i : grid3.Coords) : Prop := k3_cond2 i = 1#1
theorem hcond2 : ∀ t : Fin cfg3.N, cond2 (grid3.coords t) ↔ t.val % 20 = 19 :=
  (by decide +kernel : ∀ t : Fin grid3.N, cond2 (grid3.coords t) ↔ t.val % 20 = 19)

/-! ## Where the windows are idle -/

theorem live_0 : ∀ t : Fin cfg3.N, cfg3.idle 0 (grid3.coords t) = false := by decide +kernel
theorem live_1 : ∀ t : Fin cfg3.N, cfg3.idle 1 (grid3.coords t) = false := by decide +kernel
theorem live_2 : ∀ t : Fin cfg3.N, cfg3.idle 2 (grid3.coords t) = false := by decide +kernel
theorem live_3 : ∀ t : Fin cfg3.N, cfg3.idle 3 (grid3.coords t) = false := by decide +kernel
/-- Away from the last point the output block is idle and not written back. -/
theorem idle_4 : ∀ t : Fin cfg3.N, ¬cond2 (grid3.coords t) → cfg3.idle 4 (grid3.coords t) = true := by decide +kernel
theorem noFlush_4 : ∀ t : Fin cfg3.N, ¬cond2 (grid3.coords t) → (cfg3.win 4).flush t = false := by decide +kernel
theorem live_4 : ∀ t : Fin cfg3.N, cond2 (grid3.coords t) → cfg3.idle 4 (grid3.coords t) = false := by decide +kernel

/-! ## What the scratch and the output block hold -/

/-- The scratch operand: a whole scoped buffer of the kernel's own. -/
abbrev scM : Memref sig .tc .vmem S64x128 .f32 := Memref.whole cc3_scratch0

/-- The per-graph sums after the body at point `n`: the block's contribution added to what the point before left, from
    zero at the first point. -/
def accAt (c : Dev nD) : (n : ℕ) → n < cfg3.N → Vec F S64x128 .f32
  | 0, hn => k3_pay2 (iblk V c 0 ⟨0, hn⟩) (iblk V c 1 ⟨0, hn⟩) (k3_pay1 (F := F))
  | n + 1, hn => k3_pay2 (iblk V c 0 ⟨n + 1, hn⟩) (iblk V c 1 ⟨n + 1, hn⟩) (accAt c n (Nat.lt_of_succ_lt hn))

theorem accAt_zero (c : Dev nD) (hn : 0 < cfg3.N) :
    accAt V c 0 hn = k3_pay2 (iblk V c 0 ⟨0, hn⟩) (iblk V c 1 ⟨0, hn⟩) (k3_pay1 (F := F)) := rfl
theorem accAt_succ (c : Dev nD) (n : ℕ) (hn : n + 1 < cfg3.N) :
    accAt V c (n + 1) hn = k3_pay2 (iblk V c 0 ⟨n + 1, hn⟩) (iblk V c 1 ⟨n + 1, hn⟩) (accAt V c n (Nat.lt_of_succ_lt hn)) := rfl

/-- The region invariant before position `n`: before the first point the scoped rest and the generator register at
    anything; afterwards the scratch at the sums the point before left, the other scoped buffers and the register at anything. -/
def PhiS (c : Dev nD) : (n : ℕ) → n ≤ cfg3.N → sProp 𝕄
  | 0, _ => Pipeline.ΦA spec3 c
  | n + 1, hn => iprop(iprop(owns (c : Thread nD τ) scM fullShare (accAt V c n hn)
      ∗ Pipeline.scopedRestBut (Ix := Unit) (Name := ℕ) (U := UR sig nD τ) (Lvl := ℕ) (Val := Elt F) spec3 c [cc3_scratch0]) ∗ (∃ r, prngReg c r))

/-- The proof data of pipeline 3 on core `c`: the arrays as the region finds them; after the body each input's buffer at
    its block, the output block at the classifier's softmax of the sums so far (read only at the last point, the one that
    is written back); the invariant `PhiS`; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => k3_pay3 (accAt V c t.val t.isLt) (iblk V c 2 t) (iblk V c 3 t)
  Φ t := PhiS V c t.val (Nat.le_of_lt_succ t.isLt)
  q _ := fullShare
  owed _ := 0

theorem A_eq (c : Dev nD) (w : Fin cfg3.W) : (dat V c).A w = V c (Pipeline.arrRef spec3 w) := by
  dsimp only [dat]
theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = iblk V c 3 t := by dsimp only [dat]
theorem after_4 (c : Dev nD) (t : Fin cfg3.N) :
    (dat V c).after 4 t = k3_pay3 (accAt V c t.val t.isLt) (iblk V c 2 t) (iblk V c 3 t) := by dsimp only [dat]

/-! ## The body's run, case by case -/

/-- Both zero offsets, spelt as the stores and loads spell them, are the zero function. -/
theorem hz2 : (![0, 0] : Fin 2 → ℕ) = fun _ => 0 := by funext a; fin_cases a <;> rfl

/-- A whole-scratch store, last, covers the scratch whatever came before it. -/
theorem cover6 (w : Vec F S64x128 .f32) (L : List (View.Piece (Elt F) S64x128 .f32)) (y : S64x128.Idx) :
    ∃ p ∈ ((⟨Rect.unit (s := S64x128) ![0, 0] S64x128.size inb_S64x128_S64x128_0_0, w⟩ : View.Piece (Elt F) S64x128 .f32) :: L), y ∈ p.1.set :=
  ⟨_, List.mem_cons_self, View.mem_set_unit_zero hz2 inb_S64x128_S64x128_0_0 y⟩

/-- A whole-block store, last, covers the output block. -/
theorem cover5 (w : Vec F S64x10 .f32) (L : List (View.Piece (Elt F) S64x10 .f32)) (y : S64x10.Idx) :
    ∃ p ∈ ((⟨Rect.unit (s := S64x10) ![0, 0] S64x10.size inb_S64x10_S64x10_0_0, w⟩ : View.Piece (Elt F) S64x10 .f32) :: L), y ∈ p.1.set :=
  ⟨_, List.mem_cons_self, View.mem_set_unit_zero hz2 inb_S64x10_S64x10_0_0 y⟩

set_option maxHeartbeats 4000000 in
/-- The body at the first point (first branch taken, second not), on whole staging memrefs: the inputs at contents `x·`, the
    output block at `xi` and the scratch at anything; it zeroes the scratch, reads it back and adds the block's per-graph
    sums, leaving everything else as it was. -/
theorem run_A (c : Dev nD) (E : Set ℕ) (i : grid3.Coords)
    (a1 : Memref sig .tc .vmem S5000x128 .f32) (h1 : a1.IsWhole) (a2 : Memref sig .tc .vmem S5000x1 .i32) (h2 : a2.IsWhole)
    (a3 : Memref sig .tc .vmem S128x10 .f32) (h3 : a3.IsWhole) (a4 : Memref sig .tc .vmem S1x10 .f32) (h4 : a4.IsWhole)
    (a5 : Memref sig .tc .vmem S64x10 .f32) (h5 : a5.IsWhole) (a6 : Memref sig .tc .vmem S64x128 .f32) (h6 : a6.IsWhole) (hc1 : cond1 i) (hc2 : ¬cond2 i)
    (x0 : Vec F S5000x128 .f32) (x1 : Vec F S5000x1 .i32) (x2 : Vec F S128x10 .f32) (x3 : Vec F S1x10 .f32) (xi : Vec F S64x10 .f32)
    (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare xi ∗ (∃ d, owns (c : Thread nD τ) a6 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare xi
            ∗ owns (c : Thread nD τ) a6 fullShare (k3_pay2 x0 x1 (k3_pay1 (F := F)))) -∗ K ⟨⟩))
      ⊢ wp frame (wpE (defs₀ (F := F)) Variants.none c none) E (cc3__readout_kernel i a1 h1 a2 h2 a3 h3 a4 h4 a5 h5 a6 h6) K := by
  simp only [cc3__readout_kernel_eq_skeleton]; unfold cc3__readout_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (cover6 _ _)).trans ?_
  rw [View.canon_cons_unit_zero hz2]
  sl_unfold_words
  simp only [View.readAt_eq_ld, View.ld_unit_zero (S := S5000x128) hz2, View.ld_unit_zero (S := S5000x1) hz2, View.readCov_unit_zero (S := S64x128) _ hz2]

set_option maxHeartbeats 4000000 in
/-- The body at a middle point (neither branch taken): the scratch at `xs` ends at `xs` plus the block's per-graph sums. -/
theorem run_B (c : Dev nD) (E : Set ℕ) (i : grid3.Coords)
    (a1 : Memref sig .tc .vmem S5000x128 .f32) (h1 : a1.IsWhole) (a2 : Memref sig .tc .vmem S5000x1 .i32) (h2 : a2.IsWhole)
    (a3 : Memref sig .tc .vmem S128x10 .f32) (h3 : a3.IsWhole) (a4 : Memref sig .tc .vmem S1x10 .f32) (h4 : a4.IsWhole)
    (a5 : Memref sig .tc .vmem S64x10 .f32) (h5 : a5.IsWhole) (a6 : Memref sig .tc .vmem S64x128 .f32) (h6 : a6.IsWhole) (hc1 : ¬cond1 i) (hc2 : ¬cond2 i)
    (x0 : Vec F S5000x128 .f32) (x1 : Vec F S5000x1 .i32) (x2 : Vec F S128x10 .f32) (x3 : Vec F S1x10 .f32) (xi : Vec F S64x10 .f32)
    (xs : Vec F S64x128 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare xi ∗ owns (c : Thread nD τ) a6 fullShare xs
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare xi
            ∗ owns (c : Thread nD τ) a6 fullShare (k3_pay2 x0 x1 xs)) -∗ K ⟨⟩))
      ⊢ wp frame (wpE (defs₀ (F := F)) Variants.none c none) E (cc3__readout_kernel i a1 h1 a2 h2 a3 h3 a4 h4 a5 h5 a6 h6) K := by
  simp only [cc3__readout_kernel_eq_skeleton]; unfold cc3__readout_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (cover6 _ _)).trans ?_
  rw [View.canon_cons_unit_zero hz2]
  sl_unfold_words
  simp only [View.readAt_eq_ld, View.ld_unit_zero (S := S5000x128) hz2, View.ld_unit_zero (S := S5000x1) hz2, View.ld_unit_zero (S := S64x128) hz2]

set_option maxHeartbeats 4000000 in
/-- The body at the last point (second branch taken): the scratch at `xs` ends at the completed sums, and the output block,
    at anything before, ends at the classifier's softmax of them. -/
theorem run_C (c : Dev nD) (E : Set ℕ) (i : grid3.Coords)
    (a1 : Memref sig .tc .vmem S5000x128 .f32) (h1 : a1.IsWhole) (a2 : Memref sig .tc .vmem S5000x1 .i32) (h2 : a2.IsWhole)
    (a3 : Memref sig .tc .vmem S128x10 .f32) (h3 : a3.IsWhole) (a4 : Memref sig .tc .vmem S1x10 .f32) (h4 : a4.IsWhole)
    (a5 : Memref sig .tc .vmem S64x10 .f32) (h5 : a5.IsWhole) (a6 : Memref sig .tc .vmem S64x128 .f32) (h6 : a6.IsWhole) (hc1 : ¬cond1 i) (hc2 : cond2 i)
    (x0 : Vec F S5000x128 .f32) (x1 : Vec F S5000x1 .i32) (x2 : Vec F S128x10 .f32) (x3 : Vec F S1x10 .f32)
    (xs : Vec F S64x128 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ (∃ d, owns (c : Thread nD τ) a5 fullShare d) ∗ owns (c : Thread nD τ) a6 fullShare xs
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare (k3_pay3 (k3_pay2 x0 x1 xs) x2 x3)
            ∗ owns (c : Thread nD τ) a6 fullShare (k3_pay2 x0 x1 xs)) -∗ K ⟨⟩))
      ⊢ wp frame (wpE (defs₀ (F := F)) Variants.none c none) E (cc3__readout_kernel i a1 h1 a2 h2 a3 h3 a4 h4 a5 h5 a6 h6) K := by
  simp only [cc3__readout_kernel_eq_skeleton]; unfold cc3__readout_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0; subst hf1; subst hf2; subst hf3; subst hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover5 _ _)).trans ?_
    rw [View.canon_cons_unit_zero hz2]
    sl_unfold_words
    simp only [View.readAt_eq_ld, View.ld_unit_zero (S := S5000x128) hz2, View.ld_unit_zero (S := S5000x1) hz2, View.ld_unit_zero (S := S64x128) hz2,
      View.ld_unit_zero (S := S128x10) hz2, View.ld_unit_zero (S := S1x10) hz2, View.readCov_unit_zero (S := S64x128) _ hz2]
  iexists _; isplitr
  swap; · iexact H5
  ipureintro
  refine (View.read_writes_eq_canon _ _ _ (cover6 _ _)).trans ?_
  rw [View.canon_cons_unit_zero hz2]
  sl_unfold_words
  simp only [View.readAt_eq_ld, View.ld_unit_zero (S := S5000x128) hz2, View.ld_unit_zero (S := S5000x1) hz2, View.ld_unit_zero (S := S64x128) hz2]

/-! ## The invariant, opened -/

/-- What the launch hands the region, with the scratch as a memref owned at some contents. -/
theorem PhiA_eq (c : Dev nD) :
    (Pipeline.ΦA spec3 c : sProp 𝕄)
      = iprop(iprop((∃ d, owns (c : Thread nD τ) scM fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM, owns_whole]; try rfl

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop(iprop(owns (c : Thread nD τ) scM fullShare (accAt V c n hn)
      ∗ Pipeline.scopedRestBut (Ix := Unit) (Name := ℕ) (U := UR sig nD τ) (Lvl := ℕ) (Val := Elt F) spec3 c [cc3_scratch0]) ∗ (∃ r, prngReg c r)) := rfl

/-- Before a point that is not the first the scratch holds what the point before left. -/
theorem PhiS_pos (c : Dev nD) (n : ℕ) (h : n ≤ cfg3.N) (hz : n ≠ 0) :
    PhiS V c n h = iprop(iprop(owns (c : Thread nD τ) scM fullShare (accAt V c (n - 1) (by omega))
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

theorem PhiS_castSucc (c : Dev nD) (t : Fin cfg3.N) :
    (dat V c).Φ t.castSucc = PhiS V c t.val (Nat.le_of_lt t.isLt) := by
  dsimp only [dat]; simp only [Fin.coe_castSucc]

/-- The sums after the first point. -/
theorem accAt_first (c : Dev nD) (t : Fin cfg3.N) (hz : t.val = 0) :
    accAt V c t.val t.isLt = k3_pay2 (iblk V c 0 t) (iblk V c 1 t) (k3_pay1 (F := F)) := by
  obtain ⟨n, hn⟩ := t
  dsimp only at hz
  subst hz; rfl

/-- The sums after a later point, over those of the point before. -/
theorem accAt_next (c : Dev nD) (t : Fin cfg3.N) (hz : t.val ≠ 0) :
    accAt V c t.val t.isLt = k3_pay2 (iblk V c 0 t) (iblk V c 1 t) (accAt V c (t.val - 1) (Nat.lt_of_le_of_lt (Nat.sub_le _ _) t.isLt)) := by
  obtain ⟨n, hn⟩ := t
  cases n with
  | zero => exact absurd rfl hz
  | succ n => rfl

/-! ## The inputs' staging buffers -/

/-- Each input's current staging buffer holds its block at every point, whether the pipeline fetched it there or kept it
    from the point before (its index map did not move). -/
theorem before_0 (c : Dev nD) (t : Fin cfg3.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg3.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg3.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg3.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-! ## The body obligation, at a generic point -/

/-- What the body is called with at point `t`, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d)))

/-- and what it returns. -/
def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4000000 in
/-- The body at any point: the inputs' memrefs hold their blocks; the closed forms of the two conditions say which of the
    three cases the point is in; the invariant hands the body the scratch (at anything at the first point, at the sums so far
    afterwards) and takes it back at this point's sums; the output block is handed back untouched except at the last
    point, where it is stored; the rest of the invariant and the core's dues pass through unread. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3]
  rw [show (dat V c).owesAt () t.succ = (dat V c).owesAt () t.castSucc from rfl,
    show (dat V c).Φ t.succ = PhiS V c (t.val + 1) t.isLt from rfl, PhiS_succ, PhiS_castSucc]
  rw [show (dat V c).leavesExact 0 t = owns (c : Thread nD τ) (st3_0 t) fullShare ((dat V c).after 0 t) from by
      unfold Dat.leavesExact; rw [live_0 t], after_0]
  rw [show (dat V c).leavesExact 1 t = owns (c : Thread nD τ) (st3_1 t) fullShare ((dat V c).after 1 t) from by
      unfold Dat.leavesExact; rw [live_1 t], after_1]
  rw [show (dat V c).leavesExact 2 t = owns (c : Thread nD τ) (st3_2 t) fullShare ((dat V c).after 2 t) from by
      unfold Dat.leavesExact; rw [live_2 t], after_2]
  rw [show (dat V c).leavesExact 3 t = owns (c : Thread nD τ) (st3_3 t) fullShare ((dat V c).after 3 t) from by
      unfold Dat.leavesExact; rw [live_3 t], after_3]
  have hN : t.val < 20 := lt_of_lt_of_eq t.isLt (show cfg3.N = 20 from N_3)
  by_cases h0 : t.val % 20 = 0
  · have hz : t.val = 0 := by omega
    have hc1 : cond1 (grid3.coords t) := (hcond1 t).mpr h0
    have hc2 : ¬cond2 (grid3.coords t) := fun h => by have := (hcond2 t).mp h; omega
    rw [Dat.leavesExact_idle (dat V c) 4 t (idle_4 t hc2) (noFlush_4 t hc2)]
    rw [accAt_first V c t hz, PhiS_zero V c _ _ hz, PhiA_eq]
    iintro ⟨⟨⟨HS, HR⟩, Hg⟩, Ho, ⟨%d0, H0⟩, ⟨%d1, H1⟩, ⟨%d2, H2⟩, ⟨%d3, H3⟩, ⟨%d4, H4⟩⟩
    iapply (run_A c Set.univ (grid3.coords t) _ _ _ _ _ _ _ _ _ _ _ _ hc1 hc2 (iblk V c 0 t) (iblk V c 1 t) (iblk V c 2 t) (iblk V c 3 t) _ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    have hc1 : ¬cond1 (grid3.coords t) := fun h => h0 ((hcond1 t).mp h)
    rw [accAt_next V c t hz, PhiS_pos V c _ _ hz]
    by_cases h19 : t.val % 20 = 19
    · have hc2 : cond2 (grid3.coords t) := (hcond2 t).mpr h19
      rw [show (dat V c).leavesExact 4 t = owns (c : Thread nD τ) (st3_4 t) fullShare ((dat V c).after 4 t) from by
        unfold Dat.leavesExact; rw [live_4 t hc2], after_4, accAt_next V c t hz]
      iintro ⟨⟨⟨HS, HR⟩, Hg⟩, Ho, ⟨%d0, H0⟩, ⟨%d1, H1⟩, ⟨%d2, H2⟩, ⟨%d3, H3⟩, ⟨%d4, H4⟩⟩
      iapply (run_C c Set.univ (grid3.coords t) _ _ _ _ _ _ _ _ _ _ _ _ hc1 hc2 (iblk V c 0 t) (iblk V c 1 t) (iblk V c 2 t) (iblk V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · have hc2 : ¬cond2 (grid3.coords t) := fun h => h19 ((hcond2 t).mp h)
      rw [Dat.leavesExact_idle (dat V c) 4 t (idle_4 t hc2) (noFlush_4 t hc2)]
      iintro ⟨⟨⟨HS, HR⟩, Hg⟩, Ho, ⟨%d0, H0⟩, ⟨%d1, H1⟩, ⟨%d2, H2⟩, ⟨%d3, H3⟩, ⟨%d4, H4⟩⟩
      iapply (run_B c Set.univ (grid3.coords t) _ _ _ _ _ _ _ _ _ _ _ _ hc1 hc2 (iblk V c 0 t) (iblk V c 1 t) (iblk V c 2 t) (iblk V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The pipeline's body obligation, at every point. -/
theorem body_obligation (c : Dev nD) : BodyObligation (dat (F := F) V c) (defs₀ (F := F)) Variants.none () Set.univ := fun t => by
  rw [bigSep_W3, bigSep_W3]
  exact sound_body V c t

/-- What the launch hands the region is the invariant before the first point. -/
theorem hin (c : Dev nD) : Pipeline.ΦA spec3 c ⊢ (dat V c).Φ 0 := by
  rw [show (dat V c).Φ 0 = PhiS V c 0 (Nat.zero_le _) from rfl, PhiS_zero V c 0 _ rfl]
  try exact Idealize.SL.BI.Entails.refl _

/-- After the last point the invariant gives the scoped rest and the register back: the sums are forgotten. -/
theorem hout (c : Dev nD) : (dat V c).Φ (Fin.last cfg3.N) ⊢ Pipeline.ΦA spec3 c := by
  rw [show (dat V c).Φ (Fin.last cfg3.N) = PhiS V c (Fin.last cfg3.N).val (Nat.le_of_lt_succ (Fin.last cfg3.N).isLt) from rfl,
    PhiS_pos V c _ _ (by rw [Fin.val_last]; have : cfg3.N = 20 := N_3; omega), PhiA_eq]
  iintro ⟨⟨HS, HR⟩, Hg⟩
  isplitl [HS HR]
  · isplitl [HS]; · iexists _; iexact HS
    iexact HR
  iexact Hg

end Cert.Kernel.Readout

end
-- ==== Proof.KFold.lean ====
/-
  The buffers' contents at every boundary of the program's eight items (four stretches of host operations, each
  followed by a kernel region), folded from the launch memory: a stretch leaves what its operations compute; a
  region leaves its arrays at what its write-backs leave and every other buffer as it found it.
-/
import proofs.«419035_j26560077758775_1_alg».proof.Proof.KLayer0
import proofs.«419035_j26560077758775_1_alg».proof.Proof.KLayer1
import proofs.«419035_j26560077758775_1_alg».proof.Proof.KLayer2
import proofs.«419035_j26560077758775_1_alg».proof.Proof.KReadout

set_option maxRecDepth 16384

noncomputable section

namespace Cert.Kernel.Fold

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first stretch (the first layer's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first layer's exit. -/
def W2 (c : Dev nD) : Valuation τ sig (Elt F) :=
  Pipeline.withArrays spec0 c (W1 m ρ c) fun w => (Layer0.dat (V1 m ρ) c).arrAt w cfg0.N
abbrev V2 : (c : Dev nD) → (b : Ref sig .tc) → Buf (Elt F) ((c : Thread nD τ).loc b) := fun c b => W2 m ρ c b
/-- After the second stretch (the second layer's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second layer's exit. -/
def W4 (c : Dev nD) : Valuation τ sig (Elt F) :=
  Pipeline.withArrays spec1 c (W3 m ρ c) fun w => (Layer1.dat (V3 m ρ) c).arrAt w cfg1.N
abbrev V4 : (c : Dev nD) → (b : Ref sig .tc) → Buf (Elt F) ((c : Thread nD τ).loc b) := fun c b => W4 m ρ c b
/-- After the third stretch (the third layer's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At the third layer's exit. -/
def W6 (c : Dev nD) : Valuation τ sig (Elt F) :=
  Pipeline.withArrays spec2 c (W5 m ρ c) fun w => (Layer2.dat (V5 m ρ) c).arrAt w cfg2.N
abbrev V6 : (c : Dev nD) → (b : Ref sig .tc) → Buf (Elt F) ((c : Thread nD τ).loc b) := fun c b => W6 m ρ c b
/-- After the fourth stretch (the readout's entry). -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At the readout's exit: the program's end. -/
def W8 (c : Dev nD) : Valuation τ sig (Elt F) :=
  Pipeline.withArrays spec3 c (W7 m ρ c) fun w => (Readout.dat (V7 m ρ) c).arrAt w cfg3.N
abbrev V8 : (c : Dev nD) → (b : Ref sig .tc) → Buf (Elt F) ((c : Thread nD τ).loc b) := fun c b => W8 m ρ c b

/-! ## A region's exit contents, at its arrays and away from them -/

theorem W2_arr (c : Dev nD) (w : Fin cfg0.W) :
    W2 m ρ c (Proc.devRef .tc (Pipeline.arrRef spec0 w)) = (Layer0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W4_arr (c : Dev nD) (w : Fin cfg1.W) :
    W4 m ρ c (Proc.devRef .tc (Pipeline.arrRef spec1 w)) = (Layer1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W6_arr (c : Dev nD) (w : Fin cfg2.W) :
    W6 m ρ c (Proc.devRef .tc (Pipeline.arrRef spec2 w)) = (Layer2.dat (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
theorem W8_arr (c : Dev nD) (w : Fin cfg3.W) :
    W8 m ρ c (Proc.devRef .tc (Pipeline.arrRef spec3 w)) = (Readout.dat (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb

end Cert.Kernel.Fold

end
-- ==== Proof.KRun.lean ====
/-
  The launch of the program: its four stretches of host operations and its four kernel regions (three graph-convolution
  layers' dense halves and the readout) as the segments of one run from the launch memory. Between two items every core
  holds each of its unscoped buffers whole at the boundary's contents (the fold `W0 … W8`), beside its generator register
  at some state and nothing owed. A region takes its windows' arrays out of those buffers, runs its pipeline on its
  proof data at the entry contents, and puts the arrays back at what its write-backs leave. At the end every unscoped
  buffer is read off the final state at `W8`; an argument array is written by no stretch and is no region's output, so
  the fold at it walks back to the launch memory.
-/
import proofs.«419035_j26560077758775_1_alg».proof.Proof.KFold

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen Cert.Kernel.Fold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A buffer no item writes keeps its contents through the fold

A stretch of host operations changes only its operations' result buffers; a region changes only its output window's
array (an input window's array is left as entered, any other buffer is bypassed). -/

/-- The buffers stretch 0's operations write. -/
abbrev wr0 : List (Ref sig .tc) := [main_c, main_v0, main_v1, main_c_0, main_v2, main_v3, main_v4, main_v5, main_v6, main_v7, main_v8, main_v9, main_cst, main_v10, main_v11, main_v12, main_v13]
/-- A buffer stretch 0 does not write holds after it what it held before. -/
theorem keepH0 (W : Valuation τ sig (Elt F)) (b : Ref sig .tc) (hb : ∀ x ∈ wr0, b ≠ x) :
    StableHlo.after (hostOps0 (F := F)) W (Proc.devRef .tc b) = W (Proc.devRef .tc b) :=
  StableHlo.after_of_forall_not_mem (b := Proc.devRef .tc b) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- The buffers stretch 1's operations write. -/
abbrev wr1 : List (Ref sig .tc) := [main_c_1, main_v15, main_v16, main_c_2, main_v17, main_v18, main_v19, main_v20, main_v21, main_v22, main_v23, main_v24, main_cst_3, main_v25, main_v26, main_v27, main_v28]
/-- A buffer stretch 1 does not write holds after it what it held before. -/
theorem keepH1 (W : Valuation τ sig (Elt F)) (b : Ref sig .tc) (hb : ∀ x ∈ wr1, b ≠ x) :
    StableHlo.after (hostOps1 (F := F)) W (Proc.devRef .tc b) = W (Proc.devRef .tc b) :=
  StableHlo.after_of_forall_not_mem (b := Proc.devRef .tc b) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- The buffers stretch 2's operations write. -/
abbrev wr2 : List (Ref sig .tc) := [main_c_4, main_v30, main_v31, main_c_5, main_v32, main_v33, main_v34, main_v35, main_v36, main_v37, main_v38, main_v39, main_cst_6, main_v40, main_v41, main_v42, main_v43]
/-- A buffer stretch 2 does not write holds after it what it held before. -/
theorem keepH2 (W : Valuation τ sig (Elt F)) (b : Ref sig .tc) (hb : ∀ x ∈ wr2, b ≠ x) :
    StableHlo.after (hostOps2 (F := F)) W (Proc.devRef .tc b) = W (Proc.devRef .tc b) :=
  StableHlo.after_of_forall_not_mem (b := Proc.devRef .tc b) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- The buffers stretch 3's operations write. -/
abbrev wr3 : List (Ref sig .tc) := [main_v45, main_v46]
/-- A buffer stretch 3 does not write holds after it what it held before. -/
theorem keepH3 (W : Valuation τ sig (Elt F)) (b : Ref sig .tc) (hb : ∀ x ∈ wr3, b ≠ x) :
    StableHlo.after (hostOps3 (F := F)) W (Proc.devRef .tc b) = W (Proc.devRef .tc b) :=
  StableHlo.after_of_forall_not_mem (b := Proc.devRef .tc b) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- Every window of region 0 but the last is an input. -/
theorem isIn0 : ∀ w : Fin cfg0.W, Pipeline.arrRef spec0 5 ≠ Pipeline.arrRef spec0 w → (cfg0.win w).isOut = false := by decide
/-- A buffer that is not region 0's output array holds at its exit what it held at its entry. -/
theorem keepR0 (c : Dev nD) (b : Ref sig .tc) (hb : Pipeline.arrRef spec0 5 ≠ b) :
    W2 m ρ c (Proc.devRef .tc b) = W1 m ρ c (Proc.devRef .tc b) := by
  by_cases h : ∃ w, Pipeline.arrRef spec0 w = b
  · obtain ⟨w, rfl⟩ := h
    exact (W2_arr m ρ c w).trans (((Layer0.dat (V1 m ρ) c).arrAt_in w (isIn0 w hb) _).trans (Layer0.A_eq (V1 m ρ) c w))
  · exact W2_of_ne m ρ c b fun w e => h ⟨w, e⟩

/-- Every window of region 1 but the last is an input. -/
theorem isIn1 : ∀ w : Fin cfg1.W, Pipeline.arrRef spec1 5 ≠ Pipeline.arrRef spec1 w → (cfg1.win w).isOut = false := by decide
/-- A buffer that is not region 1's output array holds at its exit what it held at its entry. -/
theorem keepR1 (c : Dev nD) (b : Ref sig .tc) (hb : Pipeline.arrRef spec1 5 ≠ b) :
    W4 m ρ c (Proc.devRef .tc b) = W3 m ρ c (Proc.devRef .tc b) := by
  by_cases h : ∃ w, Pipeline.arrRef spec1 w = b
  · obtain ⟨w, rfl⟩ := h
    exact (W4_arr m ρ c w).trans (((Layer1.dat (V3 m ρ) c).arrAt_in w (isIn1 w hb) _).trans (Layer1.A_eq (V3 m ρ) c w))
  · exact W4_of_ne m ρ c b fun w e => h ⟨w, e⟩

/-- Every window of region 2 but the last is an input. -/
theorem isIn2 : ∀ w : Fin cfg2.W, Pipeline.arrRef spec2 5 ≠ Pipeline.arrRef spec2 w → (cfg2.win w).isOut = false := by decide
/-- A buffer that is not region 2's output array holds at its exit what it held at its entry. -/
theorem keepR2 (c : Dev nD) (b : Ref sig .tc) (hb : Pipeline.arrRef spec2 5 ≠ b) :
    W6 m ρ c (Proc.devRef .tc b) = W5 m ρ c (Proc.devRef .tc b) := by
  by_cases h : ∃ w, Pipeline.arrRef spec2 w = b
  · obtain ⟨w, rfl⟩ := h
    exact (W6_arr m ρ c w).trans (((Layer2.dat (V5 m ρ) c).arrAt_in w (isIn2 w hb) _).trans (Layer2.A_eq (V5 m ρ) c w))
  · exact W6_of_ne m ρ c b fun w e => h ⟨w, e⟩

/-- Every window of region 3 but the last is an input. -/
theorem isIn3 : ∀ w : Fin cfg3.W, Pipeline.arrRef spec3 4 ≠ Pipeline.arrRef spec3 w → (cfg3.win w).isOut = false := by decide
/-- A buffer that is not region 3's output array holds at its exit what it held at its entry. -/
theorem keepR3 (c : Dev nD) (b : Ref sig .tc) (hb : Pipeline.arrRef spec3 4 ≠ b) :
    W8 m ρ c (Proc.devRef .tc b) = W7 m ρ c (Proc.devRef .tc b) := by
  by_cases h : ∃ w, Pipeline.arrRef spec3 w = b
  · obtain ⟨w, rfl⟩ := h
    exact (W8_arr m ρ c w).trans (((Readout.dat (V7 m ρ) c).arrAt_in w (isIn3 w hb) _).trans (Readout.A_eq (V7 m ρ) c w))
  · exact W8_of_ne m ρ c b fun w e => h ⟨w, e⟩

/-- A buffer no stretch writes and no region puts out holds at the end what the launch memory holds. -/
theorem W8_kept (c : Dev nD) (b : Ref sig .tc)
    (h0 : ∀ x ∈ wr0, b ≠ x) (h1 : ∀ x ∈ wr1, b ≠ x) (h2 : ∀ x ∈ wr2, b ≠ x) (h3 : ∀ x ∈ wr3, b ≠ x)
    (o0 : Pipeline.arrRef spec0 5 ≠ b) (o1 : Pipeline.arrRef spec1 5 ≠ b) (o2 : Pipeline.arrRef spec2 5 ≠ b) (o3 : Pipeline.arrRef spec3 4 ≠ b) :
    W8 m ρ c (Proc.devRef .tc b) = m ((c : Thread nD τ).loc b) :=
  calc W8 m ρ c (Proc.devRef .tc b)
    _ = W7 m ρ c (Proc.devRef .tc b) := keepR3 m ρ c b o3
    _ = W6 m ρ c (Proc.devRef .tc b) := keepH3 (W6 m ρ c) b h3
    _ = W5 m ρ c (Proc.devRef .tc b) := keepR2 m ρ c b o2
    _ = W4 m ρ c (Proc.devRef .tc b) := keepH2 (W4 m ρ c) b h2
    _ = W3 m ρ c (Proc.devRef .tc b) := keepR1 m ρ c b o1
    _ = W2 m ρ c (Proc.devRef .tc b) := keepH1 (W2 m ρ c) b h1
    _ = W1 m ρ c (Proc.devRef .tc b) := keepR0 m ρ c b o0
    _ = W0 m ρ c (Proc.devRef .tc b) := keepH0 (W0 m ρ c) b h0
    _ = m ((c : Thread nD τ).loc b) := rfl

/-! ### The arguments end as launched -/

theorem W8_main_arg0 (c : Dev nD) : W8 m ρ c (Proc.devRef .tc main_arg0) = m ((c : Thread nD τ).loc main_arg0) :=
  W8_kept m ρ c main_arg0 (by decide) (by decide) (by decide) (by decide) (by decide) (by decide) (by decide) (by decide)
theorem W8_main_arg1 (c : Dev nD) : W8 m ρ c (Proc.devRef .tc main_arg1) = m ((c : Thread nD τ).loc main_arg1) :=
  W8_kept m ρ c main_arg1 (by decide) (by decide) (by decide) (by decide) (by decide) (by decide) (by decide) (by decide)
theorem W8_main_arg2 (c : Dev nD) : W8 m ρ c (Proc.devRef .tc main_arg2) = m ((c : Thread nD τ).loc main_arg2) :=
  W8_kept m ρ c main_arg2 (by decide) (by decide) (by decide) (by decide) (by decide) (by decide) (by decide) (by decide)
theorem W8_main_arg3 (c : Dev nD) : W8 m ρ c (Proc.devRef .tc main_arg3) = m ((c : Thread nD τ).loc main_arg3) :=
  W8_kept m ρ c main_arg3 (by decide) (by decide) (by decide) (by decide) (by decide) (by decide) (by decide) (by decide)
theorem W8_main_arg4 (c : Dev nD) : W8 m ρ c (Proc.devRef .tc main_arg4) = m ((c : Thread nD τ).loc main_arg4) :=
  W8_kept m ρ c main_arg4 (by decide) (by decide) (by decide) (by decide) (by decide) (by decide) (by decide) (by decide)
theorem W8_main_arg5 (c : Dev nD) : W8 m ρ c (Proc.devRef .tc main_arg5) = m ((c : Thread nD τ).loc main_arg5) :=
  W8_kept m ρ c main_arg5 (by decide) (by decide) (by decide) (by decide) (by decide) (by decide) (by decide) (by decide)
theorem W8_main_arg6 (c : Dev nD) : W8 m ρ c (Proc.devRef .tc main_arg6) = m ((c : Thread nD τ).loc main_arg6) :=
  W8_kept m ρ c main_arg6 (by decide) (by decide) (by decide) (by decide) (by decide) (by decide) (by decide) (by decide)
theorem W8_main_arg7 (c : Dev nD) : W8 m ρ c (Proc.devRef .tc main_arg7) = m ((c : Thread nD τ).loc main_arg7) :=
  W8_kept m ρ c main_arg7 (by decide) (by decide) (by decide) (by decide) (by decide) (by decide) (by decide) (by decide)
theorem W8_main_arg8 (c : Dev nD) : W8 m ρ c (Proc.devRef .tc main_arg8) = m ((c : Thread nD τ).loc main_arg8) :=
  W8_kept m ρ c main_arg8 (by decide) (by decide) (by decide) (by decide) (by decide) (by decide) (by decide) (by decide)
theorem W8_main_arg9 (c : Dev nD) : W8 m ρ c (Proc.devRef .tc main_arg9) = m ((c : Thread nD τ).loc main_arg9) :=
  W8_kept m ρ c main_arg9 (by decide) (by decide) (by decide) (by decide) (by decide) (by decide) (by decide) (by decide)
theorem W8_main_arg10 (c : Dev nD) : W8 m ρ c (Proc.devRef .tc main_arg10) = m ((c : Thread nD τ).loc main_arg10) :=
  W8_kept m ρ c main_arg10 (by decide) (by decide) (by decide) (by decide) (by decide) (by decide) (by decide) (by decide)
theorem W8_main_arg11 (c : Dev nD) : W8 m ρ c (Proc.devRef .tc main_arg11) = m ((c : Thread nD τ).loc main_arg11) :=
  W8_kept m ρ c main_arg11 (by decide) (by decide) (by decide) (by decide) (by decide) (by decide) (by decide) (by decide)
theorem W8_main_arg12 (c : Dev nD) : W8 m ρ c (Proc.devRef .tc main_arg12) = m ((c : Thread nD τ).loc main_arg12) :=
  W8_kept m ρ c main_arg12 (by decide) (by decide) (by decide) (by decide) (by decide) (by decide) (by decide) (by decide)
theorem W8_main_arg13 (c : Dev nD) : W8 m ρ c (Proc.devRef .tc main_arg13) = m ((c : Thread nD τ).loc main_arg13) :=
  W8_kept m ρ c main_arg13 (by decide) (by decide) (by decide) (by decide) (by decide) (by decide) (by decide) (by decide)
theorem W8_main_arg14 (c : Dev nD) : W8 m ρ c (Proc.devRef .tc main_arg14) = m ((c : Thread nD τ).loc main_arg14) :=
  W8_kept m ρ c main_arg14 (by decide) (by decide) (by decide) (by decide) (by decide) (by decide) (by decide) (by decide)
theorem W8_main_arg15 (c : Dev nD) : W8 m ρ c (Proc.devRef .tc main_arg15) = m ((c : Thread nD τ).loc main_arg15) :=
  W8_kept m ρ c main_arg15 (by decide) (by decide) (by decide) (by decide) (by decide) (by decide) (by decide) (by decide)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => Layer0.dat (V1 m ρ) c
  | ⟨1, _⟩ => fun c => Layer1.dat (V3 m ρ) c
  | ⟨2, _⟩ => fun c => Layer2.dat (V5 m ρ) c
  | ⟨3, _⟩ => fun c => Readout.dat (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A stretch of host operations as a segment, from the contents `W` of the unscoped buffers, `R` riding along: it
    leaves them at what the operations compute from `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of stretch 0 allocates a buffer. -/
theorem hostOps0_fresh : (hostOps0 : List (HloOp τ sig (Elt F))).Forall fun op => op.fresh = ∅ := by
  simp only [List.Forall]; repeat' constructor
/-- No operation of stretch 1 allocates a buffer. -/
theorem hostOps1_fresh : (hostOps1 : List (HloOp τ sig (Elt F))).Forall fun op => op.fresh = ∅ := by
  simp only [List.Forall]; repeat' constructor
/-- No operation of stretch 2 allocates a buffer. -/
theorem hostOps2_fresh : (hostOps2 : List (HloOp τ sig (Elt F))).Forall fun op => op.fresh = ∅ := by
  simp only [List.Forall]; repeat' constructor
/-- No operation of stretch 3 allocates a buffer. -/
theorem hostOps3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register
    at some state. -/
abbrev Tₙ (c : Dev nD) : sProp 𝕄 := iprop(StableHlo.held (c : Thread nD τ) (Pipeline.ucRefs τ sig) (W8 m ρ c) ∗ ∃ r, prngReg c r)

/-! ## A region's exit contents against its entry contents -/

theorem hF0 (c : Dev nD) (w : Fin cfg0.W) : (Layer0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
theorem hF1 (c : Dev nD) (w : Fin cfg1.W) : (Layer1.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
theorem hF2 (c : Dev nD) (w : Fin cfg2.W) : (Layer2.dat (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
theorem hF3 (c : Dev nD) (w : Fin cfg3.W) : (Readout.dat (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-! ## The regions as segments

Each is entered from every unscoped buffer at its entry contents and left at its exit contents: its arrays split out of
the unscoped buffers and put back; the generator register into the region's invariant and out; nothing owed; no
semaphore of the kernel's own. -/

set_option backward.isDefEq.respectTransparency.types false in
/-- Region 0: entered at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Layer0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Layer1.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Layer2.body_obligation (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered at `W7`, left at `W8`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (Readout.body_obligation (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (Readout.dat (V7 m ρ) c).Φ 0 from rfl]
    refine .trans ?_ (Readout.hin (V7 m ρ) c)
    unfold Pipeline.ΦA
    iintro ⟨Hp, -, Hr⟩
    isplitl [Hr]; · iexact Hr
    iexact Hp
  hout c := by
    rw [Pipeline.ownSems0_none, show (pdats m ρ 3 c).Φ (Fin.last _) = (Readout.dat (V7 m ρ) c).Φ (Fin.last cfg3.N) from rfl]
    refine (Readout.hout (V7 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's eight segments in order: a host segment per stretch from its boundary's contents, a region per kernel. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
/-- The program is the run of the segments. -/
theorem main_run (c : Dev nD) : main (F := F) c = Pipeline.Seg.run (segs m ρ) := (main_chain c).trans (by chain_rfl)

set_option backward.isDefEq.respectTransparency.types false in
/-- From any memory with zero counters every weakly fair execution of the program on the TensorCores terminates, nothing
    faulting, and in every final state each core's unscoped buffers hold the last boundary's contents `W8`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- The program runs and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c),
     (h c _ (mem_uc main_arg11 (by decide))).trans (W8_main_arg11 m ρ c),
     (h c _ (mem_uc main_arg12 (by decide))).trans (W8_main_arg12 m ρ c),
     (h c _ (mem_uc main_arg13 (by decide))).trans (W8_main_arg13 m ρ c),
     (h c _ (mem_uc main_arg14 (by decide))).trans (W8_main_arg14 m ρ c),
     (h c _ (mem_uc main_arg15 (by decide))).trans (W8_main_arg15 m ρ c)⟩) (run_main m ρ)

end Cert.Kernel.Run

end
-- ==== Proof.KiLayer0.lean ====
/-
  One graph-convolution layer's dense half (the program has three such regions, one per layer): at every block of 5000 node rows the body
  reads the aggregated-neighbour block, the node-feature block, the two 128×128 weight matrices and the bias
  row, and stores max(agg·Wn + h·Ws + b, 0) into the output block. Stated at any contents `V` of the buffers
  when the region is entered: what each window's block is, what the body leaves in the output block, the
  body's run, the proof data of the pipeline and its obligation at every point.
-/
import proofs.«419035_j26560077758775_1_alg».proof.Proof.Gen.KernelIdeal.Launch
import proofs.«419035_j26560077758775_1_alg».proof.Proof.Gen.KernelIdeal.Skeleton
import proofs.«419035_j26560077758775_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA : Rect S5000x128 := Rect.unit (s := S5000x128) ![0, 0] S5000x128.size inb_S5000x128_S5000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-- What the body leaves in the output block, from the five input blocks: its one whole-block store. -/
def outBlock (x0 x1 : Vec F S5000x128 .f32) (x2 x3 : Vec F S128x128 .f32) (x4 : Vec F S1x128 .f32) : Vec F S5000x128 .f32 :=
  View.canon [⟨rA, k0_pay1 (View.ld x0 rA) (View.ld x1 rA) (View.ld x2 rW) (View.ld x3 rW) (View.ld x4 rB)⟩]

/-- The one store covers the block. -/
theorem cover (p0 : Vec F S5000x128 .f32) (y : S5000x128.Idx) :
    ∃ pc ∈ ([⟨rA, p0⟩] : List (View.Piece (Elt F) S5000x128 .f32)), y ∈ pc.1.set :=
  View.cover_of_tiled [⟨rA, p0⟩] S5000x128.size (by rfl) y

set_option maxHeartbeats 4000000 in
/-- The body on whole staging memrefs, the inputs at contents `x·` and the output at anything, runs to the
    continuation with the inputs as they were and the output block at `outBlock` of them. -/
theorem sound_kernel (c : Dev nD) (E : Set ℕ) (i : grid0.Coords)
    (a1 : Memref sig .tc .vmem S5000x128 .f32) (h1 : a1.IsWhole) (a2 : Memref sig .tc .vmem S5000x128 .f32) (h2 : a2.IsWhole)
    (a3 : Memref sig .tc .vmem S128x128 .f32) (h3 : a3.IsWhole) (a4 : Memref sig .tc .vmem S128x128 .f32) (h4 : a4.IsWhole)
    (a5 : Memref sig .tc .vmem S1x128 .f32) (h5 : a5.IsWhole) (a6 : Memref sig .tc .vmem S5000x128 .f32) (h6 : a6.IsWhole)
    (x0 x1 : Vec F S5000x128 .f32) (x2 x3 : Vec F S128x128 .f32) (x4 : Vec F S1x128 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ (∃ d, owns (c : Thread nD τ) a6 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4
            ∗ owns (c : Thread nD τ) a6 fullShare (outBlock x0 x1 x2 x3 x4)) -∗ K ⟨⟩))
      ⊢ wp frame (wpE (defs₀ (F := F)) Variants.none c none) E (cc0__combine_kernel i a1 h1 a2 h2 a3 h3 a4 h4 a5 h5 a6 h6) K := by
  simp only [cc0__combine_kernel_eq_skeleton]; unfold cc0__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

/-- The proof data of this layer's pipeline on core `c`: the arrays as the region finds them; after the body each input's buffer at
    its block and the output's at `outBlock` of the input blocks; the invariant the scoped rest and the generator
    register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outBlock (iblk V c 0 t) (iblk V c 1 t) (iblk V c 2 t) (iblk V c 3 t) (iblk V c 4 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) :
    (dat V c).after 5 t = outBlock (iblk V c 0 t) (iblk V c 1 t) (iblk V c 2 t) (iblk V c 3 t) (iblk V c 4 t) := by dsimp only [dat]

/-- Each input's current staging buffer holds its block at every point, whether the pipeline fetched it there or kept it
    from the point before (its index map did not move). -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat V c).before 4 t d = iblk V c 4 t :=
  ((dat V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

set_option maxHeartbeats 4000000 in
/-- The body at any point: the inputs' memrefs hold their blocks, so the run applies; the invariant and the core's
    dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation (c : Dev nD) : BodyObligation (dat (F := F) V c) (defs₀ (F := F)) Variants.none () Set.univ := fun t => by
  rw [bigSep_W0, bigSep_W0]
  exact sound_body V c t

end Cert.KernelIdeal.Layer0

end
-- ==== Proof.KiLayer1.lean ====
/-
  One graph-convolution layer's dense half (the program has three such regions, one per layer): at every block of 5000 node rows the body
  reads the aggregated-neighbour block, the node-feature block, the two 128×128 weight matrices and the bias
  row, and stores max(agg·Wn + h·Ws + b, 0) into the output block. Stated at any contents `V` of the buffers
  when the region is entered: what each window's block is, what the body leaves in the output block, the
  body's run, the proof data of the pipeline and its obligation at every point.
-/
import proofs.«419035_j26560077758775_1_alg».proof.Proof.Gen.KernelIdeal.Launch
import proofs.«419035_j26560077758775_1_alg».proof.Proof.Gen.KernelIdeal.Skeleton
import proofs.«419035_j26560077758775_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rA : Rect S5000x128 := Rect.unit (s := S5000x128) ![0, 0] S5000x128.size inb_S5000x128_S5000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-- What the body leaves in the output block, from the five input blocks: its one whole-block store. -/
def outBlock (x0 x1 : Vec F S5000x128 .f32) (x2 x3 : Vec F S128x128 .f32) (x4 : Vec F S1x128 .f32) : Vec F S5000x128 .f32 :=
  View.canon [⟨rA, k1_pay1 (View.ld x0 rA) (View.ld x1 rA) (View.ld x2 rW) (View.ld x3 rW) (View.ld x4 rB)⟩]

/-- The one store covers the block. -/
theorem cover (p0 : Vec F S5000x128 .f32) (y : S5000x128.Idx) :
    ∃ pc ∈ ([⟨rA, p0⟩] : List (View.Piece (Elt F) S5000x128 .f32)), y ∈ pc.1.set :=
  View.cover_of_tiled [⟨rA, p0⟩] S5000x128.size (by rfl) y

set_option maxHeartbeats 4000000 in
/-- The body on whole staging memrefs, the inputs at contents `x·` and the output at anything, runs to the
    continuation with the inputs as they were and the output block at `outBlock` of them. -/
theorem sound_kernel (c : Dev nD) (E : Set ℕ) (i : grid1.Coords)
    (a1 : Memref sig .tc .vmem S5000x128 .f32) (h1 : a1.IsWhole) (a2 : Memref sig .tc .vmem S5000x128 .f32) (h2 : a2.IsWhole)
    (a3 : Memref sig .tc .vmem S128x128 .f32) (h3 : a3.IsWhole) (a4 : Memref sig .tc .vmem S128x128 .f32) (h4 : a4.IsWhole)
    (a5 : Memref sig .tc .vmem S1x128 .f32) (h5 : a5.IsWhole) (a6 : Memref sig .tc .vmem S5000x128 .f32) (h6 : a6.IsWhole)
    (x0 x1 : Vec F S5000x128 .f32) (x2 x3 : Vec F S128x128 .f32) (x4 : Vec F S1x128 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ (∃ d, owns (c : Thread nD τ) a6 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4
            ∗ owns (c : Thread nD τ) a6 fullShare (outBlock x0 x1 x2 x3 x4)) -∗ K ⟨⟩))
      ⊢ wp frame (wpE (defs₀ (F := F)) Variants.none c none) E (cc1__combine_kernel i a1 h1 a2 h2 a3 h3 a4 h4 a5 h5 a6 h6) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

/-- The proof data of this layer's pipeline on core `c`: the arrays as the region finds them; after the body each input's buffer at
    its block and the output's at `outBlock` of the input blocks; the invariant the scoped rest and the generator
    register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outBlock (iblk V c 0 t) (iblk V c 1 t) (iblk V c 2 t) (iblk V c 3 t) (iblk V c 4 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) :
    (dat V c).after 5 t = outBlock (iblk V c 0 t) (iblk V c 1 t) (iblk V c 2 t) (iblk V c 3 t) (iblk V c 4 t) := by dsimp only [dat]

/-- Each input's current staging buffer holds its block at every point, whether the pipeline fetched it there or kept it
    from the point before (its index map did not move). -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg1.N) (d) : (dat V c).before 4 t d = iblk V c 4 t :=
  ((dat V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

set_option maxHeartbeats 4000000 in
/-- The body at any point: the inputs' memrefs hold their blocks, so the run applies; the invariant and the core's
    dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation (c : Dev nD) : BodyObligation (dat (F := F) V c) (defs₀ (F := F)) Variants.none () Set.univ := fun t => by
  rw [bigSep_W1, bigSep_W1]
  exact sound_body V c t

end Cert.KernelIdeal.Layer1

end
-- ==== Proof.KiLayer2.lean ====
/-
  One graph-convolution layer's dense half (the program has three such regions, one per layer): at every block of 5000 node rows the body
  reads the aggregated-neighbour block, the node-feature block, the two 128×128 weight matrices and the bias
  row, and stores max(agg·Wn + h·Ws + b, 0) into the output block. Stated at any contents `V` of the buffers
  when the region is entered: what each window's block is, what the body leaves in the output block, the
  body's run, the proof data of the pipeline and its obligation at every point.
-/
import proofs.«419035_j26560077758775_1_alg».proof.Proof.Gen.KernelIdeal.Launch
import proofs.«419035_j26560077758775_1_alg».proof.Proof.Gen.KernelIdeal.Skeleton
import proofs.«419035_j26560077758775_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rA : Rect S5000x128 := Rect.unit (s := S5000x128) ![0, 0] S5000x128.size inb_S5000x128_S5000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-- What the body leaves in the output block, from the five input blocks: its one whole-block store. -/
def outBlock (x0 x1 : Vec F S5000x128 .f32) (x2 x3 : Vec F S128x128 .f32) (x4 : Vec F S1x128 .f32) : Vec F S5000x128 .f32 :=
  View.canon [⟨rA, k2_pay1 (View.ld x0 rA) (View.ld x1 rA) (View.ld x2 rW) (View.ld x3 rW) (View.ld x4 rB)⟩]

/-- The one store covers the block. -/
theorem cover (p0 : Vec F S5000x128 .f32) (y : S5000x128.Idx) :
    ∃ pc ∈ ([⟨rA, p0⟩] : List (View.Piece (Elt F) S5000x128 .f32)), y ∈ pc.1.set :=
  View.cover_of_tiled [⟨rA, p0⟩] S5000x128.size (by rfl) y

set_option maxHeartbeats 4000000 in
/-- The body on whole staging memrefs, the inputs at contents `x·` and the output at anything, runs to the
    continuation with the inputs as they were and the output block at `outBlock` of them. -/
theorem sound_kernel (c : Dev nD) (E : Set ℕ) (i : grid2.Coords)
    (a1 : Memref sig .tc .vmem S5000x128 .f32) (h1 : a1.IsWhole) (a2 : Memref sig .tc .vmem S5000x128 .f32) (h2 : a2.IsWhole)
    (a3 : Memref sig .tc .vmem S128x128 .f32) (h3 : a3.IsWhole) (a4 : Memref sig .tc .vmem S128x128 .f32) (h4 : a4.IsWhole)
    (a5 : Memref sig .tc .vmem S1x128 .f32) (h5 : a5.IsWhole) (a6 : Memref sig .tc .vmem S5000x128 .f32) (h6 : a6.IsWhole)
    (x0 x1 : Vec F S5000x128 .f32) (x2 x3 : Vec F S128x128 .f32) (x4 : Vec F S1x128 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ (∃ d, owns (c : Thread nD τ) a6 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4
            ∗ owns (c : Thread nD τ) a6 fullShare (outBlock x0 x1 x2 x3 x4)) -∗ K ⟨⟩))
      ⊢ wp frame (wpE (defs₀ (F := F)) Variants.none c none) E (cc2__combine_kernel i a1 h1 a2 h2 a3 h3 a4 h4 a5 h5 a6 h6) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

/-- The proof data of this layer's pipeline on core `c`: the arrays as the region finds them; after the body each input's buffer at
    its block and the output's at `outBlock` of the input blocks; the invariant the scoped rest and the generator
    register, untouched; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outBlock (iblk V c 0 t) (iblk V c 1 t) (iblk V c 2 t) (iblk V c 3 t) (iblk V c 4 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) :
    (dat V c).after 5 t = outBlock (iblk V c 0 t) (iblk V c 1 t) (iblk V c 2 t) (iblk V c 3 t) (iblk V c 4 t) := by dsimp only [dat]

/-- Each input's current staging buffer holds its block at every point, whether the pipeline fetched it there or kept it
    from the point before (its index map did not move). -/
theorem before_0 (c : Dev nD) (t : Fin cfg2.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg2.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg2.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg2.N) (d) : (dat V c).before 4 t d = iblk V c 4 t :=
  ((dat V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t))

set_option maxHeartbeats 4000000 in
/-- The body at any point: the inputs' memrefs hold their blocks, so the run applies; the invariant and the core's
    dues pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation (c : Dev nD) : BodyObligation (dat (F := F) V c) (defs₀ (F := F)) Variants.none () Set.univ := fun t => by
  rw [bigSep_W2, bigSep_W2]
  exact sound_body V c t

end Cert.KernelIdeal.Layer2

end
-- ==== Proof.KiReadout.lean ====
/-
  The readout, region 3 of the program: over 20 blocks of 5000 node rows the body adds, into a 64×128 scratch it keeps
  between the points, the block's rows summed per graph (a 0/1 membership matrix of the block's graph ids against the
  64 graphs, times the block's features); the first point zeroes the scratch first; the last point multiplies the sums
  by the classifier's weights, adds its bias and stores the row-wise softmax into the one 64×10 output block. Stated
  at any contents `V` of the buffers when the region is entered.
-/
import proofs.«419035_j26560077758775_1_alg».proof.Proof.Gen.KernelIdeal.Launch
import proofs.«419035_j26560077758775_1_alg».proof.Proof.Gen.KernelIdeal.Skeleton
import proofs.«419035_j26560077758775_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Readout

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's two branches, decided over the grid -/

/-- The first branch (zero the sums): the grid coordinate is 0. -/
abbrev cond1 (i : grid3.Coords) : Prop := (Scalar.cmpi .ne (Scalar.extui (Scalar.cmpi .eq (BitVec.ofNat 32 (i 0).val) 0#32)) 0#32) = 1#1
theorem hcond1 : ∀ t : Fin cfg3.N, cond1 (grid3.coords t) ↔ t.val % 20 = 0 :=
  (by decide +kernel : ∀ t : Fin grid3.N, cond1 (grid3.coords t) ↔ t.val % 20 = 0)
/-- The second branch (classify and store): the grid coordinate is 19. -/
abbrev cond2 (i : grid3.Coords) : Prop := k3_cond2 i = 1#1
theorem hcond2 : ∀ t : Fin cfg3.N, cond2 (grid3.coords t) ↔ t.val % 20 = 19 :=
  (by decide +kernel : ∀ t : Fin grid3.N, cond2 (grid3.coords t) ↔ t.val % 20 = 19)

/-! ## Where the windows are idle -/

theorem live_0 : ∀ t : Fin cfg3.N, cfg3.idle 0 (grid3.coords t) = false := by decide +kernel
theorem live_1 : ∀ t : Fin cfg3.N, cfg3.idle 1 (grid3.coords t) = false := by decide +kernel
theorem live_2 : ∀ t : Fin cfg3.N, cfg3.idle 2 (grid3.coords t) = false := by decide +kernel
theorem live_3 : ∀ t : Fin cfg3.N, cfg3.idle 3 (grid3.coords t) = false := by decide +kernel
/-- Away from the last point the output block is idle and not written back. -/
theorem idle_4 : ∀ t : Fin cfg3.N, ¬cond2 (grid3.coords t) → cfg3.idle 4 (grid3.coords t) = true := by decide +kernel
theorem noFlush_4 : ∀ t : Fin cfg3.N, ¬cond2 (grid3.coords t) → (cfg3.win 4).flush t = false := by decide +kernel
theorem live_4 : ∀ t : Fin cfg3.N, cond2 (grid3.coords t) → cfg3.idle 4 (grid3.coords t) = false := by decide +kernel

/-! ## What the scratch and the output block hold -/

/-- The scratch operand: a whole scoped buffer of the kernel's own. -/
abbrev scM : Memref sig .tc .vmem S64x128 .f32 := Memref.whole cc3_scratch0

/-- The per-graph sums after the body at point `n`: the block's contribution added to what the point before left, from
    zero at the first point. -/
def accAt (c : Dev nD) : (n : ℕ) → n < cfg3.N → Vec F S64x128 .f32
  | 0, hn => k3_pay2 (iblk V c 0 ⟨0, hn⟩) (iblk V c 1 ⟨0, hn⟩) (k3_pay1 (F := F))
  | n + 1, hn => k3_pay2 (iblk V c 0 ⟨n + 1, hn⟩) (iblk V c 1 ⟨n + 1, hn⟩) (accAt c n (Nat.lt_of_succ_lt hn))

theorem accAt_zero (c : Dev nD) (hn : 0 < cfg3.N) :
    accAt V c 0 hn = k3_pay2 (iblk V c 0 ⟨0, hn⟩) (iblk V c 1 ⟨0, hn⟩) (k3_pay1 (F := F)) := rfl
theorem accAt_succ (c : Dev nD) (n : ℕ) (hn : n + 1 < cfg3.N) :
    accAt V c (n + 1) hn = k3_pay2 (iblk V c 0 ⟨n + 1, hn⟩) (iblk V c 1 ⟨n + 1, hn⟩) (accAt V c n (Nat.lt_of_succ_lt hn)) := rfl

/-- The region invariant before position `n`: before the first point the scoped rest and the generator register at
    anything; afterwards the scratch at the sums the point before left, the other scoped buffers and the register at anything. -/
def PhiS (c : Dev nD) : (n : ℕ) → n ≤ cfg3.N → sProp 𝕄
  | 0, _ => Pipeline.ΦA spec3 c
  | n + 1, hn => iprop(iprop(owns (c : Thread nD τ) scM fullShare (accAt V c n hn)
      ∗ Pipeline.scopedRestBut (Ix := Unit) (Name := ℕ) (U := UR sig nD τ) (Lvl := ℕ) (Val := Elt F) spec3 c [cc3_scratch0]) ∗ (∃ r, prngReg c r))

/-- The proof data of pipeline 3 on core `c`: the arrays as the region finds them; after the body each input's buffer at
    its block, the output block at the classifier's softmax of the sums so far (read only at the last point, the one that
    is written back); the invariant `PhiS`; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => k3_pay3 (accAt V c t.val t.isLt) (iblk V c 2 t) (iblk V c 3 t)
  Φ t := PhiS V c t.val (Nat.le_of_lt_succ t.isLt)
  q _ := fullShare
  owed _ := 0

theorem A_eq (c : Dev nD) (w : Fin cfg3.W) : (dat V c).A w = V c (Pipeline.arrRef spec3 w) := by
  dsimp only [dat]
theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = iblk V c 3 t := by dsimp only [dat]
theorem after_4 (c : Dev nD) (t : Fin cfg3.N) :
    (dat V c).after 4 t = k3_pay3 (accAt V c t.val t.isLt) (iblk V c 2 t) (iblk V c 3 t) := by dsimp only [dat]

/-! ## The body's run, case by case -/

/-- Both zero offsets, spelt as the stores and loads spell them, are the zero function. -/
theorem hz2 : (![0, 0] : Fin 2 → ℕ) = fun _ => 0 := by funext a; fin_cases a <;> rfl

/-- A whole-scratch store, last, covers the scratch whatever came before it. -/
theorem cover6 (w : Vec F S64x128 .f32) (L : List (View.Piece (Elt F) S64x128 .f32)) (y : S64x128.Idx) :
    ∃ p ∈ ((⟨Rect.unit (s := S64x128) ![0, 0] S64x128.size inb_S64x128_S64x128_0_0, w⟩ : View.Piece (Elt F) S64x128 .f32) :: L), y ∈ p.1.set :=
  ⟨_, List.mem_cons_self, View.mem_set_unit_zero hz2 inb_S64x128_S64x128_0_0 y⟩

/-- A whole-block store, last, covers the output block. -/
theorem cover5 (w : Vec F S64x10 .f32) (L : List (View.Piece (Elt F) S64x10 .f32)) (y : S64x10.Idx) :
    ∃ p ∈ ((⟨Rect.unit (s := S64x10) ![0, 0] S64x10.size inb_S64x10_S64x10_0_0, w⟩ : View.Piece (Elt F) S64x10 .f32) :: L), y ∈ p.1.set :=
  ⟨_, List.mem_cons_self, View.mem_set_unit_zero hz2 inb_S64x10_S64x10_0_0 y⟩

set_option maxHeartbeats 4000000 in
/-- The body at the first point (first branch taken, second not), on whole staging memrefs: the inputs at contents `x·`, the
    output block at `xi` and the scratch at anything; it zeroes the scratch, reads it back and adds the block's per-graph
    sums, leaving everything else as it was. -/
theorem run_A (c : Dev nD) (E : Set ℕ) (i : grid3.Coords)
    (a1 : Memref sig .tc .vmem S5000x128 .f32) (h1 : a1.IsWhole) (a2 : Memref sig .tc .vmem S5000x1 .i32) (h2 : a2.IsWhole)
    (a3 : Memref sig .tc .vmem S128x10 .f32) (h3 : a3.IsWhole) (a4 : Memref sig .tc .vmem S1x10 .f32) (h4 : a4.IsWhole)
    (a5 : Memref sig .tc .vmem S64x10 .f32) (h5 : a5.IsWhole) (a6 : Memref sig .tc .vmem S64x128 .f32) (h6 : a6.IsWhole) (hc1 : cond1 i) (hc2 : ¬cond2 i)
    (x0 : Vec F S5000x128 .f32) (x1 : Vec F S5000x1 .i32) (x2 : Vec F S128x10 .f32) (x3 : Vec F S1x10 .f32) (xi : Vec F S64x10 .f32)
    (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare xi ∗ (∃ d, owns (c : Thread nD τ) a6 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare xi
            ∗ owns (c : Thread nD τ) a6 fullShare (k3_pay2 x0 x1 (k3_pay1 (F := F)))) -∗ K ⟨⟩))
      ⊢ wp frame (wpE (defs₀ (F := F)) Variants.none c none) E (cc3__readout_kernel i a1 h1 a2 h2 a3 h3 a4 h4 a5 h5 a6 h6) K := by
  simp only [cc3__readout_kernel_eq_skeleton]; unfold cc3__readout_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (cover6 _ _)).trans ?_
  rw [View.canon_cons_unit_zero hz2]
  sl_unfold_words
  simp only [View.readAt_eq_ld, View.ld_unit_zero (S := S5000x128) hz2, View.ld_unit_zero (S := S5000x1) hz2, View.readCov_unit_zero (S := S64x128) _ hz2]

set_option maxHeartbeats 4000000 in
/-- The body at a middle point (neither branch taken): the scratch at `xs` ends at `xs` plus the block's per-graph sums. -/
theorem run_B (c : Dev nD) (E : Set ℕ) (i : grid3.Coords)
    (a1 : Memref sig .tc .vmem S5000x128 .f32) (h1 : a1.IsWhole) (a2 : Memref sig .tc .vmem S5000x1 .i32) (h2 : a2.IsWhole)
    (a3 : Memref sig .tc .vmem S128x10 .f32) (h3 : a3.IsWhole) (a4 : Memref sig .tc .vmem S1x10 .f32) (h4 : a4.IsWhole)
    (a5 : Memref sig .tc .vmem S64x10 .f32) (h5 : a5.IsWhole) (a6 : Memref sig .tc .vmem S64x128 .f32) (h6 : a6.IsWhole) (hc1 : ¬cond1 i) (hc2 : ¬cond2 i)
    (x0 : Vec F S5000x128 .f32) (x1 : Vec F S5000x1 .i32) (x2 : Vec F S128x10 .f32) (x3 : Vec F S1x10 .f32) (xi : Vec F S64x10 .f32)
    (xs : Vec F S64x128 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare xi ∗ owns (c : Thread nD τ) a6 fullShare xs
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare xi
            ∗ owns (c : Thread nD τ) a6 fullShare (k3_pay2 x0 x1 xs)) -∗ K ⟨⟩))
      ⊢ wp frame (wpE (defs₀ (F := F)) Variants.none c none) E (cc3__readout_kernel i a1 h1 a2 h2 a3 h3 a4 h4 a5 h5 a6 h6) K := by
  simp only [cc3__readout_kernel_eq_skeleton]; unfold cc3__readout_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (cover6 _ _)).trans ?_
  rw [View.canon_cons_unit_zero hz2]
  sl_unfold_words
  simp only [View.readAt_eq_ld, View.ld_unit_zero (S := S5000x128) hz2, View.ld_unit_zero (S := S5000x1) hz2, View.ld_unit_zero (S := S64x128) hz2]

set_option maxHeartbeats 4000000 in
/-- The body at the last point (second branch taken): the scratch at `xs` ends at the completed sums, and the output block,
    at anything before, ends at the classifier's softmax of them. -/
theorem run_C (c : Dev nD) (E : Set ℕ) (i : grid3.Coords)
    (a1 : Memref sig .tc .vmem S5000x128 .f32) (h1 : a1.IsWhole) (a2 : Memref sig .tc .vmem S5000x1 .i32) (h2 : a2.IsWhole)
    (a3 : Memref sig .tc .vmem S128x10 .f32) (h3 : a3.IsWhole) (a4 : Memref sig .tc .vmem S1x10 .f32) (h4 : a4.IsWhole)
    (a5 : Memref sig .tc .vmem S64x10 .f32) (h5 : a5.IsWhole) (a6 : Memref sig .tc .vmem S64x128 .f32) (h6 : a6.IsWhole) (hc1 : ¬cond1 i) (hc2 : cond2 i)
    (x0 : Vec F S5000x128 .f32) (x1 : Vec F S5000x1 .i32) (x2 : Vec F S128x10 .f32) (x3 : Vec F S1x10 .f32)
    (xs : Vec F S64x128 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ (∃ d, owns (c : Thread nD τ) a5 fullShare d) ∗ owns (c : Thread nD τ) a6 fullShare xs
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare (k3_pay3 (k3_pay2 x0 x1 xs) x2 x3)
            ∗ owns (c : Thread nD τ) a6 fullShare (k3_pay2 x0 x1 xs)) -∗ K ⟨⟩))
      ⊢ wp frame (wpE (defs₀ (F := F)) Variants.none c none) E (cc3__readout_kernel i a1 h1 a2 h2 a3 h3 a4 h4 a5 h5 a6 h6) K := by
  simp only [cc3__readout_kernel_eq_skeleton]; unfold cc3__readout_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0; subst hf1; subst hf2; subst hf3; subst hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover5 _ _)).trans ?_
    rw [View.canon_cons_unit_zero hz2]
    sl_unfold_words
    simp only [View.readAt_eq_ld, View.ld_unit_zero (S := S5000x128) hz2, View.ld_unit_zero (S := S5000x1) hz2, View.ld_unit_zero (S := S64x128) hz2,
      View.ld_unit_zero (S := S128x10) hz2, View.ld_unit_zero (S := S1x10) hz2, View.readCov_unit_zero (S := S64x128) _ hz2]
  iexists _; isplitr
  swap; · iexact H5
  ipureintro
  refine (View.read_writes_eq_canon _ _ _ (cover6 _ _)).trans ?_
  rw [View.canon_cons_unit_zero hz2]
  sl_unfold_words
  simp only [View.readAt_eq_ld, View.ld_unit_zero (S := S5000x128) hz2, View.ld_unit_zero (S := S5000x1) hz2, View.ld_unit_zero (S := S64x128) hz2]

/-! ## The invariant, opened -/

/-- What the launch hands the region, with the scratch as a memref owned at some contents. -/
theorem PhiA_eq (c : Dev nD) :
    (Pipeline.ΦA spec3 c : sProp 𝕄)
      = iprop(iprop((∃ d, owns (c : Thread nD τ) scM fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM, owns_whole]; try rfl

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop(iprop(owns (c : Thread nD τ) scM fullShare (accAt V c n hn)
      ∗ Pipeline.scopedRestBut (Ix := Unit) (Name := ℕ) (U := UR sig nD τ) (Lvl := ℕ) (Val := Elt F) spec3 c [cc3_scratch0]) ∗ (∃ r, prngReg c r)) := rfl

/-- Before a point that is not the first the scratch holds what the point before left. -/
theorem PhiS_pos (c : Dev nD) (n : ℕ) (h : n ≤ cfg3.N) (hz : n ≠ 0) :
    PhiS V c n h = iprop(iprop(owns (c : Thread nD τ) scM fullShare (accAt V c (n - 1) (by omega))
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

theorem PhiS_castSucc (c : Dev nD) (t : Fin cfg3.N) :
    (dat V c).Φ t.castSucc = PhiS V c t.val (Nat.le_of_lt t.isLt) := by
  dsimp only [dat]; simp only [Fin.coe_castSucc]

/-- The sums after the first point. -/
theorem accAt_first (c : Dev nD) (t : Fin cfg3.N) (hz : t.val = 0) :
    accAt V c t.val t.isLt = k3_pay2 (iblk V c 0 t) (iblk V c 1 t) (k3_pay1 (F := F)) := by
  obtain ⟨n, hn⟩ := t
  dsimp only at hz
  subst hz; rfl

/-- The sums after a later point, over those of the point before. -/
theorem accAt_next (c : Dev nD) (t : Fin cfg3.N) (hz : t.val ≠ 0) :
    accAt V c t.val t.isLt = k3_pay2 (iblk V c 0 t) (iblk V c 1 t) (accAt V c (t.val - 1) (Nat.lt_of_le_of_lt (Nat.sub_le _ _) t.isLt)) := by
  obtain ⟨n, hn⟩ := t
  cases n with
  | zero => exact absurd rfl hz
  | succ n => rfl

/-! ## The inputs' staging buffers -/

/-- Each input's current staging buffer holds its block at every point, whether the pipeline fetched it there or kept it
    from the point before (its index map did not move). -/
theorem before_0 (c : Dev nD) (t : Fin cfg3.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg3.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg3.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg3.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-! ## The body obligation, at a generic point -/

/-- What the body is called with at point `t`, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d)))

/-- and what it returns. -/
def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4000000 in
/-- The body at any point: the inputs' memrefs hold their blocks; the closed forms of the two conditions say which of the
    three cases the point is in; the invariant hands the body the scratch (at anything at the first point, at the sums so far
    afterwards) and takes it back at this point's sums; the output block is handed back untouched except at the last
    point, where it is stored; the rest of the invariant and the core's dues pass through unread. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3]
  rw [show (dat V c).owesAt () t.succ = (dat V c).owesAt () t.castSucc from rfl,
    show (dat V c).Φ t.succ = PhiS V c (t.val + 1) t.isLt from rfl, PhiS_succ, PhiS_castSucc]
  rw [show (dat V c).leavesExact 0 t = owns (c : Thread nD τ) (st3_0 t) fullShare ((dat V c).after 0 t) from by
      unfold Dat.leavesExact; rw [live_0 t], after_0]
  rw [show (dat V c).leavesExact 1 t = owns (c : Thread nD τ) (st3_1 t) fullShare ((dat V c).after 1 t) from by
      unfold Dat.leavesExact; rw [live_1 t], after_1]
  rw [show (dat V c).leavesExact 2 t = owns (c : Thread nD τ) (st3_2 t) fullShare ((dat V c).after 2 t) from by
      unfold Dat.leavesExact; rw [live_2 t], after_2]
  rw [show (dat V c).leavesExact 3 t = owns (c : Thread nD τ) (st3_3 t) fullShare ((dat V c).after 3 t) from by
      unfold Dat.leavesExact; rw [live_3 t], after_3]
  have hN : t.val < 20 := lt_of_lt_of_eq t.isLt (show cfg3.N = 20 from N_3)
  by_cases h0 : t.val % 20 = 0
  · have hz : t.val = 0 := by omega
    have hc1 : cond1 (grid3.coords t) := (hcond1 t).mpr h0
    have hc2 : ¬cond2 (grid3.coords t) := fun h => by have := (hcond2 t).mp h; omega
    rw [Dat.leavesExact_idle (dat V c) 4 t (idle_4 t hc2) (noFlush_4 t hc2)]
    rw [accAt_first V c t hz, PhiS_zero V c _ _ hz, PhiA_eq]
    iintro ⟨⟨⟨HS, HR⟩, Hg⟩, Ho, ⟨%d0, H0⟩, ⟨%d1, H1⟩, ⟨%d2, H2⟩, ⟨%d3, H3⟩, ⟨%d4, H4⟩⟩
    iapply (run_A c Set.univ (grid3.coords t) _ _ _ _ _ _ _ _ _ _ _ _ hc1 hc2 (iblk V c 0 t) (iblk V c 1 t) (iblk V c 2 t) (iblk V c 3 t) _ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    have hc1 : ¬cond1 (grid3.coords t) := fun h => h0 ((hcond1 t).mp h)
    rw [accAt_next V c t hz, PhiS_pos V c _ _ hz]
    by_cases h19 : t.val % 20 = 19
    · have hc2 : cond2 (grid3.coords t) := (hcond2 t).mpr h19
      rw [show (dat V c).leavesExact 4 t = owns (c : Thread nD τ) (st3_4 t) fullShare ((dat V c).after 4 t) from by
        unfold Dat.leavesExact; rw [live_4 t hc2], after_4, accAt_next V c t hz]
      iintro ⟨⟨⟨HS, HR⟩, Hg⟩, Ho, ⟨%d0, H0⟩, ⟨%d1, H1⟩, ⟨%d2, H2⟩, ⟨%d3, H3⟩, ⟨%d4, H4⟩⟩
      iapply (run_C c Set.univ (grid3.coords t) _ _ _ _ _ _ _ _ _ _ _ _ hc1 hc2 (iblk V c 0 t) (iblk V c 1 t) (iblk V c 2 t) (iblk V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · have hc2 : ¬cond2 (grid3.coords t) := fun h => h19 ((hcond2 t).mp h)
      rw [Dat.leavesExact_idle (dat V c) 4 t (idle_4 t hc2) (noFlush_4 t hc2)]
      iintro ⟨⟨⟨HS, HR⟩, Hg⟩, Ho, ⟨%d0, H0⟩, ⟨%d1, H1⟩, ⟨%d2, H2⟩, ⟨%d3, H3⟩, ⟨%d4, H4⟩⟩
      iapply (run_B c Set.univ (grid3.coords t) _ _ _ _ _ _ _ _ _ _ _ _ hc1 hc2 (iblk V c 0 t) (iblk V c 1 t) (iblk V c 2 t) (iblk V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The pipeline's body obligation, at every point. -/
theorem body_obligation (c : Dev nD) : BodyObligation (dat (F := F) V c) (defs₀ (F := F)) Variants.none () Set.univ := fun t => by
  rw [bigSep_W3, bigSep_W3]
  exact sound_body V c t

/-- What the launch hands the region is the invariant before the first point. -/
theorem hin (c : Dev nD) : Pipeline.ΦA spec3 c ⊢ (dat V c).Φ 0 := by
  rw [show (dat V c).Φ 0 = PhiS V c 0 (Nat.zero_le _) from rfl, PhiS_zero V c 0 _ rfl]
  try exact Idealize.SL.BI.Entails.refl _

/-- After the last point the invariant gives the scoped rest and the register back: the sums are forgotten. -/
theorem hout (c : Dev nD) : (dat V c).Φ (Fin.last cfg3.N) ⊢ Pipeline.ΦA spec3 c := by
  rw [show (dat V c).Φ (Fin.last cfg3.N) = PhiS V c (Fin.last cfg3.N).val (Nat.le_of_lt_succ (Fin.last cfg3.N).isLt) from rfl,
    PhiS_pos V c _ _ (by rw [Fin.val_last]; have : cfg3.N = 20 := N_3; omega), PhiA_eq]
  iintro ⟨⟨HS, HR⟩, Hg⟩
  isplitl [HS HR]
  · isplitl [HS]; · iexists _; iexact HS
    iexact HR
  iexact Hg

end Cert.KernelIdeal.Readout

end
-- ==== Proof.KiFold.lean ====
/-
  The buffers' contents at every boundary of the program's eight items (four stretches of host operations, each
  followed by a kernel region), folded from the launch memory: a stretch leaves what its operations compute; a
  region leaves its arrays at what its write-backs leave and every other buffer as it found it.
-/
import proofs.«419035_j26560077758775_1_alg».proof.Proof.KiLayer0
import proofs.«419035_j26560077758775_1_alg».proof.Proof.KiLayer1
import proofs.«419035_j26560077758775_1_alg».proof.Proof.KiLayer2
import proofs.«419035_j26560077758775_1_alg».proof.Proof.KiReadout

set_option maxRecDepth 16384

noncomputable section

namespace Cert.KernelIdeal.Fold

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first stretch (the first layer's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first layer's exit. -/
def W2 (c : Dev nD) : Valuation τ sig (Elt F) :=
  Pipeline.withArrays spec0 c (W1 m ρ c) fun w => (Layer0.dat (V1 m ρ) c).arrAt w cfg0.N
abbrev V2 : (c : Dev nD) → (b : Ref sig .tc) → Buf (Elt F) ((c : Thread nD τ).loc b) := fun c b => W2 m ρ c b
/-- After the second stretch (the second layer's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second layer's exit. -/
def W4 (c : Dev nD) : Valuation τ sig (Elt F) :=
  Pipeline.withArrays spec1 c (W3 m ρ c) fun w => (Layer1.dat (V3 m ρ) c).arrAt w cfg1.N
abbrev V4 : (c : Dev nD) → (b : Ref sig .tc) → Buf (Elt F) ((c : Thread nD τ).loc b) := fun c b => W4 m ρ c b
/-- After the third stretch (the third layer's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At the third layer's exit. -/
def W6 (c : Dev nD) : Valuation τ sig (Elt F) :=
  Pipeline.withArrays spec2 c (W5 m ρ c) fun w => (Layer2.dat (V5 m ρ) c).arrAt w cfg2.N
abbrev V6 : (c : Dev nD) → (b : Ref sig .tc) → Buf (Elt F) ((c : Thread nD τ).loc b) := fun c b => W6 m ρ c b
/-- After the fourth stretch (the readout's entry). -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At the readout's exit: the program's end. -/
def W8 (c : Dev nD) : Valuation τ sig (Elt F) :=
  Pipeline.withArrays spec3 c (W7 m ρ c) fun w => (Readout.dat (V7 m ρ) c).arrAt w cfg3.N
abbrev V8 : (c : Dev nD) → (b : Ref sig .tc) → Buf (Elt F) ((c : Thread nD τ).loc b) := fun c b => W8 m ρ c b

/-! ## A region's exit contents, at its arrays and away from them -/

theorem W2_arr (c : Dev nD) (w : Fin cfg0.W) :
    W2 m ρ c (Proc.devRef .tc (Pipeline.arrRef spec0 w)) = (Layer0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W4_arr (c : Dev nD) (w : Fin cfg1.W) :
    W4 m ρ c (Proc.devRef .tc (Pipeline.arrRef spec1 w)) = (Layer1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W6_arr (c : Dev nD) (w : Fin cfg2.W) :
    W6 m ρ c (Proc.devRef .tc (Pipeline.arrRef spec2 w)) = (Layer2.dat (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
theorem W8_arr (c : Dev nD) (w : Fin cfg3.W) :
    W8 m ρ c (Proc.devRef .tc (Pipeline.arrRef spec3 w)) = (Readout.dat (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb

end Cert.KernelIdeal.Fold

end
-- ==== Proof.KiRun.lean ====
/-
  The launch of the program: its four stretches of host operations and its four kernel regions (three graph-convolution
  layers' dense halves and the readout) as the segments of one run from the launch memory. Between two items every core
  holds each of its unscoped buffers whole at the boundary's contents (the fold `W0 … W8`), beside its generator register
  at some state and nothing owed. A region takes its windows' arrays out of those buffers, runs its pipeline on its
  proof data at the entry contents, and puts the arrays back at what its write-backs leave. At the end every unscoped
  buffer is read off the final state at `W8`; an argument array is written by no stretch and is no region's output, so
  the fold at it walks back to the launch memory.
-/
import proofs.«419035_j26560077758775_1_alg».proof.Proof.KiFold

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen Cert.KernelIdeal.Fold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A buffer no item writes keeps its contents through the fold

A stretch of host operations changes only its operations' result buffers; a region changes only its output window's
array (an input window's array is left as entered, any other buffer is bypassed). -/

/-- The buffers stretch 0's operations write. -/
abbrev wr0 : List (Ref sig .tc) := [main_c, main_v0, main_v1, main_c_0, main_v2, main_v3, main_v4, main_v5, main_v6, main_v7, main_v8, main_v9, main_cst, main_v10, main_v11, main_v12, main_v13]
/-- A buffer stretch 0 does not write holds after it what it held before. -/
theorem keepH0 (W : Valuation τ sig (Elt F)) (b : Ref sig .tc) (hb : ∀ x ∈ wr0, b ≠ x) :
    StableHlo.after (hostOps0 (F := F)) W (Proc.devRef .tc b) = W (Proc.devRef .tc b) :=
  StableHlo.after_of_forall_not_mem (b := Proc.devRef .tc b) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- The buffers stretch 1's operations write. -/
abbrev wr1 : List (Ref sig .tc) := [main_c_1, main_v15, main_v16, main_c_2, main_v17, main_v18, main_v19, main_v20, main_v21, main_v22, main_v23, main_v24, main_cst_3, main_v25, main_v26, main_v27, main_v28]
/-- A buffer stretch 1 does not write holds after it what it held before. -/
theorem keepH1 (W : Valuation τ sig (Elt F)) (b : Ref sig .tc) (hb : ∀ x ∈ wr1, b ≠ x) :
    StableHlo.after (hostOps1 (F := F)) W (Proc.devRef .tc b) = W (Proc.devRef .tc b) :=
  StableHlo.after_of_forall_not_mem (b := Proc.devRef .tc b) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- The buffers stretch 2's operations write. -/
abbrev wr2 : List (Ref sig .tc) := [main_c_4, main_v30, main_v31, main_c_5, main_v32, main_v33, main_v34, main_v35, main_v36, main_v37, main_v38, main_v39, main_cst_6, main_v40, main_v41, main_v42, main_v43]
/-- A buffer stretch 2 does not write holds after it what it held before. -/
theorem keepH2 (W : Valuation τ sig (Elt F)) (b : Ref sig .tc) (hb : ∀ x ∈ wr2, b ≠ x) :
    StableHlo.after (hostOps2 (F := F)) W (Proc.devRef .tc b) = W (Proc.devRef .tc b) :=
  StableHlo.after_of_forall_not_mem (b := Proc.devRef .tc b) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- The buffers stretch 3's operations write. -/
abbrev wr3 : List (Ref sig .tc) := [main_v45, main_v46]
/-- A buffer stretch 3 does not write holds after it what it held before. -/
theorem keepH3 (W : Valuation τ sig (Elt F)) (b : Ref sig .tc) (hb : ∀ x ∈ wr3, b ≠ x) :
    StableHlo.after (hostOps3 (F := F)) W (Proc.devRef .tc b) = W (Proc.devRef .tc b) :=
  StableHlo.after_of_forall_not_mem (b := Proc.devRef .tc b) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- Every window of region 0 but the last is an input. -/
theorem isIn0 : ∀ w : Fin cfg0.W, Pipeline.arrRef spec0 5 ≠ Pipeline.arrRef spec0 w → (cfg0.win w).isOut = false := by decide
/-- A buffer that is not region 0's output array holds at its exit what it held at its entry. -/
theorem keepR0 (c : Dev nD) (b : Ref sig .tc) (hb : Pipeline.arrRef spec0 5 ≠ b) :
    W2 m ρ c (Proc.devRef .tc b) = W1 m ρ c (Proc.devRef .tc b) := by
  by_cases h : ∃ w, Pipeline.arrRef spec0 w = b
  · obtain ⟨w, rfl⟩ := h
    exact (W2_arr m ρ c w).trans (((Layer0.dat (V1 m ρ) c).arrAt_in w (isIn0 w hb) _).trans (Layer0.A_eq (V1 m ρ) c w))
  · exact W2_of_ne m ρ c b fun w e => h ⟨w, e⟩

/-- Every window of region 1 but the last is an input. -/
theorem isIn1 : ∀ w : Fin cfg1.W, Pipeline.arrRef spec1 5 ≠ Pipeline.arrRef spec1 w → (cfg1.win w).isOut = false := by decide
/-- A buffer that is not region 1's output array holds at its exit what it held at its entry. -/
theorem keepR1 (c : Dev nD) (b : Ref sig .tc) (hb : Pipeline.arrRef spec1 5 ≠ b) :
    W4 m ρ c (Proc.devRef .tc b) = W3 m ρ c (Proc.devRef .tc b) := by
  by_cases h : ∃ w, Pipeline.arrRef spec1 w = b
  · obtain ⟨w, rfl⟩ := h
    exact (W4_arr m ρ c w).trans (((Layer1.dat (V3 m ρ) c).arrAt_in w (isIn1 w hb) _).trans (Layer1.A_eq (V3 m ρ) c w))
  · exact W4_of_ne m ρ c b fun w e => h ⟨w, e⟩

/-- Every window of region 2 but the last is an input. -/
theorem isIn2 : ∀ w : Fin cfg2.W, Pipeline.arrRef spec2 5 ≠ Pipeline.arrRef spec2 w → (cfg2.win w).isOut = false := by decide
/-- A buffer that is not region 2's output array holds at its exit what it held at its entry. -/
theorem keepR2 (c : Dev nD) (b : Ref sig .tc) (hb : Pipeline.arrRef spec2 5 ≠ b) :
    W6 m ρ c (Proc.devRef .tc b) = W5 m ρ c (Proc.devRef .tc b) := by
  by_cases h : ∃ w, Pipeline.arrRef spec2 w = b
  · obtain ⟨w, rfl⟩ := h
    exact (W6_arr m ρ c w).trans (((Layer2.dat (V5 m ρ) c).arrAt_in w (isIn2 w hb) _).trans (Layer2.A_eq (V5 m ρ) c w))
  · exact W6_of_ne m ρ c b fun w e => h ⟨w, e⟩

/-- Every window of region 3 but the last is an input. -/
theorem isIn3 : ∀ w : Fin cfg3.W, Pipeline.arrRef spec3 4 ≠ Pipeline.arrRef spec3 w → (cfg3.win w).isOut = false := by decide
/-- A buffer that is not region 3's output array holds at its exit what it held at its entry. -/
theorem keepR3 (c : Dev nD) (b : Ref sig .tc) (hb : Pipeline.arrRef spec3 4 ≠ b) :
    W8 m ρ c (Proc.devRef .tc b) = W7 m ρ c (Proc.devRef .tc b) := by
  by_cases h : ∃ w, Pipeline.arrRef spec3 w = b
  · obtain ⟨w, rfl⟩ := h
    exact (W8_arr m ρ c w).trans (((Readout.dat (V7 m ρ) c).arrAt_in w (isIn3 w hb) _).trans (Readout.A_eq (V7 m ρ) c w))
  · exact W8_of_ne m ρ c b fun w e => h ⟨w, e⟩

/-- A buffer no stretch writes and no region puts out holds at the end what the launch memory holds. -/
theorem W8_kept (c : Dev nD) (b : Ref sig .tc)
    (h0 : ∀ x ∈ wr0, b ≠ x) (h1 : ∀ x ∈ wr1, b ≠ x) (h2 : ∀ x ∈ wr2, b ≠ x) (h3 : ∀ x ∈ wr3, b ≠ x)
    (o0 : Pipeline.arrRef spec0 5 ≠ b) (o1 : Pipeline.arrRef spec1 5 ≠ b) (o2 : Pipeline.arrRef spec2 5 ≠ b) (o3 : Pipeline.arrRef spec3 4 ≠ b) :
    W8 m ρ c (Proc.devRef .tc b) = m ((c : Thread nD τ).loc b) :=
  calc W8 m ρ c (Proc.devRef .tc b)
    _ = W7 m ρ c (Proc.devRef .tc b) := keepR3 m ρ c b o3
    _ = W6 m ρ c (Proc.devRef .tc b) := keepH3 (W6 m ρ c) b h3
    _ = W5 m ρ c (Proc.devRef .tc b) := keepR2 m ρ c b o2
    _ = W4 m ρ c (Proc.devRef .tc b) := keepH2 (W4 m ρ c) b h2
    _ = W3 m ρ c (Proc.devRef .tc b) := keepR1 m ρ c b o1
    _ = W2 m ρ c (Proc.devRef .tc b) := keepH1 (W2 m ρ c) b h1
    _ = W1 m ρ c (Proc.devRef .tc b) := keepR0 m ρ c b o0
    _ = W0 m ρ c (Proc.devRef .tc b) := keepH0 (W0 m ρ c) b h0
    _ = m ((c : Thread nD τ).loc b) := rfl

/-! ### The arguments end as launched -/

theorem W8_main_arg0 (c : Dev nD) : W8 m ρ c (Proc.devRef .tc main_arg0) = m ((c : Thread nD τ).loc main_arg0) :=
  W8_kept m ρ c main_arg0 (by decide) (by decide) (by decide) (by decide) (by decide) (by decide) (by decide) (by decide)
theorem W8_main_arg1 (c : Dev nD) : W8 m ρ c (Proc.devRef .tc main_arg1) = m ((c : Thread nD τ).loc main_arg1) :=
  W8_kept m ρ c main_arg1 (by decide) (by decide) (by decide) (by decide) (by decide) (by decide) (by decide) (by decide)
theorem W8_main_arg2 (c : Dev nD) : W8 m ρ c (Proc.devRef .tc main_arg2) = m ((c : Thread nD τ).loc main_arg2) :=
  W8_kept m ρ c main_arg2 (by decide) (by decide) (by decide) (by decide) (by decide) (by decide) (by decide) (by decide)
theorem W8_main_arg3 (c : Dev nD) : W8 m ρ c (Proc.devRef .tc main_arg3) = m ((c : Thread nD τ).loc main_arg3) :=
  W8_kept m ρ c main_arg3 (by decide) (by decide) (by decide) (by decide) (by decide) (by decide) (by decide) (by decide)
theorem W8_main_arg4 (c : Dev nD) : W8 m ρ c (Proc.devRef .tc main_arg4) = m ((c : Thread nD τ).loc main_arg4) :=
  W8_kept m ρ c main_arg4 (by decide) (by decide) (by decide) (by decide) (by decide) (by decide) (by decide) (by decide)
theorem W8_main_arg5 (c : Dev nD) : W8 m ρ c (Proc.devRef .tc main_arg5) = m ((c : Thread nD τ).loc main_arg5) :=
  W8_kept m ρ c main_arg5 (by decide) (by decide) (by decide) (by decide) (by decide) (by decide) (by decide) (by decide)
theorem W8_main_arg6 (c : Dev nD) : W8 m ρ c (Proc.devRef .tc main_arg6) = m ((c : Thread nD τ).loc main_arg6) :=
  W8_kept m ρ c main_arg6 (by decide) (by decide) (by decide) (by decide) (by decide) (by decide) (by decide) (by decide)
theorem W8_main_arg7 (c : Dev nD) : W8 m ρ c (Proc.devRef .tc main_arg7) = m ((c : Thread nD τ).loc main_arg7) :=
  W8_kept m ρ c main_arg7 (by decide) (by decide) (by decide) (by decide) (by decide) (by decide) (by decide) (by decide)
theorem W8_main_arg8 (c : Dev nD) : W8 m ρ c (Proc.devRef .tc main_arg8) = m ((c : Thread nD τ).loc main_arg8) :=
  W8_kept m ρ c main_arg8 (by decide) (by decide) (by decide) (by decide) (by decide) (by decide) (by decide) (by decide)
theorem W8_main_arg9 (c : Dev nD) : W8 m ρ c (Proc.devRef .tc main_arg9) = m ((c : Thread nD τ).loc main_arg9) :=
  W8_kept m ρ c main_arg9 (by decide) (by decide) (by decide) (by decide) (by decide) (by decide) (by decide) (by decide)
theorem W8_main_arg10 (c : Dev nD) : W8 m ρ c (Proc.devRef .tc main_arg10) = m ((c : Thread nD τ).loc main_arg10) :=
  W8_kept m ρ c main_arg10 (by decide) (by decide) (by decide) (by decide) (by decide) (by decide) (by decide) (by decide)
theorem W8_main_arg11 (c : Dev nD) : W8 m ρ c (Proc.devRef .tc main_arg11) = m ((c : Thread nD τ).loc main_arg11) :=
  W8_kept m ρ c main_arg11 (by decide) (by decide) (by decide) (by decide) (by decide) (by decide) (by decide) (by decide)
theorem W8_main_arg12 (c : Dev nD) : W8 m ρ c (Proc.devRef .tc main_arg12) = m ((c : Thread nD τ).loc main_arg12) :=
  W8_kept m ρ c main_arg12 (by decide) (by decide) (by decide) (by decide) (by decide) (by decide) (by decide) (by decide)
theorem W8_main_arg13 (c : Dev nD) : W8 m ρ c (Proc.devRef .tc main_arg13) = m ((c : Thread nD τ).loc main_arg13) :=
  W8_kept m ρ c main_arg13 (by decide) (by decide) (by decide) (by decide) (by decide) (by decide) (by decide) (by decide)
theorem W8_main_arg14 (c : Dev nD) : W8 m ρ c (Proc.devRef .tc main_arg14) = m ((c : Thread nD τ).loc main_arg14) :=
  W8_kept m ρ c main_arg14 (by decide) (by decide) (by decide) (by decide) (by decide) (by decide) (by decide) (by decide)
theorem W8_main_arg15 (c : Dev nD) : W8 m ρ c (Proc.devRef .tc main_arg15) = m ((c : Thread nD τ).loc main_arg15) :=
  W8_kept m ρ c main_arg15 (by decide) (by decide) (by decide) (by decide) (by decide) (by decide) (by decide) (by decide)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => Layer0.dat (V1 m ρ) c
  | ⟨1, _⟩ => fun c => Layer1.dat (V3 m ρ) c
  | ⟨2, _⟩ => fun c => Layer2.dat (V5 m ρ) c
  | ⟨3, _⟩ => fun c => Readout.dat (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A stretch of host operations as a segment, from the contents `W` of the unscoped buffers, `R` riding along: it
    leaves them at what the operations compute from `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of stretch 0 allocates a buffer. -/
theorem hostOps0_fresh : (hostOps0 : List (HloOp τ sig (Elt F))).Forall fun op => op.fresh = ∅ := by
  simp only [List.Forall]; repeat' constructor
/-- No operation of stretch 1 allocates a buffer. -/
theorem hostOps1_fresh : (hostOps1 : List (HloOp τ sig (Elt F))).Forall fun op => op.fresh = ∅ := by
  simp only [List.Forall]; repeat' constructor
/-- No operation of stretch 2 allocates a buffer. -/
theorem hostOps2_fresh : (hostOps2 : List (HloOp τ sig (Elt F))).Forall fun op => op.fresh = ∅ := by
  simp only [List.Forall]; repeat' constructor
/-- No operation of stretch 3 allocates a buffer. -/
theorem hostOps3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register
    at some state. -/
abbrev Tₙ (c : Dev nD) : sProp 𝕄 := iprop(StableHlo.held (c : Thread nD τ) (Pipeline.ucRefs τ sig) (W8 m ρ c) ∗ ∃ r, prngReg c r)

/-! ## A region's exit contents against its entry contents -/

theorem hF0 (c : Dev nD) (w : Fin cfg0.W) : (Layer0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
theorem hF1 (c : Dev nD) (w : Fin cfg1.W) : (Layer1.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
theorem hF2 (c : Dev nD) (w : Fin cfg2.W) : (Layer2.dat (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
theorem hF3 (c : Dev nD) (w : Fin cfg3.W) : (Readout.dat (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-! ## The regions as segments

Each is entered from every unscoped buffer at its entry contents and left at its exit contents: its arrays split out of
the unscoped buffers and put back; the generator register into the region's invariant and out; nothing owed; no
semaphore of the kernel's own. -/

set_option backward.isDefEq.respectTransparency.types false in
/-- Region 0: entered at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Layer0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Layer1.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Layer2.body_obligation (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered at `W7`, left at `W8`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (Readout.body_obligation (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (Readout.dat (V7 m ρ) c).Φ 0 from rfl]
    refine .trans ?_ (Readout.hin (V7 m ρ) c)
    unfold Pipeline.ΦA
    iintro ⟨Hp, -, Hr⟩
    isplitl [Hr]; · iexact Hr
    iexact Hp
  hout c := by
    rw [Pipeline.ownSems0_none, show (pdats m ρ 3 c).Φ (Fin.last _) = (Readout.dat (V7 m ρ) c).Φ (Fin.last cfg3.N) from rfl]
    refine (Readout.hout (V7 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's eight segments in order: a host segment per stretch from its boundary's contents, a region per kernel. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
/-- The program is the run of the segments. -/
theorem main_run (c : Dev nD) : main (F := F) c = Pipeline.Seg.run (segs m ρ) := (main_chain c).trans (by chain_rfl)

set_option backward.isDefEq.respectTransparency.types false in
/-- From any memory with zero counters every weakly fair execution of the program on the TensorCores terminates, nothing
    faulting, and in every final state each core's unscoped buffers hold the last boundary's contents `W8`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- The program runs and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c),
     (h c _ (mem_uc main_arg11 (by decide))).trans (W8_main_arg11 m ρ c),
     (h c _ (mem_uc main_arg12 (by decide))).trans (W8_main_arg12 m ρ c),
     (h c _ (mem_uc main_arg13 (by decide))).trans (W8_main_arg13 m ρ c),
     (h c _ (mem_uc main_arg14 (by decide))).trans (W8_main_arg14 m ρ c),
     (h c _ (mem_uc main_arg15 (by decide))).trans (W8_main_arg15 m ρ c)⟩) (run_main m ρ)

end Cert.KernelIdeal.Run

end
-- ==== Proof.ValSpec.lean ====
/-
  The network as one composition of whole-array functions, in the vocabulary the reference program is printed in:
  a layer gathers the source rows of the node features, scales them by the edge weights and adds them up per
  destination node; multiplies the sums and the features by the layer's two weight matrices, adds the bias and clamps
  at zero. After three layers the node features are summed per graph, multiplied by the classifier's weights, the
  bias is added, and each row is normalised by the softmax (the row's maximum subtracted before the exponential).
  Both programs are shown to compute this composition.
-/
import proofs.«419035_j26560077758775_1_alg».proof.Proof.Gen.ReferenceIdeal
import proofs.«419035_j26560077758775_1_alg».proof.Proof.Gen.ReferenceIdeal.Run

set_option maxRecDepth 16384

noncomputable section

namespace Cert.Spec

open Cert.ReferenceIdeal Cert.ReferenceIdeal.Gen Idealize.ShloMosaic Idealize.ShloMosaic.TcCoe Idealize.SL.Sem

variable {F : FTy → Type} [FloatOps F]

/-- The row each edge reads: its source node, a negative number counted from the end. -/
def rowIdx (src : IVec S1600000 32) : IVec S1600000x1 32 :=
  broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)

/-- The neighbours' features, weighted and summed per destination node. -/
def agg (h : FVec F S100000x128 .f32) (src dst : IVec S1600000 32) (ew : FVec F S1600000 .f32) : FVec F S100000x128 .f32 :=
  Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 dst) (mulf (Host.gather gather_S100000x128_S1600000x1_S1600000x128_1_0_n_n_0_1_1128 h (rowIdx src)) (broadcastInDim S1600000x128 ![0, 1] bcast_S1600000x1_S1600000x128_0_1 (broadcastInDim S1600000x1 ![0] bcast_S1600000_S1600000x1_0 ew)))

/-- The dense half of a layer: max(a·Wn + b + h·Ws, 0). -/
def dense (a h : FVec F S100000x128 .f32) (Wn : FVec F S128x128 .f32) (b : FVec F S128 .f32) (Ws : FVec F S128x128 .f32) : FVec F S100000x128 .f32 :=
  maximumf (addf (addf (Host.dotGeneral dot_S100000x128_S128x128_S100000x128_1_0_0_1_n_n none a Wn) (broadcastInDim S100000x128 ![0, 1] bcast_S1x128_S100000x128_0_1 (broadcastInDim S1x128 ![1] bcast_S128_S1x128_1 b))) (Host.dotGeneral dot_S100000x128_S128x128_S100000x128_1_0_0_1_n_n none h Ws)) (broadcastInDim S100000x128 ![] bcast_S_S100000x128 (constant S_ .f32 0x00000000#32))

/-- One layer. -/
def layer (h : FVec F S100000x128 .f32) (src dst : IVec S1600000 32) (ew : FVec F S1600000 .f32)
    (Wn : FVec F S128x128 .f32) (b : FVec F S128 .f32) (Ws : FVec F S128x128 .f32) : FVec F S100000x128 .f32 :=
  dense (agg h src dst ew) h Wn b Ws

/-- The node features summed per graph. -/
def pooled (h : FVec F S100000x128 .f32) (gid : IVec S100000 32) : FVec F S64x128 .f32 :=
  Host.scatterAdd scatter_S64x128_S100000x1_S100000x128_1_0_0_1 (broadcastInDim S64x128 ![] bcast_S_S64x128 (constant S_ .f32 0x00000000#32)) (broadcastInDim S100000x1 ![0] bcast_S100000_S100000x1_0 gid) h

/-- The classifier's scores. -/
def logits (p : FVec F S64x128 .f32) (Wfc : FVec F S128x10 .f32) (bfc : FVec F S10 .f32) : FVec F S64x10 .f32 :=
  addf (Host.dotGeneral dot_S64x128_S128x10_S64x10_1_0_0_1_n_n none p Wfc) (broadcastInDim S64x10 ![0, 1] bcast_S1x10_S64x10_0_1 (broadcastInDim S1x10 ![1] bcast_S10_S1x10_1 bfc))

/-- A row's maximum, spread back over the row. -/
def rowMax (l : FVec F S64x10 .f32) : FVec F S64x10 .f32 :=
  broadcastInDim S64x10 ![0, 1] bcast_S64x1_S64x10_0_1 (broadcastInDim S64x1 ![0] bcast_S64_S64x1_0 (maximumf (broadcastInDim S64 ![] bcast_S_S64 (constant S_ .f32 0xFF800000#32)) (Host.reduce FloatOps.maximumf l (constant S_ .f32 0xFF800000#32) reducesTo_S64x10_S64_d1 h_S_)))

/-- The row-wise softmax. -/
def softmax (l : FVec F S64x10 .f32) : FVec F S64x10 .f32 :=
  Host.divf (Host.exp (subf l (rowMax l))) (broadcastInDim S64x10 ![0, 1] bcast_S64x1_S64x10_0_1 (broadcastInDim S64x1 ![0] bcast_S64_S64x1_0 (Host.reduceAdd (Host.exp (subf l (rowMax l))) (constant S_ .f32 0x00000000#32) reducesTo_S64x10_S64_d1 h_S_)))

/-- The whole network. -/
def network (x : FVec F S100000x128 .f32) (src dst : IVec S1600000 32) (ew : FVec F S1600000 .f32) (gid : IVec S100000 32)
    (Wn0 : FVec F S128x128 .f32) (b0 : FVec F S128 .f32) (Ws0 : FVec F S128x128 .f32)
    (Wn1 : FVec F S128x128 .f32) (b1 : FVec F S128 .f32) (Ws1 : FVec F S128x128 .f32)
    (Wn2 : FVec F S128x128 .f32) (b2 : FVec F S128 .f32) (Ws2 : FVec F S128x128 .f32)
    (Wfc : FVec F S128x10 .f32) (bfc : FVec F S10 .f32) : FVec F S64x10 .f32 :=
  softmax (logits (pooled (layer (layer (layer x src dst ew Wn0 b0 Ws0) src dst ew Wn1 b1 Ws1) src dst ew Wn2 b2 Ws2) gid) Wfc bfc)

end Cert.Spec

end
-- ==== Proof.ValLayer0a.lean ====
/-
  The arithmetic of a layer's dense half, read at an index over the extended reals. A block of 5000 rows: the body's
  value at (p, q) is the maximum of zero and the two 128-term products of row p (of the aggregated block and of the
  feature block) with column q of the two weight matrices, plus the bias row at q. The whole array: the same two
  products of row r, with the bias added between them; the two groupings agree because addition of extended reals
  is commutative and associative (no term is moved across a product, so infinities need no care).
-/
import proofs.«419035_j26560077758775_1_alg».proof.Proof.Gen.KernelIdeal.Skeleton
import proofs.«419035_j26560077758775_1_alg».proof.Proof.ValSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Layer0Val

open Cert.KernelIdeal Cert.KernelIdeal.Gen
open Idealize.ShloMosaic Idealize.ShloMosaic.TcCoe Idealize.ShloMosaic.ValueIdx
open Idealize.SL Idealize.SL.Sem

/-! ## The block product: rows of a 5000×128 block times a 128×128 matrix -/

/-- The left operand's row coordinate is the output's row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Its column coordinate is the summation index. -/
theorem lhs_contr (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row coordinate is the summation index. -/
theorem rhs_contr (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Its column coordinate is the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into a zero accumulator, at (p, q): the sum over k of row p times column q. -/
theorem blockProduct_apply (l : FVec Ideal S5000x128 .bf16) (r : FVec Ideal S128x128 .bf16) (p : Fin 5000) (q : Fin 128) :
    matmul (F := Ideal) dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_contr _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_contr _ _).trans hk
    | ⟨1, _⟩ => exact rhs_col _ _)
  rw [el, er]

/-! ## The body's value at an index of the block -/

/-- The body's one stored value at (p, q) of the block. -/
theorem pay_apply (x0 x1 : Vec Ideal S5000x128 .f32) (x2 x3 : Vec Ideal S128x128 .f32) (x4 : Vec Ideal S1x128 .f32)
    (p : Fin 5000) (q : Fin 128) :
    k0_pay1 (F := Ideal) x0 x1 x2 x3 x4 (ix2 p q)
      = max (((∑ k : Fin 128, x0 (ix2 p k) * x2 (ix2 k q)) + (∑ k : Fin 128, x1 (ix2 p k) * x3 (ix2 k q))) + x4 (ix2 (0 : Fin 1) q)) 0 := by
  unfold k0_pay1
  simp only [shapeCast_self]
  rw [maximumf_apply, addf_apply, addf_apply, broadcast_apply, blockProduct_apply, blockProduct_apply,
    broadcastTo_1b_ab_apply]
  simp only [truncf_apply]
  show max _ (Ideal.ofBits .f32 0x00000000#32) = _
  rw [Ideal.ofBits_zero_f32]

/-! ## The whole-array product: rows of a 100000×128 array times a 128×128 matrix -/

/-- The left operand's row coordinate is the output's row. -/
theorem arr_lhs_row (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
/-- Its column coordinate is the summation index. -/
theorem arr_lhs_contr (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
/-- The right operand's row coordinate is the summation index. -/
theorem arr_rhs_contr (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
/-- Its column coordinate is the output's column. -/
theorem arr_rhs_col (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- The whole-array product at (r, q): the sum over k of row r times column q. -/
theorem arrayProduct_apply (l : FVec Ideal Cert.ReferenceIdeal.S100000x128 .f32) (w : FVec Ideal Cert.ReferenceIdeal.S128x128 .f32) (r : Fin 100000) (q : Fin 128) :
    Host.dotGeneral (F := Ideal) Cert.ReferenceIdeal.dot_S100000x128_S128x128_S100000x128_1_0_0_1_n_n none l w (ix2 r q)
      = ∑ k : Fin 128, l (ix2 r k) * w (ix2 k q) := by
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 r q) ((ValueIdx.contrEquiv1 Cert.ReferenceIdeal.dot_S100000x128_S128x128_S100000x128_1_0_0_1_n_n 128 rfl rfl).symm k) = ix2 r k := funext fun a => Fin.ext (by
    match a with
    | ⟨0, _⟩ => exact arr_lhs_row _ _
    | ⟨1, _⟩ => exact (arr_lhs_contr _ _).trans hk)
  have er : Cert.ReferenceIdeal.dot_S100000x128_S128x128_S100000x128_1_0_0_1_n_n.rhsIdx (ix2 r q) ((ValueIdx.contrEquiv1 Cert.ReferenceIdeal.dot_S100000x128_S128x128_S100000x128_1_0_0_1_n_n 128 rfl rfl).symm k) = ix2 k q := funext fun a => Fin.ext (by
    match a with
    | ⟨0, _⟩ => exact (arr_rhs_contr _ _).trans hk
    | ⟨1, _⟩ => exact arr_rhs_col _ _)
  rw [el, er]

/-! ## The dense half at an index of the array -/

/-- The bias vector spread over the rows, at (r, q): its entry q. -/
theorem biasRows_apply (b : FVec Ideal Cert.ReferenceIdeal.S128 .f32) (r : Fin 100000) (q : Fin 128) :
    broadcastInDim Cert.ReferenceIdeal.S100000x128 ![0, 1] Cert.ReferenceIdeal.Gen.bcast_S1x128_S100000x128_0_1
        (broadcastInDim Cert.ReferenceIdeal.S1x128 ![1] Cert.ReferenceIdeal.Gen.bcast_S128_S1x128_1 b) (ix2 r q) = b (ix1 q) := by
  rw [broadcastInDim_apply _ Cert.ReferenceIdeal.Gen.bcast_S1x128_S100000x128_0_1 _ (ix2 r q) (ix2 (0 : Fin 1) q) (fun a => match a with
      | ⟨0, _⟩ => rfl
      | ⟨1, _⟩ => by show q.val = if (128 : Nat) = 1 then 0 else q.val; rw [if_neg (by decide)]),
    broadcastInDim_apply _ Cert.ReferenceIdeal.Gen.bcast_S128_S1x128_1 b (ix2 (0 : Fin 1) q) (ix1 q) (fun a => match a with
      | ⟨0, _⟩ => by show q.val = if (128 : Nat) = 1 then 0 else q.val; rw [if_neg (by decide)])]

/-- The dense half at (r, q). -/
theorem dense_apply (a h : FVec Ideal Cert.ReferenceIdeal.S100000x128 .f32) (Wn : FVec Ideal Cert.ReferenceIdeal.S128x128 .f32)
    (b : FVec Ideal Cert.ReferenceIdeal.S128 .f32) (Ws : FVec Ideal Cert.ReferenceIdeal.S128x128 .f32) (r : Fin 100000) (q : Fin 128) :
    Cert.Spec.dense (F := Ideal) a h Wn b Ws (ix2 r q)
      = max (((∑ k : Fin 128, a (ix2 r k) * Wn (ix2 k q)) + b (ix1 q)) + ∑ k : Fin 128, h (ix2 r k) * Ws (ix2 k q)) 0 := by
  unfold Cert.Spec.dense
  rw [maximumf_apply, addf_apply, addf_apply, arrayProduct_apply, arrayProduct_apply, biasRows_apply,
    broadcastInDim_apply _ Cert.ReferenceIdeal.Gen.bcast_S_S100000x128 _ (ix2 r q) ix0 (fun a => a.elim0), constant_apply,
    Ideal.ofBits_zero_f32]

/-! ## A block of the body's result is the block of the dense half -/

/-- At block `t` (rows 5000·t … 5000·t + 4999): when the two row blocks are those rows of the arrays, and the weight
    and bias blocks are the whole arrays, the body's value at (p, q) is the dense half at row 5000·t + p. The two sides
    differ in where the bias is added: (x + y) + z = (x + z) + y. -/
theorem point_eq (A H : FVec Ideal Cert.ReferenceIdeal.S100000x128 .f32) (Wn Ws : FVec Ideal Cert.ReferenceIdeal.S128x128 .f32)
    (B : FVec Ideal S1x128 .f32) (b : FVec Ideal Cert.ReferenceIdeal.S128 .f32)
    (hb : ∀ j : Fin 128, B (ix2 (0 : Fin 1) j) = b (ix1 j))
    (x0 x1 : Vec Ideal S5000x128 .f32) (x2 x3 : Vec Ideal S128x128 .f32) (x4 : Vec Ideal S1x128 .f32)
    (t : ℕ) (ht : t < 20)
    (h0 : ∀ (p : Fin 5000) (k : Fin 128), x0 (ix2 p k) = A (ix2 (⟨t * 5000 + p.val, by have := p.isLt; omega⟩ : Fin 100000) k))
    (h1 : ∀ (p : Fin 5000) (k : Fin 128), x1 (ix2 p k) = H (ix2 (⟨t * 5000 + p.val, by have := p.isLt; omega⟩ : Fin 100000) k))
    (h2 : ∀ (k q : Fin 128), x2 (ix2 k q) = Wn (ix2 k q))
    (h3 : ∀ (k q : Fin 128), x3 (ix2 k q) = Ws (ix2 k q))
    (h4 : ∀ q : Fin 128, x4 (ix2 (0 : Fin 1) q) = B (ix2 (0 : Fin 1) q))
    (p : Fin 5000) (q : Fin 128) :
    k0_pay1 (F := Ideal) x0 x1 x2 x3 x4 (ix2 p q)
      = Cert.Spec.dense (F := Ideal) A H Wn b Ws (ix2 (⟨t * 5000 + p.val, by have := p.isLt; omega⟩ : Fin 100000) q) := by
  rw [pay_apply, dense_apply, h4, hb]
  simp only [h0, h1, h2, h3]
  rw [add_right_comm]

end Cert.KernelIdeal.Layer0Val

end
-- ==== Proof.ValLayer0.lean ====
/-
  What a layer's region leaves in its output array, over the extended reals: the dense half of the layer applied to
  the region's input arrays as it found them — each block of 5000 rows is the same function of the whole arrays, and
  the twenty blocks tile the array.
-/
import proofs.«419035_j26560077758775_1_alg».proof.Proof.KiLayer0
import proofs.«419035_j26560077758775_1_alg».proof.Proof.ValSpec
import proofs.«419035_j26560077758775_1_alg».proof.Proof.ValLayer0a
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Layer0Val

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The grid has twenty points, -/
theorem gridN : cfg0.N = 20 := by decide
/-- and every one of them writes the output block back. -/
theorem flushAll : ∀ t : Fin cfg0.N, (cfg0.win 5).flush t = true :=
  (by decide +kernel : ∀ t : Fin grid0.N, win0_5.flush t = true)

/-- The body's one store covers the block, so the block it leaves is the stored value. -/
theorem outBlock_eq (x0 x1 : Vec Ideal S5000x128 .f32) (x2 x3 : Vec Ideal S128x128 .f32) (x4 : Vec Ideal S1x128 .f32) :
    Layer0.outBlock x0 x1 x2 x3 x4 = k0_pay1 x0 x1 x2 x3 x4 := by
  unfold Layer0.outBlock
  rw [View.canon_unit_zero hz]
  simp only [View.ld_unit_zero (S := S5000x128) hz, View.ld_unit_zero (S := S128x128) hz, View.ld_unit_zero (S := S1x128) hz]

/-- Where each window's block sits at point `t`: the two row windows and the output move down one block of rows per
    point; the weight and bias windows stay on their whole arrays. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Where an element of a block sits in its array: block index × block size + the coordinate inside the block -/

theorem emb_0 (t : Fin cfg0.N) (p : Fin 5000) (k : Fin 128) :
    ((cfg0.win 0).blk t).view.emb (ix2 p k) = ix2 (⟨t.val * 5000 + p.val, by have := t.isLt; have hN : cfg0.N = 20 := gridN; have := p.isLt; omega⟩ : Fin 100000) k := by
  obtain ⟨e0, e1, -⟩ := idx_facts t
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

theorem emb_1 (t : Fin cfg0.N) (p : Fin 5000) (k : Fin 128) :
    ((cfg0.win 1).blk t).view.emb (ix2 p k) = ix2 (⟨t.val * 5000 + p.val, by have := t.isLt; have hN : cfg0.N = 20 := gridN; have := p.isLt; omega⟩ : Fin 100000) k := by
  obtain ⟨-, -, e0, e1, -⟩ := idx_facts t
  funext a; apply Fin.ext
  match a with
  | ⟨0, _⟩ => show win0_1.index t (0 : Fin 2) * 5000 + 1 * p.val = t.val * 5000 + p.val; omega
  | ⟨1, _⟩ => show win0_1.index t (1 : Fin 2) * 128 + 1 * k.val = k.val; omega

theorem emb_2 (t : Fin cfg0.N) (k q : Fin 128) : ((cfg0.win 2).blk t).view.emb (ix2 k q) = ix2 k q := by
  obtain ⟨-, -, -, -, e0, e1, -⟩ := idx_facts t
  funext a; apply Fin.ext
  match a with
  | ⟨0, _⟩ => show win0_2.index t (0 : Fin 2) * 128 + 1 * k.val = k.val; omega
  | ⟨1, _⟩ => show win0_2.index t (1 : Fin 2) * 128 + 1 * q.val = q.val; omega

theorem emb_3 (t : Fin cfg0.N) (k q : Fin 128) : ((cfg0.win 3).blk t).view.emb (ix2 k q) = ix2 k q := by
  obtain ⟨-, -, -, -, -, -, e0, e1, -⟩ := idx_facts t
  funext a; apply Fin.ext
  match a with
  | ⟨0, _⟩ => show win0_3.index t (0 : Fin 2) * 128 + 1 * k.val = k.val; omega
  | ⟨1, _⟩ => show win0_3.index t (1 : Fin 2) * 128 + 1 * q.val = q.val; omega

theorem emb_4 (t : Fin cfg0.N) (q : Fin 128) : ((cfg0.win 4).blk t).view.emb (ix2 (0 : Fin 1) q) = ix2 (0 : Fin 1) q := by
  obtain ⟨-, -, -, -, -, -, -, -, e0, e1, -⟩ := idx_facts t
  funext a; apply Fin.ext
  match a with
  | ⟨0, _⟩ => show win0_4.index t (0 : Fin 2) * 1 + 1 * 0 = 0; omega
  | ⟨1, _⟩ => show win0_4.index t (1 : Fin 2) * 128 + 1 * q.val = q.val; omega

theorem emb_5 (t : Fin cfg0.N) (p : Fin 5000) (q : Fin 128) :
    ((cfg0.win 5).blk t).view.emb (ix2 p q) = ix2 (⟨t.val * 5000 + p.val, by have := t.isLt; have hN : cfg0.N = 20 := gridN; have := p.isLt; omega⟩ : Fin 100000) q := by
  obtain ⟨-, -, -, -, -, -, -, -, -, -, e0, e1⟩ := idx_facts t
  funext a; apply Fin.ext
  match a with
  | ⟨0, _⟩ => show win0_5.index t (0 : Fin 2) * 5000 + 1 * p.val = t.val * 5000 + p.val; omega
  | ⟨1, _⟩ => show win0_5.index t (1 : Fin 2) * 128 + 1 * q.val = q.val; omega

/-! ## Each input block, read at an index, is its array at the rows of block `t` -/

theorem read_0 (c : Dev nD) (t : Fin cfg0.N) (p : Fin 5000) (k : Fin 128) :
    Layer0.iblk V c 0 t (ix2 p k) = V c (Pipeline.arrRef spec0 0) (ix2 (⟨t.val * 5000 + p.val, by have := t.isLt; have hN : cfg0.N = 20 := gridN; have := p.isLt; omega⟩ : Fin 100000) k) := by
  show V c (Pipeline.arrRef spec0 0) (((cfg0.win 0).blk t).view.emb (ix2 p k)) = _
  exact congrArg _ (emb_0 t p k)

theorem read_1 (c : Dev nD) (t : Fin cfg0.N) (p : Fin 5000) (k : Fin 128) :
    Layer0.iblk V c 1 t (ix2 p k) = V c (Pipeline.arrRef spec0 1) (ix2 (⟨t.val * 5000 + p.val, by have := t.isLt; have hN : cfg0.N = 20 := gridN; have := p.isLt; omega⟩ : Fin 100000) k) := by
  show V c (Pipeline.arrRef spec0 1) (((cfg0.win 1).blk t).view.emb (ix2 p k)) = _
  exact congrArg _ (emb_1 t p k)

theorem read_2 (c : Dev nD) (t : Fin cfg0.N) (k q : Fin 128) :
    Layer0.iblk V c 2 t (ix2 k q) = V c (Pipeline.arrRef spec0 2) (ix2 k q) := by
  show V c (Pipeline.arrRef spec0 2) (((cfg0.win 2).blk t).view.emb (ix2 k q)) = _
  exact congrArg _ (emb_2 t k q)

theorem read_3 (c : Dev nD) (t : Fin cfg0.N) (k q : Fin 128) :
    Layer0.iblk V c 3 t (ix2 k q) = V c (Pipeline.arrRef spec0 3) (ix2 k q) := by
  show V c (Pipeline.arrRef spec0 3) (((cfg0.win 3).blk t).view.emb (ix2 k q)) = _
  exact congrArg _ (emb_3 t k q)

theorem read_4 (c : Dev nD) (t : Fin cfg0.N) (q : Fin 128) :
    Layer0.iblk V c 4 t (ix2 (0 : Fin 1) q) = V c (Pipeline.arrRef spec0 4) (ix2 (0 : Fin 1) q) := by
  show V c (Pipeline.arrRef spec0 4) (((cfg0.win 4).blk t).view.emb (ix2 (0 : Fin 1) q)) = _
  exact congrArg _ (emb_4 t q)

/-! ## What point `t` writes back, the cover, and the array -/

/-- Point `t` writes back block `t` of the dense half of the arrays. -/
theorem flushed_eq (c : Dev nD) (b : FVec Ideal S128 .f32)
    (hb : ∀ j : Fin 128, V c (Pipeline.arrRef spec0 4) (ix2 (0 : Fin 1) j) = b (ix1 j)) (t : Fin cfg0.N) :
    (Layer0.dat (F := Ideal) V c).flushed 5 t
      = ((cfg0.win 5).blk t).view.read (Elt Ideal) (Cert.Spec.dense (F := Ideal) (V c (Pipeline.arrRef spec0 0)) (V c (Pipeline.arrRef spec0 1)) (V c (Pipeline.arrRef spec0 2)) b (V c (Pipeline.arrRef spec0 3))) := by
  show (cfg0.win 5).cut (grid0.coords t) ((Layer0.dat (F := Ideal) V c).after 5 t) = _
  rw [Layer0.after_5, outBlock_eq (Layer0.iblk V c 0 t) (Layer0.iblk V c 1 t) (Layer0.iblk V c 2 t) (Layer0.iblk V c 3 t) (Layer0.iblk V c 4 t)]
  refine funext fun (j : S5000x128.Idx) => ?_
  obtain ⟨p, q, rfl⟩ : ∃ (p : Fin 5000) (q : Fin 128), j = ix2 p q := ⟨j 0, j 1, eq_ix2 j⟩
  show k0_pay1 (F := Ideal) (Layer0.iblk V c 0 t) (Layer0.iblk V c 1 t) (Layer0.iblk V c 2 t) (Layer0.iblk V c 3 t) (Layer0.iblk V c 4 t) (ix2 p q)
    = Cert.Spec.dense (F := Ideal) (V c (Pipeline.arrRef spec0 0)) (V c (Pipeline.arrRef spec0 1)) (V c (Pipeline.arrRef spec0 2)) b (V c (Pipeline.arrRef spec0 3)) (((cfg0.win 5).blk t).view.emb (ix2 p q))
  rw [emb_5 t p q]
  exact point_eq (V c (Pipeline.arrRef spec0 0)) (V c (Pipeline.arrRef spec0 1)) (V c (Pipeline.arrRef spec0 2)) (V c (Pipeline.arrRef spec0 3)) (V c (Pipeline.arrRef spec0 4)) b hb
    (Layer0.iblk V c 0 t) (Layer0.iblk V c 1 t) (Layer0.iblk V c 2 t) (Layer0.iblk V c 3 t) (Layer0.iblk V c 4 t) t.val (by have := t.isLt; have hN : cfg0.N = 20 := gridN; omega)
    (fun p k => read_0 V c t p k) (fun p k => read_1 V c t p k) (fun k q => read_2 V c t k q) (fun k q => read_3 V c t k q) (fun q => read_4 V c t q) p q

/-- An index of the array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v14).slice (win0_5.rect t)).set ↔ _
  rw [View.set_slice_whole, Rect.mem_set_unit]
  exact Iff.rfl

/-- The twenty blocks tile the array: row `r` is in block `r / 5000`. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := gridN
  obtain ⟨t, ht⟩ : ∃ t : Fin cfg0.N, t.val = (i 0).val / 5000 := ⟨⟨(i 0).val / 5000, by omega⟩, rfl⟩
  obtain ⟨-, -, -, -, -, -, -, -, -, -, e0, e1⟩ := idx_facts t
  refine ⟨t, flushAll t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The output array after the region: `Spec.dense` of the aggregated rows, the features, the two weight matrices and
    the bias (the bias window's array is the bias vector laid out as one row). -/
theorem final (c : Dev nD) (b : FVec Ideal S128 .f32)
    (hb : ∀ j : Fin 128, V c (Pipeline.arrRef spec0 4) (ix2 (0 : Fin 1) j) = b (ix1 j)) :
    (Layer0.dat (F := Ideal) V c).arrAt 5 cfg0.N
      = Cert.Spec.dense (F := Ideal) (V c (Pipeline.arrRef spec0 0)) (V c (Pipeline.arrRef spec0 1)) (V c (Pipeline.arrRef spec0 2)) b (V c (Pipeline.arrRef spec0 3)) :=
  (Layer0.dat (F := Ideal) V c).arrAt_eq_of_cover 5
    (Cert.Spec.dense (F := Ideal) (V c (Pipeline.arrRef spec0 0)) (V c (Pipeline.arrRef spec0 1)) (V c (Pipeline.arrRef spec0 2)) b (V c (Pipeline.arrRef spec0 3)))
    (fun t _ => flushed_eq V c b hb t) cover

end Cert.KernelIdeal.Layer0Val

end
-- ==== Proof.ValLayer1a.lean ====
/-
  The arithmetic of a layer's dense half, read at an index over the extended reals. A block of 5000 rows: the body's
  value at (p, q) is the maximum of zero and the two 128-term products of row p (of the aggregated block and of the
  feature block) with column q of the two weight matrices, plus the bias row at q. The whole array: the same two
  products of row r, with the bias added between them; the two groupings agree because addition of extended reals
  is commutative and associative (no term is moved across a product, so infinities need no care).
-/
import proofs.«419035_j26560077758775_1_alg».proof.Proof.Gen.KernelIdeal.Skeleton
import proofs.«419035_j26560077758775_1_alg».proof.Proof.ValSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Layer1Val

open Cert.KernelIdeal Cert.KernelIdeal.Gen
open Idealize.ShloMosaic Idealize.ShloMosaic.TcCoe Idealize.ShloMosaic.ValueIdx
open Idealize.SL Idealize.SL.Sem

/-! ## The block product: rows of a 5000×128 block times a 128×128 matrix -/

/-- The left operand's row coordinate is the output's row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Its column coordinate is the summation index. -/
theorem lhs_contr (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row coordinate is the summation index. -/
theorem rhs_contr (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Its column coordinate is the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into a zero accumulator, at (p, q): the sum over k of row p times column q. -/
theorem blockProduct_apply (l : FVec Ideal S5000x128 .bf16) (r : FVec Ideal S128x128 .bf16) (p : Fin 5000) (q : Fin 128) :
    matmul (F := Ideal) dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_contr _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_contr _ _).trans hk
    | ⟨1, _⟩ => exact rhs_col _ _)
  rw [el, er]

/-! ## The body's value at an index of the block -/

/-- The body's one stored value at (p, q) of the block. -/
theorem pay_apply (x0 x1 : Vec Ideal S5000x128 .f32) (x2 x3 : Vec Ideal S128x128 .f32) (x4 : Vec Ideal S1x128 .f32)
    (p : Fin 5000) (q : Fin 128) :
    k1_pay1 (F := Ideal) x0 x1 x2 x3 x4 (ix2 p q)
      = max (((∑ k : Fin 128, x0 (ix2 p k) * x2 (ix2 k q)) + (∑ k : Fin 128, x1 (ix2 p k) * x3 (ix2 k q))) + x4 (ix2 (0 : Fin 1) q)) 0 := by
  unfold k1_pay1
  simp only [shapeCast_self]
  rw [maximumf_apply, addf_apply, addf_apply, broadcast_apply, blockProduct_apply, blockProduct_apply,
    broadcastTo_1b_ab_apply]
  simp only [truncf_apply]
  show max _ (Ideal.ofBits .f32 0x00000000#32) = _
  rw [Ideal.ofBits_zero_f32]

/-! ## The whole-array product: rows of a 100000×128 array times a 128×128 matrix -/

/-- The left operand's row coordinate is the output's row. -/
theorem arr_lhs_row (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
/-- Its column coordinate is the summation index. -/
theorem arr_lhs_contr (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
/-- The right operand's row coordinate is the summation index. -/
theorem arr_rhs_contr (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
/-- Its column coordinate is the output's column. -/
theorem arr_rhs_col (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- The whole-array product at (r, q): the sum over k of row r times column q. -/
theorem arrayProduct_apply (l : FVec Ideal Cert.ReferenceIdeal.S100000x128 .f32) (w : FVec Ideal Cert.ReferenceIdeal.S128x128 .f32) (r : Fin 100000) (q : Fin 128) :
    Host.dotGeneral (F := Ideal) Cert.ReferenceIdeal.dot_S100000x128_S128x128_S100000x128_1_0_0_1_n_n none l w (ix2 r q)
      = ∑ k : Fin 128, l (ix2 r k) * w (ix2 k q) := by
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 r q) ((ValueIdx.contrEquiv1 Cert.ReferenceIdeal.dot_S100000x128_S128x128_S100000x128_1_0_0_1_n_n 128 rfl rfl).symm k) = ix2 r k := funext fun a => Fin.ext (by
    match a with
    | ⟨0, _⟩ => exact arr_lhs_row _ _
    | ⟨1, _⟩ => exact (arr_lhs_contr _ _).trans hk)
  have er : Cert.ReferenceIdeal.dot_S100000x128_S128x128_S100000x128_1_0_0_1_n_n.rhsIdx (ix2 r q) ((ValueIdx.contrEquiv1 Cert.ReferenceIdeal.dot_S100000x128_S128x128_S100000x128_1_0_0_1_n_n 128 rfl rfl).symm k) = ix2 k q := funext fun a => Fin.ext (by
    match a with
    | ⟨0, _⟩ => exact (arr_rhs_contr _ _).trans hk
    | ⟨1, _⟩ => exact arr_rhs_col _ _)
  rw [el, er]

/-! ## The dense half at an index of the array -/

/-- The bias vector spread over the rows, at (r, q): its entry q. -/
theorem biasRows_apply (b : FVec Ideal Cert.ReferenceIdeal.S128 .f32) (r : Fin 100000) (q : Fin 128) :
    broadcastInDim Cert.ReferenceIdeal.S100000x128 ![0, 1] Cert.ReferenceIdeal.Gen.bcast_S1x128_S100000x128_0_1
        (broadcastInDim Cert.ReferenceIdeal.S1x128 ![1] Cert.ReferenceIdeal.Gen.bcast_S128_S1x128_1 b) (ix2 r q) = b (ix1 q) := by
  rw [broadcastInDim_apply _ Cert.ReferenceIdeal.Gen.bcast_S1x128_S100000x128_0_1 _ (ix2 r q) (ix2 (0 : Fin 1) q) (fun a => match a with
      | ⟨0, _⟩ => rfl
      | ⟨1, _⟩ => by show q.val = if (128 : Nat) = 1 then 0 else q.val; rw [if_neg (by decide)]),
    broadcastInDim_apply _ Cert.ReferenceIdeal.Gen.bcast_S128_S1x128_1 b (ix2 (0 : Fin 1) q) (ix1 q) (fun a => match a with
      | ⟨0, _⟩ => by show q.val = if (128 : Nat) = 1 then 0 else q.val; rw [if_neg (by decide)])]

/-- The dense half at (r, q). -/
theorem dense_apply (a h : FVec Ideal Cert.ReferenceIdeal.S100000x128 .f32) (Wn : FVec Ideal Cert.ReferenceIdeal.S128x128 .f32)
    (b : FVec Ideal Cert.ReferenceIdeal.S128 .f32) (Ws : FVec Ideal Cert.ReferenceIdeal.S128x128 .f32) (r : Fin 100000) (q : Fin 128) :
    Cert.Spec.dense (F := Ideal) a h Wn b Ws (ix2 r q)
      = max (((∑ k : Fin 128, a (ix2 r k) * Wn (ix2 k q)) + b (ix1 q)) + ∑ k : Fin 128, h (ix2 r k) * Ws (ix2 k q)) 0 := by
  unfold Cert.Spec.dense
  rw [maximumf_apply, addf_apply, addf_apply, arrayProduct_apply, arrayProduct_apply, biasRows_apply,
    broadcastInDim_apply _ Cert.ReferenceIdeal.Gen.bcast_S_S100000x128 _ (ix2 r q) ix0 (fun a => a.elim0), constant_apply,
    Ideal.ofBits_zero_f32]

/-! ## A block of the body's result is the block of the dense half -/

/-- At block `t` (rows 5000·t … 5000·t + 4999): when the two row blocks are those rows of the arrays, and the weight
    and bias blocks are the whole arrays, the body's value at (p, q) is the dense half at row 5000·t + p. The two sides
    differ in where the bias is added: (x + y) + z = (x + z) + y. -/
theorem point_eq (A H : FVec Ideal Cert.ReferenceIdeal.S100000x128 .f32) (Wn Ws : FVec Ideal Cert.ReferenceIdeal.S128x128 .f32)
    (B : FVec Ideal S1x128 .f32) (b : FVec Ideal Cert.ReferenceIdeal.S128 .f32)
    (hb : ∀ j : Fin 128, B (ix2 (0 : Fin 1) j) = b (ix1 j))
    (x0 x1 : Vec Ideal S5000x128 .f32) (x2 x3 : Vec Ideal S128x128 .f32) (x4 : Vec Ideal S1x128 .f32)
    (t : ℕ) (ht : t < 20)
    (h0 : ∀ (p : Fin 5000) (k : Fin 128), x0 (ix2 p k) = A (ix2 (⟨t * 5000 + p.val, by have := p.isLt; omega⟩ : Fin 100000) k))
    (h1 : ∀ (p : Fin 5000) (k : Fin 128), x1 (ix2 p k) = H (ix2 (⟨t * 5000 + p.val, by have := p.isLt; omega⟩ : Fin 100000) k))
    (h2 : ∀ (k q : Fin 128), x2 (ix2 k q) = Wn (ix2 k q))
    (h3 : ∀ (k q : Fin 128), x3 (ix2 k q) = Ws (ix2 k q))
    (h4 : ∀ q : Fin 128, x4 (ix2 (0 : Fin 1) q) = B (ix2 (0 : Fin 1) q))
    (p : Fin 5000) (q : Fin 128) :
    k1_pay1 (F := Ideal) x0 x1 x2 x3 x4 (ix2 p q)
      = Cert.Spec.dense (F := Ideal) A H Wn b Ws (ix2 (⟨t * 5000 + p.val, by have := p.isLt; omega⟩ : Fin 100000) q) := by
  rw [pay_apply, dense_apply, h4, hb]
  simp only [h0, h1, h2, h3]
  rw [add_right_comm]

end Cert.KernelIdeal.Layer1Val

end
-- ==== Proof.ValLayer1.lean ====
/-
  What a layer's region leaves in its output array, over the extended reals: the dense half of the layer applied to
  the region's input arrays as it found them — each block of 5000 rows is the same function of the whole arrays, and
  the twenty blocks tile the array.
-/
import proofs.«419035_j26560077758775_1_alg».proof.Proof.KiLayer1
import proofs.«419035_j26560077758775_1_alg».proof.Proof.ValSpec
import proofs.«419035_j26560077758775_1_alg».proof.Proof.ValLayer1a
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Layer1Val

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The grid has twenty points, -/
theorem gridN : cfg1.N = 20 := by decide
/-- and every one of them writes the output block back. -/
theorem flushAll : ∀ t : Fin cfg1.N, (cfg1.win 5).flush t = true :=
  (by decide +kernel : ∀ t : Fin grid1.N, win1_5.flush t = true)

/-- The body's one store covers the block, so the block it leaves is the stored value. -/
theorem outBlock_eq (x0 x1 : Vec Ideal S5000x128 .f32) (x2 x3 : Vec Ideal S128x128 .f32) (x4 : Vec Ideal S1x128 .f32) :
    Layer1.outBlock x0 x1 x2 x3 x4 = k1_pay1 x0 x1 x2 x3 x4 := by
  unfold Layer1.outBlock
  rw [View.canon_unit_zero hz]
  simp only [View.ld_unit_zero (S := S5000x128) hz, View.ld_unit_zero (S := S128x128) hz, View.ld_unit_zero (S := S1x128) hz]

/-- Where each window's block sits at point `t`: the two row windows and the output move down one block of rows per
    point; the weight and bias windows stay on their whole arrays. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## Where an element of a block sits in its array: block index × block size + the coordinate inside the block -/

theorem emb_0 (t : Fin cfg1.N) (p : Fin 5000) (k : Fin 128) :
    ((cfg1.win 0).blk t).view.emb (ix2 p k) = ix2 (⟨t.val * 5000 + p.val, by have := t.isLt; have hN : cfg1.N = 20 := gridN; have := p.isLt; omega⟩ : Fin 100000) k := by
  obtain ⟨e0, e1, -⟩ := idx_facts t
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

theorem emb_1 (t : Fin cfg1.N) (p : Fin 5000) (k : Fin 128) :
    ((cfg1.win 1).blk t).view.emb (ix2 p k) = ix2 (⟨t.val * 5000 + p.val, by have := t.isLt; have hN : cfg1.N = 20 := gridN; have := p.isLt; omega⟩ : Fin 100000) k := by
  obtain ⟨-, -, e0, e1, -⟩ := idx_facts t
  funext a; apply Fin.ext
  match a with
  | ⟨0, _⟩ => show win1_1.index t (0 : Fin 2) * 5000 + 1 * p.val = t.val * 5000 + p.val; omega
  | ⟨1, _⟩ => show win1_1.index t (1 : Fin 2) * 128 + 1 * k.val = k.val; omega

theorem emb_2 (t : Fin cfg1.N) (k q : Fin 128) : ((cfg1.win 2).blk t).view.emb (ix2 k q) = ix2 k q := by
  obtain ⟨-, -, -, -, e0, e1, -⟩ := idx_facts t
  funext a; apply Fin.ext
  match a with
  | ⟨0, _⟩ => show win1_2.index t (0 : Fin 2) * 128 + 1 * k.val = k.val; omega
  | ⟨1, _⟩ => show win1_2.index t (1 : Fin 2) * 128 + 1 * q.val = q.val; omega

theorem emb_3 (t : Fin cfg1.N) (k q : Fin 128) : ((cfg1.win 3).blk t).view.emb (ix2 k q) = ix2 k q := by
  obtain ⟨-, -, -, -, -, -, e0, e1, -⟩ := idx_facts t
  funext a; apply Fin.ext
  match a with
  | ⟨0, _⟩ => show win1_3.index t (0 : Fin 2) * 128 + 1 * k.val = k.val; omega
  | ⟨1, _⟩ => show win1_3.index t (1 : Fin 2) * 128 + 1 * q.val = q.val; omega

theorem emb_4 (t : Fin cfg1.N) (q : Fin 128) : ((cfg1.win 4).blk t).view.emb (ix2 (0 : Fin 1) q) = ix2 (0 : Fin 1) q := by
  obtain ⟨-, -, -, -, -, -, -, -, e0, e1, -⟩ := idx_facts t
  funext a; apply Fin.ext
  match a with
  | ⟨0, _⟩ => show win1_4.index t (0 : Fin 2) * 1 + 1 * 0 = 0; omega
  | ⟨1, _⟩ => show win1_4.index t (1 : Fin 2) * 128 + 1 * q.val = q.val; omega

theorem emb_5 (t : Fin cfg1.N) (p : Fin 5000) (q : Fin 128) :
    ((cfg1.win 5).blk t).view.emb (ix2 p q) = ix2 (⟨t.val * 5000 + p.val, by have := t.isLt; have hN : cfg1.N = 20 := gridN; have := p.isLt; omega⟩ : Fin 100000) q := by
  obtain ⟨-, -, -, -, -, -, -, -, -, -, e0, e1⟩ := idx_facts t
  funext a; apply Fin.ext
  match a with
  | ⟨0, _⟩ => show win1_5.index t (0 : Fin 2) * 5000 + 1 * p.val = t.val * 5000 + p.val; omega
  | ⟨1, _⟩ => show win1_5.index t (1 : Fin 2) * 128 + 1 * q.val = q.val; omega

/-! ## Each input block, read at an index, is its array at the rows of block `t` -/

theorem read_0 (c : Dev nD) (t : Fin cfg1.N) (p : Fin 5000) (k : Fin 128) :
    Layer1.iblk V c 0 t (ix2 p k) = V c (Pipeline.arrRef spec1 0) (ix2 (⟨t.val * 5000 + p.val, by have := t.isLt; have hN : cfg1.N = 20 := gridN; have := p.isLt; omega⟩ : Fin 100000) k) := by
  show V c (Pipeline.arrRef spec1 0) (((cfg1.win 0).blk t).view.emb (ix2 p k)) = _
  exact congrArg _ (emb_0 t p k)

theorem read_1 (c : Dev nD) (t : Fin cfg1.N) (p : Fin 5000) (k : Fin 128) :
    Layer1.iblk V c 1 t (ix2 p k) = V c (Pipeline.arrRef spec1 1) (ix2 (⟨t.val * 5000 + p.val, by have := t.isLt; have hN : cfg1.N = 20 := gridN; have := p.isLt; omega⟩ : Fin 100000) k) := by
  show V c (Pipeline.arrRef spec1 1) (((cfg1.win 1).blk t).view.emb (ix2 p k)) = _
  exact congrArg _ (emb_1 t p k)

theorem read_2 (c : Dev nD) (t : Fin cfg1.N) (k q : Fin 128) :
    Layer1.iblk V c 2 t (ix2 k q) = V c (Pipeline.arrRef spec1 2) (ix2 k q) := by
  show V c (Pipeline.arrRef spec1 2) (((cfg1.win 2).blk t).view.emb (ix2 k q)) = _
  exact congrArg _ (emb_2 t k q)

theorem read_3 (c : Dev nD) (t : Fin cfg1.N) (k q : Fin 128) :
    Layer1.iblk V c 3 t (ix2 k q) = V c (Pipeline.arrRef spec1 3) (ix2 k q) := by
  show V c (Pipeline.arrRef spec1 3) (((cfg1.win 3).blk t).view.emb (ix2 k q)) = _
  exact congrArg _ (emb_3 t k q)

theorem read_4 (c : Dev nD) (t : Fin cfg1.N) (q : Fin 128) :
    Layer1.iblk V c 4 t (ix2 (0 : Fin 1) q) = V c (Pipeline.arrRef spec1 4) (ix2 (0 : Fin 1) q) := by
  show V c (Pipeline.arrRef spec1 4) (((cfg1.win 4).blk t).view.emb (ix2 (0 : Fin 1) q)) = _
  exact congrArg _ (emb_4 t q)

/-! ## What point `t` writes back, the cover, and the array -/

/-- Point `t` writes back block `t` of the dense half of the arrays. -/
theorem flushed_eq (c : Dev nD) (b : FVec Ideal S128 .f32)
    (hb : ∀ j : Fin 128, V c (Pipeline.arrRef spec1 4) (ix2 (0 : Fin 1) j) = b (ix1 j)) (t : Fin cfg1.N) :
    (Layer1.dat (F := Ideal) V c).flushed 5 t
      = ((cfg1.win 5).blk t).view.read (Elt Ideal) (Cert.Spec.dense (F := Ideal) (V c (Pipeline.arrRef spec1 0)) (V c (Pipeline.arrRef spec1 1)) (V c (Pipeline.arrRef spec1 2)) b (V c (Pipeline.arrRef spec1 3))) := by
  show (cfg1.win 5).cut (grid1.coords t) ((Layer1.dat (F := Ideal) V c).after 5 t) = _
  rw [Layer1.after_5, outBlock_eq (Layer1.iblk V c 0 t) (Layer1.iblk V c 1 t) (Layer1.iblk V c 2 t) (Layer1.iblk V c 3 t) (Layer1.iblk V c 4 t)]
  refine funext fun (j : S5000x128.Idx) => ?_
  obtain ⟨p, q, rfl⟩ : ∃ (p : Fin 5000) (q : Fin 128), j = ix2 p q := ⟨j 0, j 1, eq_ix2 j⟩
  show k1_pay1 (F := Ideal) (Layer1.iblk V c 0 t) (Layer1.iblk V c 1 t) (Layer1.iblk V c 2 t) (Layer1.iblk V c 3 t) (Layer1.iblk V c 4 t) (ix2 p q)
    = Cert.Spec.dense (F := Ideal) (V c (Pipeline.arrRef spec1 0)) (V c (Pipeline.arrRef spec1 1)) (V c (Pipeline.arrRef spec1 2)) b (V c (Pipeline.arrRef spec1 3)) (((cfg1.win 5).blk t).view.emb (ix2 p q))
  rw [emb_5 t p q]
  exact point_eq (V c (Pipeline.arrRef spec1 0)) (V c (Pipeline.arrRef spec1 1)) (V c (Pipeline.arrRef spec1 2)) (V c (Pipeline.arrRef spec1 3)) (V c (Pipeline.arrRef spec1 4)) b hb
    (Layer1.iblk V c 0 t) (Layer1.iblk V c 1 t) (Layer1.iblk V c 2 t) (Layer1.iblk V c 3 t) (Layer1.iblk V c 4 t) t.val (by have := t.isLt; have hN : cfg1.N = 20 := gridN; omega)
    (fun p k => read_0 V c t p k) (fun p k => read_1 V c t p k) (fun k q => read_2 V c t k q) (fun k q => read_3 V c t k q) (fun q => read_4 V c t q) p q

/-- An index of the array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v29).slice (win1_5.rect t)).set ↔ _
  rw [View.set_slice_whole, Rect.mem_set_unit]
  exact Iff.rfl

/-- The twenty blocks tile the array: row `r` is in block `r / 5000`. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := gridN
  obtain ⟨t, ht⟩ : ∃ t : Fin cfg1.N, t.val = (i 0).val / 5000 := ⟨⟨(i 0).val / 5000, by omega⟩, rfl⟩
  obtain ⟨-, -, -, -, -, -, -, -, -, -, e0, e1⟩ := idx_facts t
  refine ⟨t, flushAll t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The output array after the region: `Spec.dense` of the aggregated rows, the features, the two weight matrices and
    the bias (the bias window's array is the bias vector laid out as one row). -/
theorem final (c : Dev nD) (b : FVec Ideal S128 .f32)
    (hb : ∀ j : Fin 128, V c (Pipeline.arrRef spec1 4) (ix2 (0 : Fin 1) j) = b (ix1 j)) :
    (Layer1.dat (F := Ideal) V c).arrAt 5 cfg1.N
      = Cert.Spec.dense (F := Ideal) (V c (Pipeline.arrRef spec1 0)) (V c (Pipeline.arrRef spec1 1)) (V c (Pipeline.arrRef spec1 2)) b (V c (Pipeline.arrRef spec1 3)) :=
  (Layer1.dat (F := Ideal) V c).arrAt_eq_of_cover 5
    (Cert.Spec.dense (F := Ideal) (V c (Pipeline.arrRef spec1 0)) (V c (Pipeline.arrRef spec1 1)) (V c (Pipeline.arrRef spec1 2)) b (V c (Pipeline.arrRef spec1 3)))
    (fun t _ => flushed_eq V c b hb t) cover

end Cert.KernelIdeal.Layer1Val

end
-- ==== Proof.ValLayer2a.lean ====
/-
  The arithmetic of a layer's dense half, read at an index over the extended reals. A block of 5000 rows: the body's
  value at (p, q) is the maximum of zero and the two 128-term products of row p (of the aggregated block and of the
  feature block) with column q of the two weight matrices, plus the bias row at q. The whole array: the same two
  products of row r, with the bias added between them; the two groupings agree because addition of extended reals
  is commutative and associative (no term is moved across a product, so infinities need no care).
-/
import proofs.«419035_j26560077758775_1_alg».proof.Proof.Gen.KernelIdeal.Skeleton
import proofs.«419035_j26560077758775_1_alg».proof.Proof.ValSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Layer2Val

open Cert.KernelIdeal Cert.KernelIdeal.Gen
open Idealize.ShloMosaic Idealize.ShloMosaic.TcCoe Idealize.ShloMosaic.ValueIdx
open Idealize.SL Idealize.SL.Sem

/-! ## The block product: rows of a 5000×128 block times a 128×128 matrix -/

/-- The left operand's row coordinate is the output's row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Its column coordinate is the summation index. -/
theorem lhs_contr (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row coordinate is the summation index. -/
theorem rhs_contr (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Its column coordinate is the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into a zero accumulator, at (p, q): the sum over k of row p times column q. -/
theorem blockProduct_apply (l : FVec Ideal S5000x128 .bf16) (r : FVec Ideal S128x128 .bf16) (p : Fin 5000) (q : Fin 128) :
    matmul (F := Ideal) dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_contr _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_contr _ _).trans hk
    | ⟨1, _⟩ => exact rhs_col _ _)
  rw [el, er]

/-! ## The body's value at an index of the block -/

/-- The body's one stored value at (p, q) of the block. -/
theorem pay_apply (x0 x1 : Vec Ideal S5000x128 .f32) (x2 x3 : Vec Ideal S128x128 .f32) (x4 : Vec Ideal S1x128 .f32)
    (p : Fin 5000) (q : Fin 128) :
    k2_pay1 (F := Ideal) x0 x1 x2 x3 x4 (ix2 p q)
      = max (((∑ k : Fin 128, x0 (ix2 p k) * x2 (ix2 k q)) + (∑ k : Fin 128, x1 (ix2 p k) * x3 (ix2 k q))) + x4 (ix2 (0 : Fin 1) q)) 0 := by
  unfold k2_pay1
  simp only [shapeCast_self]
  rw [maximumf_apply, addf_apply, addf_apply, broadcast_apply, blockProduct_apply, blockProduct_apply,
    broadcastTo_1b_ab_apply]
  simp only [truncf_apply]
  show max _ (Ideal.ofBits .f32 0x00000000#32) = _
  rw [Ideal.ofBits_zero_f32]

/-! ## The whole-array product: rows of a 100000×128 array times a 128×128 matrix -/

/-- The left operand's row coordinate is the output's row. -/
theorem arr_lhs_row (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
/-- Its column coordinate is the summation index. -/
theorem arr_lhs_contr (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
/-- The right operand's row coordinate is the summation index. -/
theorem arr_rhs_contr (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
/-- Its column coordinate is the output's column. -/
theorem arr_rhs_col (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- The whole-array product at (r, q): the sum over k of row r times column q. -/
theorem arrayProduct_apply (l : FVec Ideal Cert.ReferenceIdeal.S100000x128 .f32) (w : FVec Ideal Cert.ReferenceIdeal.S128x128 .f32) (r : Fin 100000) (q : Fin 128) :
    Host.dotGeneral (F := Ideal) Cert.ReferenceIdeal.dot_S100000x128_S128x128_S100000x128_1_0_0_1_n_n none l w (ix2 r q)
      = ∑ k : Fin 128, l (ix2 r k) * w (ix2 k q) := by
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 r q) ((ValueIdx.contrEquiv1 Cert.ReferenceIdeal.dot_S100000x128_S128x128_S100000x128_1_0_0_1_n_n 128 rfl rfl).symm k) = ix2 r k := funext fun a => Fin.ext (by
    match a with
    | ⟨0, _⟩ => exact arr_lhs_row _ _
    | ⟨1, _⟩ => exact (arr_lhs_contr _ _).trans hk)
  have er : Cert.ReferenceIdeal.dot_S100000x128_S128x128_S100000x128_1_0_0_1_n_n.rhsIdx (ix2 r q) ((ValueIdx.contrEquiv1 Cert.ReferenceIdeal.dot_S100000x128_S128x128_S100000x128_1_0_0_1_n_n 128 rfl rfl).symm k) = ix2 k q := funext fun a => Fin.ext (by
    match a with
    | ⟨0, _⟩ => exact (arr_rhs_contr _ _).trans hk
    | ⟨1, _⟩ => exact arr_rhs_col _ _)
  rw [el, er]

/-! ## The dense half at an index of the array -/

/-- The bias vector spread over the rows, at (r, q): its entry q. -/
theorem biasRows_apply (b : FVec Ideal Cert.ReferenceIdeal.S128 .f32) (r : Fin 100000) (q : Fin 128) :
    broadcastInDim Cert.ReferenceIdeal.S100000x128 ![0, 1] Cert.ReferenceIdeal.Gen.bcast_S1x128_S100000x128_0_1
        (broadcastInDim Cert.ReferenceIdeal.S1x128 ![1] Cert.ReferenceIdeal.Gen.bcast_S128_S1x128_1 b) (ix2 r q) = b (ix1 q) := by
  rw [broadcastInDim_apply _ Cert.ReferenceIdeal.Gen.bcast_S1x128_S100000x128_0_1 _ (ix2 r q) (ix2 (0 : Fin 1) q) (fun a => match a with
      | ⟨0, _⟩ => rfl
      | ⟨1, _⟩ => by show q.val = if (128 : Nat) = 1 then 0 else q.val; rw [if_neg (by decide)]),
    broadcastInDim_apply _ Cert.ReferenceIdeal.Gen.bcast_S128_S1x128_1 b (ix2 (0 : Fin 1) q) (ix1 q) (fun a => match a with
      | ⟨0, _⟩ => by show q.val = if (128 : Nat) = 1 then 0 else q.val; rw [if_neg (by decide)])]

/-- The dense half at (r, q). -/
theorem dense_apply (a h : FVec Ideal Cert.ReferenceIdeal.S100000x128 .f32) (Wn : FVec Ideal Cert.ReferenceIdeal.S128x128 .f32)
    (b : FVec Ideal Cert.ReferenceIdeal.S128 .f32) (Ws : FVec Ideal Cert.ReferenceIdeal.S128x128 .f32) (r : Fin 100000) (q : Fin 128) :
    Cert.Spec.dense (F := Ideal) a h Wn b Ws (ix2 r q)
      = max (((∑ k : Fin 128, a (ix2 r k) * Wn (ix2 k q)) + b (ix1 q)) + ∑ k : Fin 128, h (ix2 r k) * Ws (ix2 k q)) 0 := by
  unfold Cert.Spec.dense
  rw [maximumf_apply, addf_apply, addf_apply, arrayProduct_apply, arrayProduct_apply, biasRows_apply,
    broadcastInDim_apply _ Cert.ReferenceIdeal.Gen.bcast_S_S100000x128 _ (ix2 r q) ix0 (fun a => a.elim0), constant_apply,
    Ideal.ofBits_zero_f32]

/-! ## A block of the body's result is the block of the dense half -/

/-- At block `t` (rows 5000·t … 5000·t + 4999): when the two row blocks are those rows of the arrays, and the weight
    and bias blocks are the whole arrays, the body's value at (p, q) is the dense half at row 5000·t + p. The two sides
    differ in where the bias is added: (x + y) + z = (x + z) + y. -/
theorem point_eq (A H : FVec Ideal Cert.ReferenceIdeal.S100000x128 .f32) (Wn Ws : FVec Ideal Cert.ReferenceIdeal.S128x128 .f32)
    (B : FVec Ideal S1x128 .f32) (b : FVec Ideal Cert.ReferenceIdeal.S128 .f32)
    (hb : ∀ j : Fin 128, B (ix2 (0 : Fin 1) j) = b (ix1 j))
    (x0 x1 : Vec Ideal S5000x128 .f32) (x2 x3 : Vec Ideal S128x128 .f32) (x4 : Vec Ideal S1x128 .f32)
    (t : ℕ) (ht : t < 20)
    (h0 : ∀ (p : Fin 5000) (k : Fin 128), x0 (ix2 p k) = A (ix2 (⟨t * 5000 + p.val, by have := p.isLt; omega⟩ : Fin 100000) k))
    (h1 : ∀ (p : Fin 5000) (k : Fin 128), x1 (ix2 p k) = H (ix2 (⟨t * 5000 + p.val, by have := p.isLt; omega⟩ : Fin 100000) k))
    (h2 : ∀ (k q : Fin 128), x2 (ix2 k q) = Wn (ix2 k q))
    (h3 : ∀ (k q : Fin 128), x3 (ix2 k q) = Ws (ix2 k q))
    (h4 : ∀ q : Fin 128, x4 (ix2 (0 : Fin 1) q) = B (ix2 (0 : Fin 1) q))
    (p : Fin 5000) (q : Fin 128) :
    k2_pay1 (F := Ideal) x0 x1 x2 x3 x4 (ix2 p q)
      = Cert.Spec.dense (F := Ideal) A H Wn b Ws (ix2 (⟨t * 5000 + p.val, by have := p.isLt; omega⟩ : Fin 100000) q) := by
  rw [pay_apply, dense_apply, h4, hb]
  simp only [h0, h1, h2, h3]
  rw [add_right_comm]

end Cert.KernelIdeal.Layer2Val

end
-- ==== Proof.ValLayer2.lean ====
/-
  What a layer's region leaves in its output array, over the extended reals: the dense half of the layer applied to
  the region's input arrays as it found them — each block of 5000 rows is the same function of the whole arrays, and
  the twenty blocks tile the array.
-/
import proofs.«419035_j26560077758775_1_alg».proof.Proof.KiLayer2
import proofs.«419035_j26560077758775_1_alg».proof.Proof.ValSpec
import proofs.«419035_j26560077758775_1_alg».proof.Proof.ValLayer2a
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Layer2Val

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The grid has twenty points, -/
theorem gridN : cfg2.N = 20 := by decide
/-- and every one of them writes the output block back. -/
theorem flushAll : ∀ t : Fin cfg2.N, (cfg2.win 5).flush t = true :=
  (by decide +kernel : ∀ t : Fin grid2.N, win2_5.flush t = true)

/-- The body's one store covers the block, so the block it leaves is the stored value. -/
theorem outBlock_eq (x0 x1 : Vec Ideal S5000x128 .f32) (x2 x3 : Vec Ideal S128x128 .f32) (x4 : Vec Ideal S1x128 .f32) :
    Layer2.outBlock x0 x1 x2 x3 x4 = k2_pay1 x0 x1 x2 x3 x4 := by
  unfold Layer2.outBlock
  rw [View.canon_unit_zero hz]
  simp only [View.ld_unit_zero (S := S5000x128) hz, View.ld_unit_zero (S := S128x128) hz, View.ld_unit_zero (S := S1x128) hz]

/-- Where each window's block sits at point `t`: the two row windows and the output move down one block of rows per
    point; the weight and bias windows stay on their whole arrays. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-! ## Where an element of a block sits in its array: block index × block size + the coordinate inside the block -/

theorem emb_0 (t : Fin cfg2.N) (p : Fin 5000) (k : Fin 128) :
    ((cfg2.win 0).blk t).view.emb (ix2 p k) = ix2 (⟨t.val * 5000 + p.val, by have := t.isLt; have hN : cfg2.N = 20 := gridN; have := p.isLt; omega⟩ : Fin 100000) k := by
  obtain ⟨e0, e1, -⟩ := idx_facts t
  funext a; apply Fin.ext
  match a with
  | ⟨0, _⟩ => show win2_0.index t (0 : Fin 2) * 5000 + 1 * p.val = t.val * 5000 + p.val; omega
  | ⟨1, _⟩ => show win2_0.index t (1 : Fin 2) * 128 + 1 * k.val = k.val; omega

theorem emb_1 (t : Fin cfg2.N) (p : Fin 5000) (k : Fin 128) :
    ((cfg2.win 1).blk t).view.emb (ix2 p k) = ix2 (⟨t.val * 5000 + p.val, by have := t.isLt; have hN : cfg2.N = 20 := gridN; have := p.isLt; omega⟩ : Fin 100000) k := by
  obtain ⟨-, -, e0, e1, -⟩ := idx_facts t
  funext a; apply Fin.ext
  match a with
  | ⟨0, _⟩ => show win2_1.index t (0 : Fin 2) * 5000 + 1 * p.val = t.val * 5000 + p.val; omega
  | ⟨1, _⟩ => show win2_1.index t (1 : Fin 2) * 128 + 1 * k.val = k.val; omega

theorem emb_2 (t : Fin cfg2.N) (k q : Fin 128) : ((cfg2.win 2).blk t).view.emb (ix2 k q) = ix2 k q := by
  obtain ⟨-, -, -, -, e0, e1, -⟩ := idx_facts t
  funext a; apply Fin.ext
  match a with
  | ⟨0, _⟩ => show win2_2.index t (0 : Fin 2) * 128 + 1 * k.val = k.val; omega
  | ⟨1, _⟩ => show win2_2.index t (1 : Fin 2) * 128 + 1 * q.val = q.val; omega

theorem emb_3 (t : Fin cfg2.N) (k q : Fin 128) : ((cfg2.win 3).blk t).view.emb (ix2 k q) = ix2 k q := by
  obtain ⟨-, -, -, -, -, -, e0, e1, -⟩ := idx_facts t
  funext a; apply Fin.ext
  match a with
  | ⟨0, _⟩ => show win2_3.index t (0 : Fin 2) * 128 + 1 * k.val = k.val; omega
  | ⟨1, _⟩ => show win2_3.index t (1 : Fin 2) * 128 + 1 * q.val = q.val; omega

theorem emb_4 (t : Fin cfg2.N) (q : Fin 128) : ((cfg2.win 4).blk t).view.emb (ix2 (0 : Fin 1) q) = ix2 (0 : Fin 1) q := by
  obtain ⟨-, -, -, -, -, -, -, -, e0, e1, -⟩ := idx_facts t
  funext a; apply Fin.ext
  match a with
  | ⟨0, _⟩ => show win2_4.index t (0 : Fin 2) * 1 + 1 * 0 = 0; omega
  | ⟨1, _⟩ => show win2_4.index t (1 : Fin 2) * 128 + 1 * q.val = q.val; omega

theorem emb_5 (t : Fin cfg2.N) (p : Fin 5000) (q : Fin 128) :
    ((cfg2.win 5).blk t).view.emb (ix2 p q) = ix2 (⟨t.val * 5000 + p.val, by have := t.isLt; have hN : cfg2.N = 20 := gridN; have := p.isLt; omega⟩ : Fin 100000) q := by
  obtain ⟨-, -, -, -, -, -, -, -, -, -, e0, e1⟩ := idx_facts t
  funext a; apply Fin.ext
  match a with
  | ⟨0, _⟩ => show win2_5.index t (0 : Fin 2) * 5000 + 1 * p.val = t.val * 5000 + p.val; omega
  | ⟨1, _⟩ => show win2_5.index t (1 : Fin 2) * 128 + 1 * q.val = q.val; omega

/-! ## Each input block, read at an index, is its array at the rows of block `t` -/

theorem read_0 (c : Dev nD) (t : Fin cfg2.N) (p : Fin 5000) (k : Fin 128) :
    Layer2.iblk V c 0 t (ix2 p k) = V c (Pipeline.arrRef spec2 0) (ix2 (⟨t.val * 5000 + p.val, by have := t.isLt; have hN : cfg2.N = 20 := gridN; have := p.isLt; omega⟩ : Fin 100000) k) := by
  show V c (Pipeline.arrRef spec2 0) (((cfg2.win 0).blk t).view.emb (ix2 p k)) = _
  exact congrArg _ (emb_0 t p k)

theorem read_1 (c : Dev nD) (t : Fin cfg2.N) (p : Fin 5000) (k : Fin 128) :
    Layer2.iblk V c 1 t (ix2 p k) = V c (Pipeline.arrRef spec2 1) (ix2 (⟨t.val * 5000 + p.val, by have := t.isLt; have hN : cfg2.N = 20 := gridN; have := p.isLt; omega⟩ : Fin 100000) k) := by
  show V c (Pipeline.arrRef spec2 1) (((cfg2.win 1).blk t).view.emb (ix2 p k)) = _
  exact congrArg _ (emb_1 t p k)

theorem read_2 (c : Dev nD) (t : Fin cfg2.N) (k q : Fin 128) :
    Layer2.iblk V c 2 t (ix2 k q) = V c (Pipeline.arrRef spec2 2) (ix2 k q) := by
  show V c (Pipeline.arrRef spec2 2) (((cfg2.win 2).blk t).view.emb (ix2 k q)) = _
  exact congrArg _ (emb_2 t k q)

theorem read_3 (c : Dev nD) (t : Fin cfg2.N) (k q : Fin 128) :
    Layer2.iblk V c 3 t (ix2 k q) = V c (Pipeline.arrRef spec2 3) (ix2 k q) := by
  show V c (Pipeline.arrRef spec2 3) (((cfg2.win 3).blk t).view.emb (ix2 k q)) = _
  exact congrArg _ (emb_3 t k q)

theorem read_4 (c : Dev nD) (t : Fin cfg2.N) (q : Fin 128) :
    Layer2.iblk V c 4 t (ix2 (0 : Fin 1) q) = V c (Pipeline.arrRef spec2 4) (ix2 (0 : Fin 1) q) := by
  show V c (Pipeline.arrRef spec2 4) (((cfg2.win 4).blk t).view.emb (ix2 (0 : Fin 1) q)) = _
  exact congrArg _ (emb_4 t q)

/-! ## What point `t` writes back, the cover, and the array -/

/-- Point `t` writes back block `t` of the dense half of the arrays. -/
theorem flushed_eq (c : Dev nD) (b : FVec Ideal S128 .f32)
    (hb : ∀ j : Fin 128, V c (Pipeline.arrRef spec2 4) (ix2 (0 : Fin 1) j) = b (ix1 j)) (t : Fin cfg2.N) :
    (Layer2.dat (F := Ideal) V c).flushed 5 t
      = ((cfg2.win 5).blk t).view.read (Elt Ideal) (Cert.Spec.dense (F := Ideal) (V c (Pipeline.arrRef spec2 0)) (V c (Pipeline.arrRef spec2 1)) (V c (Pipeline.arrRef spec2 2)) b (V c (Pipeline.arrRef spec2 3))) := by
  show (cfg2.win 5).cut (grid2.coords t) ((Layer2.dat (F := Ideal) V c).after 5 t) = _
  rw [Layer2.after_5, outBlock_eq (Layer2.iblk V c 0 t) (Layer2.iblk V c 1 t) (Layer2.iblk V c 2 t) (Layer2.iblk V c 3 t) (Layer2.iblk V c 4 t)]
  refine funext fun (j : S5000x128.Idx) => ?_
  obtain ⟨p, q, rfl⟩ : ∃ (p : Fin 5000) (q : Fin 128), j = ix2 p q := ⟨j 0, j 1, eq_ix2 j⟩
  show k2_pay1 (F := Ideal) (Layer2.iblk V c 0 t) (Layer2.iblk V c 1 t) (Layer2.iblk V c 2 t) (Layer2.iblk V c 3 t) (Layer2.iblk V c 4 t) (ix2 p q)
    = Cert.Spec.dense (F := Ideal) (V c (Pipeline.arrRef spec2 0)) (V c (Pipeline.arrRef spec2 1)) (V c (Pipeline.arrRef spec2 2)) b (V c (Pipeline.arrRef spec2 3)) (((cfg2.win 5).blk t).view.emb (ix2 p q))
  rw [emb_5 t p q]
  exact point_eq (V c (Pipeline.arrRef spec2 0)) (V c (Pipeline.arrRef spec2 1)) (V c (Pipeline.arrRef spec2 2)) (V c (Pipeline.arrRef spec2 3)) (V c (Pipeline.arrRef spec2 4)) b hb
    (Layer2.iblk V c 0 t) (Layer2.iblk V c 1 t) (Layer2.iblk V c 2 t) (Layer2.iblk V c 3 t) (Layer2.iblk V c 4 t) t.val (by have := t.isLt; have hN : cfg2.N = 20 := gridN; omega)
    (fun p k => read_0 V c t p k) (fun p k => read_1 V c t p k) (fun k q => read_2 V c t k q) (fun k q => read_3 V c t k q) (fun q => read_4 V c t q) p q

/-- An index of the array is in point `t`'s block iff each coordinate is in the block's range on its axis. -/
theorem mem_blk (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v44).slice (win2_5.rect t)).set ↔ _
  rw [View.set_slice_whole, Rect.mem_set_unit]
  exact Iff.rfl

/-- The twenty blocks tile the array: row `r` is in block `r / 5000`. -/
theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := gridN
  obtain ⟨t, ht⟩ : ∃ t : Fin cfg2.N, t.val = (i 0).val / 5000 := ⟨⟨(i 0).val / 5000, by omega⟩, rfl⟩
  obtain ⟨-, -, -, -, -, -, -, -, -, -, e0, e1⟩ := idx_facts t
  refine ⟨t, flushAll t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- The output array after the region: `Spec.dense` of the aggregated rows, the features, the two weight matrices and
    the bias (the bias window's array is the bias vector laid out as one row). -/
theorem final (c : Dev nD) (b : FVec Ideal S128 .f32)
    (hb : ∀ j : Fin 128, V c (Pipeline.arrRef spec2 4) (ix2 (0 : Fin 1) j) = b (ix1 j)) :
    (Layer2.dat (F := Ideal) V c).arrAt 5 cfg2.N
      = Cert.Spec.dense (F := Ideal) (V c (Pipeline.arrRef spec2 0)) (V c (Pipeline.arrRef spec2 1)) (V c (Pipeline.arrRef spec2 2)) b (V c (Pipeline.arrRef spec2 3)) :=
  (Layer2.dat (F := Ideal) V c).arrAt_eq_of_cover 5
    (Cert.Spec.dense (F := Ideal) (V c (Pipeline.arrRef spec2 0)) (V c (Pipeline.arrRef spec2 1)) (V c (Pipeline.arrRef spec2 2)) b (V c (Pipeline.arrRef spec2 3)))
    (fun t _ => flushed_eq V c b hb t) cover

end Cert.KernelIdeal.Layer2Val

end
-- ==== Proof.ValPoolA.lean ====
/-
  The per-graph sums of the node features, read at one element: the scatter-add that defines them sends node row r,
  column d' to graph row g, column d exactly when r's graph id, read as a signed number, is g and d' = d; a row whose
  id is no graph's lands nowhere and is dropped. So the sum at (g, d) runs over all node rows, each contributing its
  entry in column d when its id is g and nothing otherwise.
-/
import proofs.«419035_j26560077758775_1_alg».proof.Proof.ValSpec
import Idealize.ShloMosaic.Lib.ValueIdx
import Idealize.ShloMosaic.PureOps.Ideal.Laws
import Idealize.ShloMosaic.Lib.Pipeline.Value

set_option maxRecDepth 16384

noncomputable section

namespace Cert.Spec

open Cert.ReferenceIdeal Cert.ReferenceIdeal.Gen Idealize.ShloMosaic Idealize.ShloMosaic.TcCoe Idealize.ShloMosaic.ValueIdx

/-- The scatter's dimension numbers: row index from the one index column, the window is the feature row. -/
abbrev sd := scatter_S64x128_S100000x1_S100000x128_1_0_0_1

theorem sd_window0 (j : S100000x128.Idx) : sd.window j 0 = 0 := rfl
theorem sd_window1 (j : S100000x128.Idx) : sd.window j 1 = (j 1).val := rfl
theorem sd_start1 {w : Nat} (j : S100000x128.Idx) (idx : IVec S100000x1 w) : sd.start j idx 1 = 0 := rfl
theorem sd_siIdx (j : S100000x128.Idx) (c : Fin sd.scatterDimsToOperandDims.length) : sd.siIdx j c = ix2 (j 0) (0 : Fin 1) := by
  funext b
  match b with
  | ⟨0, _⟩ => rfl
  | ⟨1, _⟩ =>
    have : c = ⟨0, by decide⟩ := Fin.ext (by have := c.isLt; simp [sd, scatter_S64x128_S100000x1_S100000x128_1_0_0_1] at this; omega)
    subst this; rfl
theorem sd_start0 {w : Nat} (j : S100000x128.Idx) (idx : IVec S100000x1 w) : sd.start j idx 0 = (idx (ix2 (j 0) (0 : Fin 1))).toInt := by
  unfold ScatterDims.start
  rw [dif_pos (by decide)]
  rw [sd_siIdx]
  rfl

theorem sd_sum0 {w : Nat} (j : S100000x128.Idx) (idx : IVec S100000x1 w) :
    sd.start j idx 0 + (sd.window j 0 : Int) = (idx (ix2 (j 0) (0 : Fin 1))).toInt := by
  rw [sd_start0, sd_window0]; simp
theorem sd_sum1 {w : Nat} (j : S100000x128.Idx) (idx : IVec S100000x1 w) :
    sd.start j idx 1 + (sd.window j 1 : Int) = ((j 1).val : Int) := by
  rw [sd_start1, sd_window1]; simp

/-- An update row lands on graph row `g`, same column, exactly when its start index, read signed, is `g`. -/
theorem sd_resultIdx_iff {w : Nat} (idx : IVec S100000x1 w) (r : Fin 100000) (d' : Fin 128) (g : Fin 64) (d : Fin 128) :
    sd.resultIdx? (ix2 r d') idx = some (ix2 g d) ↔ (idx (ix2 r (0 : Fin 1))).toInt = (g.val : Int) ∧ d' = d := by
  have s0 : sd.start (ix2 r d') idx 0 + (sd.window (ix2 r d') 0 : Int) = (idx (ix2 r (0 : Fin 1))).toInt := sd_sum0 (ix2 r d') idx
  have s1 : sd.start (ix2 r d') idx 1 + (sd.window (ix2 r d') 1 : Int) = (d'.val : Int) := sd_sum1 (ix2 r d') idx
  unfold ScatterDims.resultIdx?
  split
  · rename_i h
    rw [Option.some.injEq]
    constructor
    · intro e
      have e0 : (sd.start (ix2 r d') idx 0 + (sd.window (ix2 r d') 0 : Int)).toNat = g.val := congrArg Fin.val (congrFun e 0)
      have e1 : (sd.start (ix2 r d') idx 1 + (sd.window (ix2 r d') 1 : Int)).toNat = d.val := congrArg Fin.val (congrFun e 1)
      have h0 := (h 0).1
      rw [s0] at e0 h0
      rw [s1] at e1
      exact ⟨by omega, Fin.ext (by omega)⟩
    · rintro ⟨hg, hd⟩
      funext a
      match a with
      | ⟨0, _⟩ =>
        apply Fin.ext
        show (sd.start (ix2 r d') idx 0 + (sd.window (ix2 r d') 0 : Int)).toNat = g.val
        rw [s0]; omega
      | ⟨1, _⟩ =>
        apply Fin.ext
        show (sd.start (ix2 r d') idx 1 + (sd.window (ix2 r d') 1 : Int)).toNat = d.val
        rw [s1]; subst hd; omega
  · rename_i h
    constructor
    · intro e; cases e
    · rintro ⟨hg, hd⟩
      refine absurd (fun a => ?_) h
      match a with
      | ⟨0, _⟩ =>
        show 0 ≤ sd.start (ix2 r d') idx 0 + (sd.window (ix2 r d') 0 : Int) ∧ sd.start (ix2 r d') idx 0 + (sd.window (ix2 r d') 0 : Int) < ((64 : Nat) : Int)
        rw [s0, hg]; have := g.isLt; omega
      | ⟨1, _⟩ =>
        show 0 ≤ sd.start (ix2 r d') idx 1 + (sd.window (ix2 r d') 1 : Int) ∧ sd.start (ix2 r d') idx 1 + (sd.window (ix2 r d') 1 : Int) < ((128 : Nat) : Int)
        rw [s1]; have := d'.isLt; omega

/-- The per-graph sums at an element: the sum, over all node rows, of the rows whose graph id is `g`. -/
theorem pooled_apply (h : FVec Ideal S100000x128 .f32) (gid : IVec S100000 32) (g : Fin 64) (d : Fin 128) :
    pooled (F := Ideal) h gid (ix2 g d)
      = 0 + ∑ r : Fin 100000, if (gid (ix1 r)).toInt = (g.val : Int) then h (ix2 r d) else 0 := by
  unfold pooled Host.scatterAdd
  rw [Ideal.hostScatterAdd_def]
  unfold Ideal.hostScatterAdd
  show Ideal.ofBits .f32 0x00000000#32 + _ = _
  rw [Ideal.ofBits_zero_f32, Finset.sum_filter, sum_idx2]
  refine congrArg (fun z : EReal => 0 + z) (Finset.sum_congr rfl fun r _ => ?_)
  have hb : (broadcastInDim S100000x1 ![0] bcast_S100000_S100000x1_0 gid) (ix2 r (0 : Fin 1)) = gid (ix1 r) :=
    broadcastInDim_apply _ bcast_S100000_S100000x1_0 gid _ (ix1 r) (fun a => match a with
      | ⟨0, _⟩ => by show r.val = if (100000 : Nat) = 1 then 0 else r.val; rw [if_neg (by decide)])
  simp only [sd_resultIdx_iff, hb]
  by_cases hA : (gid (ix1 r)).toInt = (g.val : Int)
  · simp only [hA, true_and, if_true]
    rw [Finset.sum_ite_eq' Finset.univ d (fun b => h (ix2 r b)), if_pos (Finset.mem_univ d)]
  · simp only [hA, false_and, if_false, Finset.sum_const_zero]

end Cert.Spec

end
-- ==== Proof.ValPoolB.lean ====
/-
  One block's step of the per-graph sums, read at one element over the extended reals: the 0/1 membership matrix of
  the block's graph ids against the 64 graphs has a 1 in row p, column g exactly when row p's id, read signed, is g
  (the ids are compared as 32-bit words with the column number, and a number below 64 is its own word); contracting it
  with the block's rows over the 5000 rows adds, at (g, d), the entries in column d of the rows whose id is g. A zero
  entry of the matrix kills its product whatever the other factor is.
-/
import proofs.«419035_j26560077758775_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.ReadoutVal

open Cert.KernelIdeal Cert.KernelIdeal.Gen
open Idealize.ShloMosaic Idealize.ShloMosaic.TcCoe Idealize.ShloMosaic.ValueIdx

/-- The product's dimension numbers: both operands contract their rows. -/
abbrev D := dot_S5000x64_S5000x128_S64x128_0_0_1_1_n_n

theorem lhs_0 (i : S64x128.Idx) (q : D.contr.Idx) : (D.lhsIdx i q 0).val = (q ⟨0, by decide⟩).val :=
  D.lhsIdx_val_of_single rfl i q
theorem lhs_1 (i : S64x128.Idx) (q : D.contr.Idx) : (D.lhsIdx i q 1).val = (i 0).val := by
  unfold DotDims.lhsIdx
  rw [dif_neg (show ¬(1 : Fin S5000x64.rank) ∈ D.lhsBatch by decide), dif_pos (show (1 : Fin S5000x64.rank) ∈ D.lhsNonContracting by decide)]
  rfl
theorem rhs_0 (i : S64x128.Idx) (q : D.contr.Idx) : (D.rhsIdx i q 0).val = (q ⟨0, by decide⟩).val :=
  D.rhsIdx_val_of_single rfl i q
theorem rhs_1 (i : S64x128.Idx) (q : D.contr.Idx) : (D.rhsIdx i q 1).val = (i 1).val := by
  unfold DotDims.rhsIdx
  rw [dif_neg (show ¬(1 : Fin S5000x128.rank) ∈ D.rhsBatch by decide), dif_pos (show (1 : Fin S5000x128.rank) ∈ D.rhsNonContracting by decide)]
  rfl

theorem lhsIdx_eq (gi : Fin 64) (d : Fin 128) (p : Fin 5000) :
    D.lhsIdx (ix2 gi d) ((contrEquiv1 D 5000 rfl rfl).symm p) = ix2 p gi := by
  have hk := contrEquiv1_symm_val D 5000 rfl rfl p
  funext a
  apply Fin.ext
  match a with
  | ⟨0, _⟩ => exact (lhs_0 _ _).trans hk
  | ⟨1, _⟩ => exact lhs_1 _ _
theorem rhsIdx_eq (gi : Fin 64) (d : Fin 128) (p : Fin 5000) :
    D.rhsIdx (ix2 gi d) ((contrEquiv1 D 5000 rfl rfl).symm p) = ix2 p d := by
  have hk := contrEquiv1_symm_val D 5000 rfl rfl p
  funext a
  apply Fin.ext
  match a with
  | ⟨0, _⟩ => exact (rhs_0 _ _).trans hk
  | ⟨1, _⟩ => exact rhs_1 _ _

theorem toInt_eq_iff (v : BitVec 32) (n : Nat) (hn : n < 64) : v.toInt = (n : Int) ↔ v = BitVec.ofNat 32 n := by
  rw [BitVec.toInt_eq_toNat_cond]
  have := v.isLt
  constructor
  · intro h; apply BitVec.eq_of_toNat_eq; rw [BitVec.toNat_ofNat]; split at h <;> omega
  · rintro rfl; rw [BitVec.toNat_ofNat]; split <;> omega

theorem onehot_word (v : BitVec 32) (n : Nat) (hn : n < 64) :
    ((((IntOp.cmpi .eq v (BitVec.ofNat 32 n)).setWidth 32).toInt : ℝ) : EReal) = if v.toInt = (n : Int) then 1 else 0 := by
  by_cases h : v = BitVec.ofNat 32 n
  · rw [if_pos ((toInt_eq_iff v n hn).2 h)]
    subst h
    simp [IntOp.cmpi]
  · rw [if_neg (fun e => h ((toInt_eq_iff v n hn).1 e))]
    have hb : (v == BitVec.ofNat 32 n) = false := by simpa using h
    simp [IntOp.cmpi, hb]

/-- One block's step at an element: what was there plus the block's rows with graph id `gi`, summed in column `d`. -/
theorem k3_pay2_apply (x : Vec Ideal S5000x128 .f32) (g : Vec Ideal S5000x1 .i32) (a : Vec Ideal S64x128 .f32) (gi : Fin 64) (d : Fin 128) :
    k3_pay2 (F := Ideal) x g a (ix2 gi d)
      = a (ix2 gi d) + ∑ p : Fin 5000, if (g (ix2 p (0 : Fin 1))).toInt = (gi.val : Int) then x (ix2 p d) else 0 := by
  unfold k3_pay2
  simp only [shapeCast_self, matmul]
  rw [addf_apply, Ideal.matmul_constant_zero_apply, ← Equiv.sum_comp (contrEquiv1 D 5000 rfl rfl).symm]
  refine congrArg (fun z : EReal => a (ix2 gi d) + z) (Finset.sum_congr rfl fun p _ => ?_)
  rw [lhsIdx_eq, rhsIdx_eq]
  rw [truncf_apply, truncf_apply, sitofp_apply, extui_apply]
  have hbt : broadcastTo S5000x64 g broadcasts_S5000x1_S5000x64 (ix2 p gi) = g (ix2 p (0 : Fin 1)) :=
    broadcastTo_apply g _ (ix2 p gi) (ix2 p (0 : Fin 1)) (fun a => match a with
      | ⟨0, _⟩ => by show p.val = if (5000 : Nat) = 1 then 0 else p.val; rw [if_neg (by decide)]
      | ⟨1, _⟩ => by show (0 : Nat) = if (1 : Nat) = 1 then 0 else gi.val; rw [if_pos rfl])
  have hio : iota .tc S5000x64 32 [1] iota_S5000x64_d1_w32 (ix2 p gi) = BitVec.ofNat 32 gi.val :=
    iota_single_apply _ _ _ _ _ _
  show ((((IntOp.cmpi .eq (broadcastTo S5000x64 g broadcasts_S5000x1_S5000x64 (ix2 p gi)) (iota .tc S5000x64 32 [1] iota_S5000x64_d1_w32 (ix2 p gi))).setWidth 32).toInt : ℝ) : EReal) * x (ix2 p d) = _
  rw [hbt, hio, onehot_word _ _ gi.isLt]
  split
  · rw [one_mul]
  · rw [zero_mul]

end Cert.KernelIdeal.ReadoutVal

end
-- ==== Proof.ValPool.lean ====
/-
  The per-graph sums the readout region accumulates, over the extended reals: after the last block the scratch holds,
  for graph g and feature d, the sum of the rows r of the node features with graph id g — each block adds the product
  of its 0/1 membership matrix with its rows, and a row whose id is no graph's meets no column of that matrix, as the
  scatter-add drops it. Block t's row p is row 5000 t + p of the arrays, so after point n the scratch holds the
  contributions of rows 0 … 5000 (n + 1) - 1, by induction on n; the twenty blocks are all 100000 rows.
-/
import proofs.«419035_j26560077758775_1_alg».proof.Proof.KiReadout
import proofs.«419035_j26560077758775_1_alg».proof.Proof.ValSpec
import proofs.«419035_j26560077758775_1_alg».proof.Proof.ValPoolA
import proofs.«419035_j26560077758775_1_alg».proof.Proof.ValPoolB
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.ReadoutVal

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem idx0_eq : ∀ (t : Fin cfg3.N) (a : Fin 2), (cfg3.win 0).index t a * (cfg3.win 0).size a = (![5000 * t.val, 0] : Fin 2 → Nat) a := by
  decide +kernel
theorem idx1_eq : ∀ (t : Fin cfg3.N) (a : Fin 2), (cfg3.win 1).index t a * (cfg3.win 1).size a = (![5000 * t.val, 0] : Fin 2 → Nat) a := by
  decide +kernel

theorem emb0_val (t : Fin cfg3.N) (y : ((cfg3.win 0).xblock (cfg3.grid.coords t)).Idx) (a : Fin 2) :
    (((cfg3.win 0).blk t).view.emb y a).val = (![5000 * t.val, 0] : Fin 2 → Nat) a + (y a).val := by
  show (cfg3.win 0).index t a * (cfg3.win 0).size a + 1 * (y a).val = _
  rw [idx0_eq]; omega
theorem emb1_val (t : Fin cfg3.N) (y : ((cfg3.win 1).xblock (cfg3.grid.coords t)).Idx) (a : Fin 2) :
    (((cfg3.win 1).blk t).view.emb y a).val = (![5000 * t.val, 0] : Fin 2 → Nat) a + (y a).val := by
  show (cfg3.win 1).index t a * (cfg3.win 1).size a + 1 * (y a).val = _
  rw [idx1_eq]; omega

/-- Row `p` of the features' block `t` is row `5000 t + p` of the array. -/
theorem iblk0_apply (c : Dev nD) (t : Fin cfg3.N) (p : Fin 5000) (d : Fin 128) (h : 5000 * t.val + p.val < 100000) :
    Readout.iblk V c 0 t (ix2 p d) = V c (Pipeline.arrRef spec3 0) (ix2 ⟨5000 * t.val + p.val, h⟩ d) := by
  show V c (Pipeline.arrRef spec3 0) (((cfg3.win 0).blk t).view.emb (ix2 p d)) = _
  refine congrArg _ (funext fun a => Fin.ext ?_)
  rw [emb0_val]
  match a with
  | ⟨0, _⟩ => rfl
  | ⟨1, _⟩ => show 0 + d.val = d.val; omega
/-- Row `p` of the graph ids' block `t` is row `5000 t + p` of the column. -/
theorem iblk1_apply (c : Dev nD) (t : Fin cfg3.N) (p : Fin 5000) (h : 5000 * t.val + p.val < 100000) :
    Readout.iblk V c 1 t (ix2 p (0 : Fin 1)) = V c (Pipeline.arrRef spec3 1) (ix2 ⟨5000 * t.val + p.val, h⟩ (0 : Fin 1)) := by
  show V c (Pipeline.arrRef spec3 1) (((cfg3.win 1).blk t).view.emb (ix2 p (0 : Fin 1))) = _
  refine congrArg _ (funext fun a => Fin.ext ?_)
  rw [emb1_val]
  match a with
  | ⟨0, _⟩ => rfl
  | ⟨1, _⟩ => rfl

/-- The features' block at point `t`, and the graph ids' block, as vectors. -/
abbrev xblk (c : Dev nD) (t : Fin cfg3.N) : Vec Ideal S5000x128 .f32 := Readout.iblk V c 0 t
abbrev gblk (c : Dev nD) (t : Fin cfg3.N) : Vec Ideal S5000x1 .i32 := Readout.iblk V c 1 t

/-- Node row `r`'s contribution to the sum at graph `gi`, column `d`: its entry when its id is `gi`, nothing otherwise (and nothing past the array). -/
def term (c : Dev nD) (gid : IVec S100000 32) (gi : Fin 64) (d : Fin 128) (r : ℕ) : EReal :=
  if h : r < 100000 then (if (gid (ix1 ⟨r, h⟩)).toInt = (gi.val : Int) then V c (Pipeline.arrRef spec3 0) (ix2 ⟨r, h⟩ d) else 0) else 0

theorem blk_term (c : Dev nD) (gid : IVec S100000 32)
    (hg : ∀ r : Fin 100000, V c (Pipeline.arrRef spec3 1) (ix2 r (0 : Fin 1)) = gid (ix1 r))
    (t : Fin cfg3.N) (gi : Fin 64) (d : Fin 128) (p : Fin 5000) :
    (if (gblk V c t (ix2 p (0 : Fin 1))).toInt = (gi.val : Int) then xblk V c t (ix2 p d) else 0)
      = term V c gid gi d (5000 * t.val + p.val) := by
  have hN : cfg3.N = 20 := rfl
  have hlt : 5000 * t.val + p.val < 100000 := by have := t.isLt; have := p.isLt; omega
  unfold term
  have e0 : xblk V c t (ix2 p d) = V c (Pipeline.arrRef spec3 0) (ix2 ⟨5000 * t.val + p.val, hlt⟩ d) := iblk0_apply V c t p d hlt
  have e1 : gblk V c t (ix2 p (0 : Fin 1)) = gid (ix1 ⟨5000 * t.val + p.val, hlt⟩) := (iblk1_apply V c t p hlt).trans (hg _)
  rw [dif_pos hlt, e0, e1]

theorem blk_sum (c : Dev nD) (gid : IVec S100000 32)
    (hg : ∀ r : Fin 100000, V c (Pipeline.arrRef spec3 1) (ix2 r (0 : Fin 1)) = gid (ix1 r))
    (t : Fin cfg3.N) (gi : Fin 64) (d : Fin 128) :
    (∑ p : Fin 5000, (if (gblk V c t (ix2 p (0 : Fin 1))).toInt = (gi.val : Int) then xblk V c t (ix2 p d) else 0))
      = ∑ p ∈ Finset.range 5000, term V c gid gi d (5000 * t.val + p) := by
  rw [← Fin.sum_univ_eq_sum_range (fun p => term V c gid gi d (5000 * t.val + p)) 5000]
  exact Finset.sum_congr rfl (fun p _ => blk_term V c gid hg t gi d p)

theorem pay1_apply (i : S64x128.Idx) : k3_pay1 (F := Ideal) i = 0 := by
  unfold k3_pay1
  simp only [shapeCast_self]
  exact Ideal.ofBits_zero_f32

/-- After point `n` the scratch holds, at (gi, d), the contributions of the rows of the blocks so far. -/
theorem accAt_apply (c : Dev nD) (gid : IVec S100000 32)
    (hg : ∀ r : Fin 100000, V c (Pipeline.arrRef spec3 1) (ix2 r (0 : Fin 1)) = gid (ix1 r))
    (gi : Fin 64) (d : Fin 128) : ∀ (n : ℕ) (hn : n < cfg3.N),
    Readout.accAt (F := Ideal) V c n hn (ix2 gi d) = 0 + ∑ r ∈ Finset.range (5000 * (n + 1)), term V c gid gi d r
  | 0, hn => by
    rw [Readout.accAt_zero, k3_pay2_apply, pay1_apply]
    refine congrArg (fun z : EReal => 0 + z) ?_
    refine (blk_sum V c gid hg ⟨0, hn⟩ gi d).trans ?_
    refine Finset.sum_congr rfl fun p _ => ?_
    show term V c gid gi d (5000 * 0 + p) = _
    rw [Nat.mul_zero, Nat.zero_add]
  | n + 1, hn => by
    rw [Readout.accAt_succ, k3_pay2_apply, accAt_apply c gid hg gi d n (Nat.lt_of_succ_lt hn)]
    refine (congrArg (fun z : EReal => (0 + ∑ r ∈ Finset.range (5000 * (n + 1)), term V c gid gi d r) + z)
      (blk_sum V c gid hg ⟨n + 1, hn⟩ gi d)).trans ?_
    show (0 + ∑ r ∈ Finset.range (5000 * (n + 1)), term V c gid gi d r) + ∑ p ∈ Finset.range 5000, term V c gid gi d (5000 * (n + 1) + p) = _
    rw [show 5000 * (n + 1 + 1) = 5000 * (n + 1) + 5000 from by ring, Finset.sum_range_add, add_assoc]

/-- After the last point the scratch holds the node features summed per graph (the graph ids' array is the id vector
    laid out as one column). -/
theorem accAt_last (c : Dev nD) (gid : IVec S100000 32)
    (hg : ∀ r : Fin 100000, V c (Pipeline.arrRef spec3 1) (ix2 r (0 : Fin 1)) = gid (ix1 r)) (h19 : 19 < cfg3.N) :
    Readout.accAt (F := Ideal) V c 19 h19 = Cert.Spec.pooled (F := Ideal) (V c (Pipeline.arrRef spec3 0)) gid := by
  funext j
  obtain ⟨gi, d, rfl⟩ : ∃ (gi : Fin 64) (d : Fin 128), j = ix2 gi d := ⟨j 0, j 1, eq_ix2 j⟩
  rw [accAt_apply V c gid hg gi d 19 h19, Cert.Spec.pooled_apply]
  refine congrArg (fun z : EReal => 0 + z) ?_
  rw [show 5000 * (19 + 1) = 100000 from rfl, ← Fin.sum_univ_eq_sum_range (term V c gid gi d) 100000]
  refine Finset.sum_congr rfl fun r _ => ?_
  unfold term
  rw [dif_pos r.isLt]

end Cert.KernelIdeal.ReadoutVal

end
-- ==== Proof.ValHead.lean ====
/-
  What the readout region leaves in its output array, over the extended reals: the softmax of the classifier's scores
  of the per-graph sums. The one 64×10 block is the whole array and is written back at the last point only.
-/
import proofs.«419035_j26560077758775_1_alg».proof.Proof.KiReadout
import proofs.«419035_j26560077758775_1_alg».proof.Proof.ValPool
import proofs.«419035_j26560077758775_1_alg».proof.Proof.ValSpec
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws
import Mathlib.Data.Finset.Fold

set_option maxRecDepth 16384

noncomputable section

namespace Cert.KernelIdeal.ReadoutVal

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

namespace Head

/-! ## A vector kept as a column and spread over the rows; a row spread down the rows -/

section Layout
variable {α : Type}

/-- A vector of `m` entries cast to one column and broadcast over `n` columns holds entry `g` all along row `g`. -/
theorem column_broadcastTo_apply {m n : ℕ} (v : (⟨1, ![m]⟩ : Shape).Idx → α)
    (h1 : (⟨1, ![m]⟩ : Shape).ShapeCasts ⟨2, ![m, 1]⟩) (hb : (⟨2, ![m, 1]⟩ : Shape).Broadcasts ⟨2, ![m, n]⟩)
    (g : Fin m) (j : Fin n) :
    broadcastTo ⟨2, ![m, n]⟩ (shapeCast ⟨2, ![m, 1]⟩ v h1) hb (ix2 g j) = v (ix1 g) := by
  refine (broadcastTo_apply (shapeCast ⟨2, ![m, 1]⟩ v h1) hb (ix2 g j) (ix2 g (0 : Fin 1)) ?_).trans ?_
  · intro a
    match a with
    | ⟨0, _⟩ =>
      show g.val = if m = 1 then 0 else g.val
      split
      · have := g.isLt; omega
      · rfl
    | ⟨1, _⟩ => rfl
  · refine shapeCast_apply v h1 (ix2 g (0 : Fin 1)) (ix1 g) ?_
    rw [Shape.rowMajor_val_two, Shape.rowMajor_val_one]
    show g.val = g.val * 1 + 0
    omega

/-- The host's spelling of the same: the vector broadcast to a column, the column along the rows. -/
theorem column_broadcastInDim_apply {m n : ℕ} (v : (⟨1, ![m]⟩ : Shape).Idx → α)
    (hd : (⟨1, ![m]⟩ : Shape).BroadcastsInDim ⟨2, ![m, 1]⟩ ![0])
    (hbc : (⟨2, ![m, 1]⟩ : Shape).BroadcastsInDim ⟨2, ![m, n]⟩ ![0, 1]) (g : Fin m) (j : Fin n) :
    broadcastInDim ⟨2, ![m, n]⟩ ![0, 1] hbc (broadcastInDim ⟨2, ![m, 1]⟩ ![0] hd v) (ix2 g j) = v (ix1 g) := by
  refine (broadcastInDim_apply ![0, 1] hbc _ (ix2 g j) (ix2 g (0 : Fin 1)) ?_).trans ?_
  · intro a
    match a with
    | ⟨0, _⟩ =>
      show g.val = if m = 1 then 0 else g.val
      split
      · have := g.isLt; omega
      · rfl
    | ⟨1, _⟩ => rfl
  · refine broadcastInDim_apply ![0] hd v (ix2 g (0 : Fin 1)) (ix1 g) ?_
    intro a
    match a with
    | ⟨0, _⟩ =>
      show g.val = if m = 1 then 0 else g.val
      split
      · have := g.isLt; omega
      · rfl

/-- A one-row block, cast to its own shape and broadcast down `m` rows, holds the row's entry `j` all down column `j`. -/
theorem row_broadcastTo_apply {m n : ℕ} (b : (⟨2, ![1, n]⟩ : Shape).Idx → α)
    (h1 : (⟨2, ![1, n]⟩ : Shape).ShapeCasts ⟨2, ![1, n]⟩) (hb : (⟨2, ![1, n]⟩ : Shape).Broadcasts ⟨2, ![m, n]⟩)
    (g : Fin m) (j : Fin n) :
    broadcastTo ⟨2, ![m, n]⟩ (shapeCast ⟨2, ![1, n]⟩ b h1) hb (ix2 g j) = b (ix2 (0 : Fin 1) j) := by
  rw [broadcastTo_1b_ab_apply]
  exact shapeCast_apply b h1 _ _ rfl

/-- The host's spelling: the vector broadcast to one row, the row down the rows. -/
theorem row_broadcastInDim_apply {m n : ℕ} (v : (⟨1, ![n]⟩ : Shape).Idx → α)
    (hd : (⟨1, ![n]⟩ : Shape).BroadcastsInDim ⟨2, ![1, n]⟩ ![1])
    (hbc : (⟨2, ![1, n]⟩ : Shape).BroadcastsInDim ⟨2, ![m, n]⟩ ![0, 1]) (g : Fin m) (j : Fin n) :
    broadcastInDim ⟨2, ![m, n]⟩ ![0, 1] hbc (broadcastInDim ⟨2, ![1, n]⟩ ![1] hd v) (ix2 g j) = v (ix1 j) := by
  rw [broadcastInDim_oneRow_apply]
  refine broadcastInDim_apply ![1] hd v (ix2 (0 : Fin 1) j) (ix1 j) ?_
  intro a
  match a with
  | ⟨0, _⟩ =>
    show j.val = if n = 1 then 0 else j.val
    split
    · have := j.isLt; omega
    · rfl

end Layout

/-! ## The row maximum and the row sum, in the two spellings -/

section Rows

/-- The larger of `c` and a maximum taken from `c` on is that maximum. -/
theorem max_fold_max_self {ι : Type} (s : Finset ι) (c : EReal) (f : ι → EReal) :
    max c (s.fold max c f) = s.fold max c f :=
  max_eq_right ((Finset.le_fold_max c).mpr (Or.inl le_rfl))

/-- The scores: the product into zeros plus the bias block down the rows is the host's product plus the bias vector
    along the rows. -/
theorem logits_eq (a : FVec Ideal S64x128 .f32) (w : FVec Ideal S128x10 .f32) (b1 : FVec Ideal S1x10 .f32) (bfc : FVec Ideal S10 .f32)
    (hb : ∀ j : Fin 10, b1 (ix2 (0 : Fin 1) j) = bfc (ix1 j))
    (h1 : S1x10.ShapeCasts S1x10) (hbr : S1x10.Broadcasts S64x10) :
    addf (matmul dot_S64x128_S128x10_S64x10_1_0_0_1_n_n (some .fp32) a w (constant S64x10 .f32 0x00000000#32))
        (broadcastTo S64x10 (shapeCast S1x10 b1 h1) hbr)
      = Cert.Spec.logits (F := Ideal) a w bfc := by
  funext i
  obtain ⟨g, j, rfl⟩ : ∃ (g : Fin 64) (j : Fin 10), i = ix2 g j := ⟨i 0, i 1, eq_ix2 i⟩
  unfold Cert.Spec.logits
  rw [addf_apply, addf_apply, row_broadcastTo_apply, row_broadcastInDim_apply, hb]
  congr 1
  show FloatOps.matmul _ _ _ _ _ _ = FloatOps.dotGeneral _ _ _ _ _ _
  rw [Ideal.matmul_constant_zero_apply, Ideal.dotGeneral_apply]
  rfl

/-- The row maximum kept as a column and spread back: the fold of max from −∞ over the row, in both spellings (the
    host takes the larger of −∞ and it once more, which changes nothing). -/
theorem rowMax_eq (l : FVec Ideal S64x10 .f32) (hr : S64x10.Reduces [1] S64) (hφ : FKind.Formats .f32)
    (hacc : (0xFF800000#32 : BitVec 32) = FKind.maximumf.neutral .f32 hφ)
    (h1 : S64.ShapeCasts S64x1) (hbr : S64x1.Broadcasts S64x10) :
    broadcastTo S64x10 (shapeCast S64x1 (multiReduction .maximumf [1] S64 l 0xFF800000#32 hr hφ hacc) h1) hbr
      = Cert.Spec.rowMax (F := Ideal) l := by
  funext i
  obtain ⟨g, j, rfl⟩ : ∃ (g : Fin 64) (j : Fin 10), i = ix2 g j := ⟨i 0, i 1, eq_ix2 i⟩
  unfold Cert.Spec.rowMax
  rw [column_broadcastTo_apply, column_broadcastInDim_apply, maximumf_apply, Ideal.multiReduction_maximumf_single,
    Host.reduce_eq_fold_single (FloatOps.maximumf (F := Ideal) (φ := .f32)) l _ _ hr _ (ix1 g)]
  exact (max_fold_max_self _ _ _).symm

/-- The row sum kept as a column and spread back, in both spellings. -/
theorem rowSum_eq (e : FVec Ideal S64x10 .f32) (hr : S64x10.Reduces [1] S64) (hφ : FKind.Formats .f32)
    (hacc : (0x00000000#32 : BitVec 32) = FKind.add.neutral .f32 hφ)
    (h1 : S64.ShapeCasts S64x1) (hbr : S64x1.Broadcasts S64x10)
    (hrt : S64x10.ReducesTo [1] S64) (hu : 0 < S_.numel)
    (hd : S64.BroadcastsInDim S64x1 ![0]) (hbc : S64x1.BroadcastsInDim S64x10 ![0, 1]) :
    broadcastTo S64x10 (shapeCast S64x1 (multiReduction .add [1] S64 e 0x00000000#32 hr hφ hacc) h1) hbr
      = broadcastInDim S64x10 ![0, 1] hbc (broadcastInDim S64x1 ![0] hd
          (Host.reduceAdd e (constant S_ .f32 0x00000000#32) hrt hu)) := by
  rw [multiReduction_add_eq_hostReduceAdd e _ hr hφ hacc (constant S_ .f32 0x00000000#32) hrt hu Ideal.ofBits_zero_f32]
  funext i
  obtain ⟨g, j, rfl⟩ : ∃ (g : Fin 64) (j : Fin 10), i = ix2 g j := ⟨i 0, i 1, eq_ix2 i⟩
  rw [column_broadcastTo_apply, column_broadcastInDim_apply]

/-- The row-wise softmax in the kernel's spelling is the host's. -/
theorem softmax_eq (l : FVec Ideal S64x10 .f32) (hr : S64x10.Reduces [1] S64) (hφ : FKind.Formats .f32)
    (hmax : (0xFF800000#32 : BitVec 32) = FKind.maximumf.neutral .f32 hφ)
    (hadd : (0x00000000#32 : BitVec 32) = FKind.add.neutral .f32 hφ)
    (h1 : S64.ShapeCasts S64x1) (hbr : S64x1.Broadcasts S64x10) :
    divf (exp (subf l (broadcastTo S64x10 (shapeCast S64x1 (multiReduction .maximumf [1] S64 l 0xFF800000#32 hr hφ hmax) h1) hbr)))
        (broadcastTo S64x10 (shapeCast S64x1 (multiReduction .add [1] S64
          (exp (subf l (broadcastTo S64x10 (shapeCast S64x1 (multiReduction .maximumf [1] S64 l 0xFF800000#32 hr hφ hmax) h1) hbr)))
          0x00000000#32 hr hφ hadd) h1) hbr)
      = Cert.Spec.softmax (F := Ideal) l := by
  unfold Cert.Spec.softmax
  rw [rowMax_eq l hr hφ hmax h1 hbr, rowSum_eq _ hr hφ hadd h1 hbr]
  rfl

end Rows

end Head

open Head

variable (V : (c : Dev nD) → (b : Ref sig .tc) → Buf (Elt Ideal) ((c : Thread nD τ).loc b))

/-- The body's last-point arithmetic is the softmax of the scores (the bias block is the bias vector laid out as one row). -/
theorem head_eq (a : FVec Ideal S64x128 .f32) (w : FVec Ideal S128x10 .f32) (b1 : FVec Ideal S1x10 .f32) (bfc : FVec Ideal S10 .f32)
    (hb : ∀ j : Fin 10, b1 (ix2 (0 : Fin 1) j) = bfc (ix1 j)) :
    k3_pay3 (F := Ideal) a w b1 = Cert.Spec.softmax (F := Ideal) (Cert.Spec.logits (F := Ideal) a w bfc) := by
  refine Eq.trans ?_ (softmax_eq (Cert.Spec.logits (F := Ideal) a w bfc) reduces_S64x10_S64 (.inl rfl) rfl rfl
    shapeCasts_S64_S64x1 broadcasts_S64x1_S64x10)
  rw [← logits_eq a w b1 bfc hb shapeCasts_S1x10_S1x10 broadcasts_S1x10_S64x10]
  rfl

/-! ## The output array -/

namespace Head

/-- The classifier's weights, its bias row and the output block are whole arrays: their index maps stay at block 0. -/
theorem idx_zero : ∀ t : Fin cfg3.N, win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- The weights' block is the weights' array. -/
theorem iblk_2 (c : Dev nD) (t : Fin cfg3.N) : Readout.iblk (F := Ideal) V c 2 t = V c (Pipeline.arrRef spec3 2) := by
  funext j
  show V c (Pipeline.arrRef spec3 2) (((cfg3.win 2).blk t).view.emb j) = V c (Pipeline.arrRef spec3 2) j
  congr 1
  obtain ⟨e0, e1, -, -, -, -⟩ := idx_zero t
  funext a; apply Fin.ext
  match a with
  | ⟨0, _⟩ => show win3_2.index t (0 : Fin 2) * 128 + 1 * (j 0).val = (j 0).val; omega
  | ⟨1, _⟩ => show win3_2.index t (1 : Fin 2) * 10 + 1 * (j 1).val = (j 1).val; omega

/-- The bias block is the bias array. -/
theorem iblk_3 (c : Dev nD) (t : Fin cfg3.N) : Readout.iblk (F := Ideal) V c 3 t = V c (Pipeline.arrRef spec3 3) := by
  funext j
  show V c (Pipeline.arrRef spec3 3) (((cfg3.win 3).blk t).view.emb j) = V c (Pipeline.arrRef spec3 3) j
  congr 1
  obtain ⟨-, -, e0, e1, -, -⟩ := idx_zero t
  funext a; apply Fin.ext
  match a with
  | ⟨0, _⟩ => show win3_3.index t (0 : Fin 2) * 1 + 1 * (j 0).val = (j 0).val; omega
  | ⟨1, _⟩ => show win3_3.index t (1 : Fin 2) * 10 + 1 * (j 1).val = (j 1).val; omega

/-- An index of the output array sits in the output block at itself. -/
theorem emb_4 (t : Fin cfg3.N) (j : S64x10.Idx) : ((cfg3.win 4).blk t).view.emb j = j := by
  obtain ⟨-, -, -, -, e0, e1⟩ := idx_zero t
  funext a; apply Fin.ext
  match a with
  | ⟨0, _⟩ => show win3_4.index t (0 : Fin 2) * 64 + 1 * (j 0).val = (j 0).val; omega
  | ⟨1, _⟩ => show win3_4.index t (1 : Fin 2) * 10 + 1 * (j 1).val = (j 1).val; omega

end Head

/-- The output array after the region. -/
theorem final (c : Dev nD) (gid : IVec S100000 32) (bfc : FVec Ideal S10 .f32)
    (hg : ∀ r : Fin 100000, V c (Pipeline.arrRef spec3 1) (ix2 r (0 : Fin 1)) = gid (ix1 r))
    (hb : ∀ j : Fin 10, V c (Pipeline.arrRef spec3 3) (ix2 (0 : Fin 1) j) = bfc (ix1 j)) :
    (Readout.dat (F := Ideal) V c).arrAt 4 cfg3.N
      = Cert.Spec.softmax (F := Ideal) (Cert.Spec.logits (F := Ideal) (Cert.Spec.pooled (F := Ideal) (V c (Pipeline.arrRef spec3 0)) gid) (V c (Pipeline.arrRef spec3 2)) bfc) := by
  have h19 : 19 < cfg3.N := by decide
  refine Dat.arrAt_eq_of_cover (Readout.dat (F := Ideal) V c) 4 _ ?_ ?_
  · intro t hf
    have ht : t.val = 19 := by
      have h1 := (flush3_4 t).mp hf
      have h2 : t.val < 20 := t.isLt
      omega
    have e : t = ⟨19, h19⟩ := Fin.ext ht
    subst e
    show (Readout.dat (F := Ideal) V c).after 4 ⟨19, h19⟩ = _
    rw [Readout.after_4]
    show k3_pay3 (Readout.accAt (F := Ideal) V c 19 h19) _ _ = _
    rw [accAt_last V c gid hg h19, iblk_2, iblk_3,
      head_eq _ _ _ bfc hb]
    funext j
    show _ = Cert.Spec.softmax (F := Ideal) _ (((cfg3.win 4).blk ⟨19, h19⟩).view.emb j)
    rw [emb_4]
  · intro i
    refine ⟨⟨19, h19⟩, (flush3_4 _).mpr rfl, ?_⟩
    have := ((cfg3.win 4).blk ⟨19, h19⟩).view.emb_mem_set i
    rwa [emb_4] at this

end Cert.KernelIdeal.ReadoutVal

end
-- ==== Proof.ValHost.lean ====
/-
  The four stretches of host operations, each read at the buffers the next region takes: a layer's stretch leaves the
  neighbours' weighted sums of the feature buffer it reads, the layer's bias vector laid out as one row, and every
  buffer it does not write as it found it; the last stretch lays the graph ids out as a column and the classifier's
  bias as a row.
-/
import proofs.«419035_j26560077758775_1_alg».proof.Proof.Gen.KernelIdeal.Launch
import proofs.«419035_j26560077758775_1_alg».proof.Proof.ValSpec
import proofs.«419035_j26560077758775_1_alg».proof.Proof.Gen.KernelIdeal.Regions
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Value

open Cert.KernelIdeal Cert.KernelIdeal.Gen
open Idealize.ShloMosaic Idealize.ShloMosaic.TcCoe Idealize.ShloMosaic.ValueIdx
open Idealize.SL Idealize.SL.Sem

variable {F : FTy → Type} [FloatOps F]

variable (W : Valuation τ sig (Elt F))

set_option maxHeartbeats 1000000 in
/-- Stretch 0 leaves the neighbours' weighted sums of the features it reads in the next region's first array. -/
theorem host0_agg :
    StableHlo.after hostOps0 W (Proc.devRef .tc main_v12)
      = Cert.Spec.agg (F := F) (W (Proc.devRef .tc main_arg0)) (W (Proc.devRef .tc main_arg1)) (W (Proc.devRef .tc main_arg2)) (W (Proc.devRef .tc main_arg3)) := by
  after_results_simp
  rfl

set_option maxHeartbeats 1000000 in
/-- Stretch 0 lays the layer's bias vector out as one row. -/
theorem host0_bias (j : Fin 128) :
    StableHlo.after hostOps0 W (Proc.devRef .tc main_v13) (ix2 (0 : Fin 1) j) = W (Proc.devRef .tc main_arg6) (ix1 j) := by
  have e : StableHlo.after hostOps0 W (Proc.devRef .tc main_v13)
      = shapeCast S1x128 (W (Proc.devRef .tc main_arg6)) shapeCasts_S128_S1x128 := by
    after_results_simp
    rfl
  rw [e]
  exact shapeCast_a_1a_apply _ _ 0 j

/-- A buffer stretch 0 does not write is as the stretch found it. -/
theorem host0_keep (r : Ref sig .tc) (h : r ∉ hostOps0_W) :
    StableHlo.after hostOps0 W (Proc.devRef .tc r) = W (Proc.devRef .tc r) :=
  StableHlo.after_of_writes_sub hostOps0 W hostOps0_writes h

set_option maxHeartbeats 1000000 in
/-- Stretch 1 leaves the neighbours' weighted sums of the features it reads in the next region's first array. -/
theorem host1_agg :
    StableHlo.after hostOps1 W (Proc.devRef .tc main_v27)
      = Cert.Spec.agg (F := F) (W (Proc.devRef .tc main_v14)) (W (Proc.devRef .tc main_arg1)) (W (Proc.devRef .tc main_arg2)) (W (Proc.devRef .tc main_arg3)) := by
  after_results_simp
  rfl

set_option maxHeartbeats 1000000 in
/-- Stretch 1 lays the layer's bias vector out as one row. -/
theorem host1_bias (j : Fin 128) :
    StableHlo.after hostOps1 W (Proc.devRef .tc main_v28) (ix2 (0 : Fin 1) j) = W (Proc.devRef .tc main_arg9) (ix1 j) := by
  have e : StableHlo.after hostOps1 W (Proc.devRef .tc main_v28)
      = shapeCast S1x128 (W (Proc.devRef .tc main_arg9)) shapeCasts_S128_S1x128 := by
    after_results_simp
    rfl
  rw [e]
  exact shapeCast_a_1a_apply _ _ 0 j

/-- A buffer stretch 1 does not write is as the stretch found it. -/
theorem host1_keep (r : Ref sig .tc) (h : r ∉ hostOps1_W) :
    StableHlo.after hostOps1 W (Proc.devRef .tc r) = W (Proc.devRef .tc r) :=
  StableHlo.after_of_writes_sub hostOps1 W hostOps1_writes h

set_option maxHeartbeats 1000000 in
/-- Stretch 2 leaves the neighbours' weighted sums of the features it reads in the next region's first array. -/
theorem host2_agg :
    StableHlo.after hostOps2 W (Proc.devRef .tc main_v42)
      = Cert.Spec.agg (F := F) (W (Proc.devRef .tc main_v29)) (W (Proc.devRef .tc main_arg1)) (W (Proc.devRef .tc main_arg2)) (W (Proc.devRef .tc main_arg3)) := by
  after_results_simp
  rfl

set_option maxHeartbeats 1000000 in
/-- Stretch 2 lays the layer's bias vector out as one row. -/
theorem host2_bias (j : Fin 128) :
    StableHlo.after hostOps2 W (Proc.devRef .tc main_v43) (ix2 (0 : Fin 1) j) = W (Proc.devRef .tc main_arg12) (ix1 j) := by
  have e : StableHlo.after hostOps2 W (Proc.devRef .tc main_v43)
      = shapeCast S1x128 (W (Proc.devRef .tc main_arg12)) shapeCasts_S128_S1x128 := by
    after_results_simp
    rfl
  rw [e]
  exact shapeCast_a_1a_apply _ _ 0 j

/-- A buffer stretch 2 does not write is as the stretch found it. -/
theorem host2_keep (r : Ref sig .tc) (h : r ∉ hostOps2_W) :
    StableHlo.after hostOps2 W (Proc.devRef .tc r) = W (Proc.devRef .tc r) :=
  StableHlo.after_of_writes_sub hostOps2 W hostOps2_writes h

/-- The last stretch lays the graph ids out as one column. -/
theorem host3_gid (r : Fin 100000) :
    StableHlo.after hostOps3 W (Proc.devRef .tc main_v45) (ix2 r (0 : Fin 1)) = W (Proc.devRef .tc main_arg4) (ix1 r) := by
  have e : StableHlo.after hostOps3 W (Proc.devRef .tc main_v45)
      = shapeCast S100000x1 (W (Proc.devRef .tc main_arg4)) shapeCasts_S100000_S100000x1 := by
    after_results_simp
    rfl
  rw [e]
  refine shapeCast_apply (s := S100000) (t := S100000x1) _ _ (ix2 r (0 : Fin 1)) (ix1 r) ?_
  rw [Shape.rowMajor_val_two, Shape.rowMajor_val_one]
  show r.val = r.val * 1 + 0
  omega

/-- The last stretch lays the classifier's bias vector out as one row. -/
theorem host3_bias (j : Fin 10) :
    StableHlo.after hostOps3 W (Proc.devRef .tc main_v46) (ix2 (0 : Fin 1) j) = W (Proc.devRef .tc main_arg15) (ix1 j) := by
  have e : StableHlo.after hostOps3 W (Proc.devRef .tc main_v46)
      = shapeCast S1x10 (W (Proc.devRef .tc main_arg15)) shapeCasts_S10_S1x10 := by
    after_results_simp
    rfl
  rw [e]
  exact shapeCast_a_1a_apply _ _ 0 j

/-- A buffer stretch 3 does not write is as the stretch found it. -/
theorem host3_keep (r : Ref sig .tc) (h : r ∉ hostOps3_W) :
    StableHlo.after hostOps3 W (Proc.devRef .tc r) = W (Proc.devRef .tc r) :=
  StableHlo.after_of_writes_sub hostOps3 W hostOps3_writes h

end Cert.KernelIdeal.Value

end
-- ==== Proof.ValKernel.lean ====
/-
  The kernel program computes the network: folding its eight items from the launch memory, the result buffer ends at
  the composition `Spec.network` of the launch contents of its arguments — each stretch of host operations hands the
  next region the neighbours' weighted sums of what the region before left, each layer's region leaves the dense half
  of the layer, and the readout leaves the softmax of the classifier's scores of the per-graph sums.
-/
import proofs.«419035_j26560077758775_1_alg».proof.Proof.KiFold
import proofs.«419035_j26560077758775_1_alg».proof.Proof.ValLayer0
import proofs.«419035_j26560077758775_1_alg».proof.Proof.ValLayer1
import proofs.«419035_j26560077758775_1_alg».proof.Proof.ValLayer2
import proofs.«419035_j26560077758775_1_alg».proof.Proof.ValHead
import proofs.«419035_j26560077758775_1_alg».proof.Proof.ValHost
import Idealize.ShloMosaic.Lib.StableHlo.Run

set_option maxRecDepth 16384

noncomputable section

namespace Cert.KernelIdeal.Value

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The launch contents of a buffer of core `c`. -/
abbrev L (c : Dev nD) (r : Ref sig .tc) : Buf (Elt Ideal) ((c.tc : Thread nD τ).loc r) := m ((c.tc : Thread nD τ).loc r)

/-! ## A buffer nothing has written yet holds its launch contents

At each boundary, a buffer that no stretch so far writes and that is no array of a region so far is as launched. -/

section Kept
variable (c : Dev nD) (r : Ref sig .tc)

theorem at1 (h0 : r ∉ hostOps0_W) : Fold.W1 (F := Ideal) m ρ c (Proc.devRef .tc r) = L m c r :=
  host0_keep (Fold.W0 (F := Ideal) m ρ c) r h0
theorem at2 (h0 : r ∉ hostOps0_W) (n0 : ∀ w, Pipeline.arrRef spec0 w ≠ r) :
    Fold.W2 (F := Ideal) m ρ c (Proc.devRef .tc r) = L m c r :=
  (Fold.W2_of_ne m ρ c r n0).trans (at1 m ρ c r h0)
theorem at3 (h0 : r ∉ hostOps0_W) (n0 : ∀ w, Pipeline.arrRef spec0 w ≠ r) (h1 : r ∉ hostOps1_W) :
    Fold.W3 (F := Ideal) m ρ c (Proc.devRef .tc r) = L m c r :=
  (host1_keep (Fold.W2 (F := Ideal) m ρ c) r h1).trans (at2 m ρ c r h0 n0)
theorem at4 (h0 : r ∉ hostOps0_W) (n0 : ∀ w, Pipeline.arrRef spec0 w ≠ r) (h1 : r ∉ hostOps1_W)
    (n1 : ∀ w, Pipeline.arrRef spec1 w ≠ r) : Fold.W4 (F := Ideal) m ρ c (Proc.devRef .tc r) = L m c r :=
  (Fold.W4_of_ne m ρ c r n1).trans (at3 m ρ c r h0 n0 h1)
theorem at5 (h0 : r ∉ hostOps0_W) (n0 : ∀ w, Pipeline.arrRef spec0 w ≠ r) (h1 : r ∉ hostOps1_W)
    (n1 : ∀ w, Pipeline.arrRef spec1 w ≠ r) (h2 : r ∉ hostOps2_W) :
    Fold.W5 (F := Ideal) m ρ c (Proc.devRef .tc r) = L m c r :=
  (host2_keep (Fold.W4 (F := Ideal) m ρ c) r h2).trans (at4 m ρ c r h0 n0 h1 n1)
theorem at6 (h0 : r ∉ hostOps0_W) (n0 : ∀ w, Pipeline.arrRef spec0 w ≠ r) (h1 : r ∉ hostOps1_W)
    (n1 : ∀ w, Pipeline.arrRef spec1 w ≠ r) (h2 : r ∉ hostOps2_W) (n2 : ∀ w, Pipeline.arrRef spec2 w ≠ r) :
    Fold.W6 (F := Ideal) m ρ c (Proc.devRef .tc r) = L m c r :=
  (Fold.W6_of_ne m ρ c r n2).trans (at5 m ρ c r h0 n0 h1 n1 h2)
theorem at7 (h0 : r ∉ hostOps0_W) (n0 : ∀ w, Pipeline.arrRef spec0 w ≠ r) (h1 : r ∉ hostOps1_W)
    (n1 : ∀ w, Pipeline.arrRef spec1 w ≠ r) (h2 : r ∉ hostOps2_W) (n2 : ∀ w, Pipeline.arrRef spec2 w ≠ r)
    (h3 : r ∉ hostOps3_W) : Fold.W7 (F := Ideal) m ρ c (Proc.devRef .tc r) = L m c r :=
  (host3_keep (Fold.W6 (F := Ideal) m ρ c) r h3).trans (at6 m ρ c r h0 n0 h1 n1 h2 n2)

end Kept

/-! ## The three layers -/

/-- The first layer's region leaves the first layer of the launched features. -/
theorem out0 (c : Dev nD) :
    Fold.W2 (F := Ideal) m ρ c (Proc.devRef .tc main_v14)
      = Cert.Spec.layer (F := Ideal) (L m c main_arg0) (L m c main_arg1) (L m c main_arg2) (L m c main_arg3)
          (L m c main_arg5) (L m c main_arg6) (L m c main_arg7) := by
  have hb : ∀ j : Fin 128, Fold.V1 (F := Ideal) m ρ c (Pipeline.arrRef spec0 4) (ix2 (0 : Fin 1) j) = L m c main_arg6 (ix1 j) :=
    fun j => host0_bias (Fold.W0 (F := Ideal) m ρ c) j
  have e := Layer0Val.final (Fold.V1 (F := Ideal) m ρ) c (L m c main_arg6) hb
  have a0 : Fold.V1 (F := Ideal) m ρ c (Pipeline.arrRef spec0 0)
      = Cert.Spec.agg (F := Ideal) (L m c main_arg0) (L m c main_arg1) (L m c main_arg2) (L m c main_arg3) :=
    host0_agg (Fold.W0 (F := Ideal) m ρ c)
  have a1 : Fold.V1 (F := Ideal) m ρ c (Pipeline.arrRef spec0 1) = L m c main_arg0 := at1 m ρ c main_arg0 (by decide)
  have a2 : Fold.V1 (F := Ideal) m ρ c (Pipeline.arrRef spec0 2) = L m c main_arg5 := at1 m ρ c main_arg5 (by decide)
  have a3 : Fold.V1 (F := Ideal) m ρ c (Pipeline.arrRef spec0 3) = L m c main_arg7 := at1 m ρ c main_arg7 (by decide)
  rw [a0, a1, a2, a3] at e
  exact (Fold.W2_arr m ρ c 5).trans e

/-- The second layer's region leaves the second layer of what the first left. -/
theorem out1 (c : Dev nD) :
    Fold.W4 (F := Ideal) m ρ c (Proc.devRef .tc main_v29)
      = Cert.Spec.layer (F := Ideal) (Cert.Spec.layer (F := Ideal) (L m c main_arg0) (L m c main_arg1) (L m c main_arg2) (L m c main_arg3) (L m c main_arg5) (L m c main_arg6) (L m c main_arg7)) (L m c main_arg1) (L m c main_arg2) (L m c main_arg3) (L m c main_arg8) (L m c main_arg9) (L m c main_arg10) := by
  have hb : ∀ j : Fin 128, Fold.V3 (F := Ideal) m ρ c (Pipeline.arrRef spec1 4) (ix2 (0 : Fin 1) j) = L m c main_arg9 (ix1 j) :=
    fun j => (host1_bias (Fold.W2 (F := Ideal) m ρ c) j).trans (congrFun (at2 m ρ c main_arg9 (by decide) (by decide)) (ix1 j))
  have e := Layer1Val.final (Fold.V3 (F := Ideal) m ρ) c (L m c main_arg9) hb
  have a0 : Fold.V3 (F := Ideal) m ρ c (Pipeline.arrRef spec1 0)
      = Cert.Spec.agg (F := Ideal) (Cert.Spec.layer (F := Ideal) (L m c main_arg0) (L m c main_arg1) (L m c main_arg2) (L m c main_arg3) (L m c main_arg5) (L m c main_arg6) (L m c main_arg7)) (L m c main_arg1) (L m c main_arg2) (L m c main_arg3) :=
    (host1_agg (Fold.W2 (F := Ideal) m ρ c)).trans (by
      rw [out0 m ρ c, at2 m ρ c main_arg1 (by decide) (by decide), at2 m ρ c main_arg2 (by decide) (by decide), at2 m ρ c main_arg3 (by decide) (by decide)])
  have a1 : Fold.V3 (F := Ideal) m ρ c (Pipeline.arrRef spec1 1) = Cert.Spec.layer (F := Ideal) (L m c main_arg0) (L m c main_arg1) (L m c main_arg2) (L m c main_arg3) (L m c main_arg5) (L m c main_arg6) (L m c main_arg7) :=
    (host1_keep (Fold.W2 (F := Ideal) m ρ c) main_v14 (by decide)).trans (out0 m ρ c)
  have a2 : Fold.V3 (F := Ideal) m ρ c (Pipeline.arrRef spec1 2) = L m c main_arg8 := at3 m ρ c main_arg8 (by decide) (by decide) (by decide)
  have a3 : Fold.V3 (F := Ideal) m ρ c (Pipeline.arrRef spec1 3) = L m c main_arg10 := at3 m ρ c main_arg10 (by decide) (by decide) (by decide)
  rw [a0, a1, a2, a3] at e
  exact (Fold.W4_arr m ρ c 5).trans e

/-- The third layer's region leaves the third layer of what the second left. -/
theorem out2 (c : Dev nD) :
    Fold.W6 (F := Ideal) m ρ c (Proc.devRef .tc main_v44)
      = Cert.Spec.layer (F := Ideal) (Cert.Spec.layer (F := Ideal) (Cert.Spec.layer (F := Ideal) (L m c main_arg0) (L m c main_arg1) (L m c main_arg2) (L m c main_arg3) (L m c main_arg5) (L m c main_arg6) (L m c main_arg7)) (L m c main_arg1) (L m c main_arg2) (L m c main_arg3) (L m c main_arg8) (L m c main_arg9) (L m c main_arg10)) (L m c main_arg1) (L m c main_arg2) (L m c main_arg3) (L m c main_arg11) (L m c main_arg12) (L m c main_arg13) := by
  have hb : ∀ j : Fin 128, Fold.V5 (F := Ideal) m ρ c (Pipeline.arrRef spec2 4) (ix2 (0 : Fin 1) j) = L m c main_arg12 (ix1 j) :=
    fun j => (host2_bias (Fold.W4 (F := Ideal) m ρ c) j).trans (congrFun (at4 m ρ c main_arg12 (by decide) (by decide) (by decide) (by decide)) (ix1 j))
  have e := Layer2Val.final (Fold.V5 (F := Ideal) m ρ) c (L m c main_arg12) hb
  have a0 : Fold.V5 (F := Ideal) m ρ c (Pipeline.arrRef spec2 0)
      = Cert.Spec.agg (F := Ideal) (Cert.Spec.layer (F := Ideal) (Cert.Spec.layer (F := Ideal) (L m c main_arg0) (L m c main_arg1) (L m c main_arg2) (L m c main_arg3) (L m c main_arg5) (L m c main_arg6) (L m c main_arg7)) (L m c main_arg1) (L m c main_arg2) (L m c main_arg3) (L m c main_arg8) (L m c main_arg9) (L m c main_arg10)) (L m c main_arg1) (L m c main_arg2) (L m c main_arg3) :=
    (host2_agg (Fold.W4 (F := Ideal) m ρ c)).trans (by
      rw [out1 m ρ c, at4 m ρ c main_arg1 (by decide) (by decide) (by decide) (by decide), at4 m ρ c main_arg2 (by decide) (by decide) (by decide) (by decide), at4 m ρ c main_arg3 (by decide) (by decide) (by decide) (by decide)])
  have a1 : Fold.V5 (F := Ideal) m ρ c (Pipeline.arrRef spec2 1) = Cert.Spec.layer (F := Ideal) (Cert.Spec.layer (F := Ideal) (L m c main_arg0) (L m c main_arg1) (L m c main_arg2) (L m c main_arg3) (L m c main_arg5) (L m c main_arg6) (L m c main_arg7)) (L m c main_arg1) (L m c main_arg2) (L m c main_arg3) (L m c main_arg8) (L m c main_arg9) (L m c main_arg10) :=
    (host2_keep (Fold.W4 (F := Ideal) m ρ c) main_v29 (by decide)).trans (out1 m ρ c)
  have a2 : Fold.V5 (F := Ideal) m ρ c (Pipeline.arrRef spec2 2) = L m c main_arg11 := at5 m ρ c main_arg11 (by decide) (by decide) (by decide) (by decide) (by decide)
  have a3 : Fold.V5 (F := Ideal) m ρ c (Pipeline.arrRef spec2 3) = L m c main_arg13 := at5 m ρ c main_arg13 (by decide) (by decide) (by decide) (by decide) (by decide)
  rw [a0, a1, a2, a3] at e
  exact (Fold.W6_arr m ρ c 5).trans e

/-! ## The readout -/

/-- The result buffer at the program's end holds the network of the arguments' launch contents. -/
theorem kernel_value (c : Dev nD) :
    Fold.W8 (F := Ideal) m ρ c (Proc.devRef .tc main_v47)
      = Cert.Spec.network (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  have hg : ∀ r : Fin 100000, Fold.V7 (F := Ideal) m ρ c (Pipeline.arrRef spec3 1) (ix2 r (0 : Fin 1)) = L m c main_arg4 (ix1 r) :=
    fun r => (host3_gid (Fold.W6 (F := Ideal) m ρ c) r).trans (congrFun (at6 m ρ c main_arg4 (by decide) (by decide) (by decide) (by decide) (by decide) (by decide)) (ix1 r))
  have hb : ∀ j : Fin 10, Fold.V7 (F := Ideal) m ρ c (Pipeline.arrRef spec3 3) (ix2 (0 : Fin 1) j) = L m c main_arg15 (ix1 j) :=
    fun j => (host3_bias (Fold.W6 (F := Ideal) m ρ c) j).trans (congrFun (at6 m ρ c main_arg15 (by decide) (by decide) (by decide) (by decide) (by decide) (by decide)) (ix1 j))
  have e := ReadoutVal.final (Fold.V7 (F := Ideal) m ρ) c (L m c main_arg4) (L m c main_arg15) hg hb
  have a0 : Fold.V7 (F := Ideal) m ρ c (Pipeline.arrRef spec3 0) = Cert.Spec.layer (F := Ideal) (Cert.Spec.layer (F := Ideal) (Cert.Spec.layer (F := Ideal) (L m c main_arg0) (L m c main_arg1) (L m c main_arg2) (L m c main_arg3) (L m c main_arg5) (L m c main_arg6) (L m c main_arg7)) (L m c main_arg1) (L m c main_arg2) (L m c main_arg3) (L m c main_arg8) (L m c main_arg9) (L m c main_arg10)) (L m c main_arg1) (L m c main_arg2) (L m c main_arg3) (L m c main_arg11) (L m c main_arg12) (L m c main_arg13) :=
    (host3_keep (Fold.W6 (F := Ideal) m ρ c) main_v44 (by decide)).trans (out2 m ρ c)
  have a2 : Fold.V7 (F := Ideal) m ρ c (Pipeline.arrRef spec3 2) = L m c main_arg14 := at7 m ρ c main_arg14 (by decide) (by decide) (by decide) (by decide) (by decide) (by decide) (by decide)
  rw [a0, a2] at e
  exact (Fold.W8_arr m ρ c 4).trans e

end Cert.KernelIdeal.Value

end
-- ==== Proof.ValRef.lean ====
/-
  The reference program computes the network: the term its run leaves in the result buffer is, unfolded, the
  composition `Spec.network` of its argument arrays; and it leaves the arguments as they were.
-/
import proofs.«419035_j26560077758775_1_alg».proof.Defs
import proofs.«419035_j26560077758775_1_alg».proof.Proof.ValSpec
import proofs.«419035_j26560077758775_1_alg».proof.Proof.Gen.ReferenceIdeal.Run
import proofs.«419035_j26560077758775_1_alg».proof.Proof.Gen.Pre_finite_inputs

set_option maxRecDepth 16384

noncomputable section

namespace Cert.RefValue

open Idealize.ShloMosaic Idealize.ShloMosaic.TcCoe Idealize.SL.Sem

variable {F : FTy → Type} [FloatOps F]

set_option maxHeartbeats 4000000 in
/-- The result term of the reference's run is the network of the launch contents of its arguments. -/
theorem res_eq (m : (ℓ : Loc Cert.ReferenceIdeal.nD Cert.ReferenceIdeal.τ Cert.ReferenceIdeal.sig) → Buf (Elt F) ℓ) (c : Dev Cert.ReferenceIdeal.nD) :
    Cert.ReferenceIdeal.Value.res_main_v77 (F := F) m c
      = Cert.Spec.network (F := F) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) := by
  unfold Cert.ReferenceIdeal.Value.res_main_v77 Cert.Spec.network Cert.Spec.softmax Cert.Spec.rowMax Cert.Spec.logits Cert.Spec.pooled Cert.Spec.layer Cert.Spec.dense Cert.Spec.agg Cert.Spec.rowIdx
  rfl

/-- The reference runs to the end and leaves its arguments unchanged: its run with the result dropped. -/
theorem frame : Cert.frame_ReferenceIdeal := fun m ρ _ =>
  (θ_run Cert.ReferenceIdeal.defs _ _).mono (fun _ h c => (h c).2) (Cert.ReferenceIdeal.Value.run (F := Ideal) m ρ)

end Cert.RefValue

end
-- ==== Proof.lean ====
/-
  The certificate's five claims. Both kernel programs (the word-level one and its reading over the extended reals) run
  their four regions among the host stretches to the end and leave their arguments untouched; the reference does
  too; the idealisation rewrote nothing; and over the extended reals the kernel program and the reference both end at
  the network `Spec.network` of their arguments, so from agreeing arguments they end with equal results.
-/
import proofs.«419035_j26560077758775_1_alg».proof.Defs
import proofs.«419035_j26560077758775_1_alg».proof.Proof.Gen.Kernel
import proofs.«419035_j26560077758775_1_alg».proof.Proof.Gen.KernelIdeal
import proofs.«419035_j26560077758775_1_alg».proof.Proof.Gen.ReferenceIdeal
import proofs.«419035_j26560077758775_1_alg».proof.Proof.Gen.Pre_finite_inputs
import proofs.«419035_j26560077758775_1_alg».proof.Proof.KRun
import proofs.«419035_j26560077758775_1_alg».proof.Proof.KiRun
import proofs.«419035_j26560077758775_1_alg».proof.Proof.ValKernel
import proofs.«419035_j26560077758775_1_alg».proof.Proof.ValRef
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Run.frame (F := Bits) m ρ

theorem frame_ki : Cert.frame_KernelIdeal := fun m ρ _ => Cert.KernelIdeal.Run.frame (F := Ideal) m ρ

theorem frame_ri : Cert.frame_ReferenceIdeal := Cert.RefValue.frame

/-- From arguments that agree, both programs end at the network of them. -/
theorem algebraic : Cert.algebraic_KernelIdeal_ReferenceIdeal := by
  intro m ρ m' ρ' _ hagree
  refine ⟨fun c => Cert.Spec.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · refine (θ_run Cert.KernelIdeal.defs _ _).mono (fun r h c => ?_) (Cert.KernelIdeal.Run.run_main (F := Ideal) m ρ)
    exact ⟨(h c _ (Cert.KernelIdeal.Run.mem_uc Cert.KernelIdeal.main_v47 (by decide))).trans (Cert.KernelIdeal.Value.kernel_value m ρ c),
      (h c _ (Cert.KernelIdeal.Run.mem_uc Cert.KernelIdeal.main_arg0 (by decide))).trans (Cert.KernelIdeal.Run.W8_main_arg0 m ρ c),
      (h c _ (Cert.KernelIdeal.Run.mem_uc Cert.KernelIdeal.main_arg1 (by decide))).trans (Cert.KernelIdeal.Run.W8_main_arg1 m ρ c),
      (h c _ (Cert.KernelIdeal.Run.mem_uc Cert.KernelIdeal.main_arg2 (by decide))).trans (Cert.KernelIdeal.Run.W8_main_arg2 m ρ c),
      (h c _ (Cert.KernelIdeal.Run.mem_uc Cert.KernelIdeal.main_arg3 (by decide))).trans (Cert.KernelIdeal.Run.W8_main_arg3 m ρ c),
      (h c _ (Cert.KernelIdeal.Run.mem_uc Cert.KernelIdeal.main_arg4 (by decide))).trans (Cert.KernelIdeal.Run.W8_main_arg4 m ρ c),
      (h c _ (Cert.KernelIdeal.Run.mem_uc Cert.KernelIdeal.main_arg5 (by decide))).trans (Cert.KernelIdeal.Run.W8_main_arg5 m ρ c),
      (h c _ (Cert.KernelIdeal.Run.mem_uc Cert.KernelIdeal.main_arg6 (by decide))).trans (Cert.KernelIdeal.Run.W8_main_arg6 m ρ c),
      (h c _ (Cert.KernelIdeal.Run.mem_uc Cert.KernelIdeal.main_arg7 (by decide))).trans (Cert.KernelIdeal.Run.W8_main_arg7 m ρ c),
      (h c _ (Cert.KernelIdeal.Run.mem_uc Cert.KernelIdeal.main_arg8 (by decide))).trans (Cert.KernelIdeal.Run.W8_main_arg8 m ρ c),
      (h c _ (Cert.KernelIdeal.Run.mem_uc Cert.KernelIdeal.main_arg9 (by decide))).trans (Cert.KernelIdeal.Run.W8_main_arg9 m ρ c),
      (h c _ (Cert.KernelIdeal.Run.mem_uc Cert.KernelIdeal.main_arg10 (by decide))).trans (Cert.KernelIdeal.Run.W8_main_arg10 m ρ c),
      (h c _ (Cert.KernelIdeal.Run.mem_uc Cert.KernelIdeal.main_arg11 (by decide))).trans (Cert.KernelIdeal.Run.W8_main_arg11 m ρ c),
      (h c _ (Cert.KernelIdeal.Run.mem_uc Cert.KernelIdeal.main_arg12 (by decide))).trans (Cert.KernelIdeal.Run.W8_main_arg12 m ρ c),
      (h c _ (Cert.KernelIdeal.Run.mem_uc Cert.KernelIdeal.main_arg13 (by decide))).trans (Cert.KernelIdeal.Run.W8_main_arg13 m ρ c),
      (h c _ (Cert.KernelIdeal.Run.mem_uc Cert.KernelIdeal.main_arg14 (by decide))).trans (Cert.KernelIdeal.Run.W8_main_arg14 m ρ c),
      (h c _ (Cert.KernelIdeal.Run.mem_uc Cert.KernelIdeal.main_arg15 (by decide))).trans (Cert.KernelIdeal.Run.W8_main_arg15 m ρ c)⟩
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15⟩ := hagree c
    rw [Cert.RefValue.res_eq, e0, e1, e2, e3, e4, e5, e6, e7, e8, e9, e10, e11, e12, e13, e14, e15]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
